-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x8x256 : Shape := ⟨3, ![4096, 8, 256]⟩
abbrev S4096x4096 : Shape := ⟨2, ![4096, 4096]⟩
abbrev S_ : Shape := ⟨0, ![]⟩

class Facts : Prop where
  bcast_S_S4096x8x256 : S_.BroadcastsInDim S4096x8x256 (![] : Fin 0 → Fin S4096x8x256.rank)
  reducesTo_S4096x8x256_S_d0_1_2 : S4096x8x256.ReducesTo [0, 1, 2] S_
  h_S_ : 0 < S_.numel

variable [Facts]

def fn {F : FTy → Type} [FloatOps F] (main_arg0 : FVec F S4096x8x256 .f32) (main_arg1 : FVec F S4096x8x256 .f32) (main_arg2 : IVec S4096x4096 32) : IVec S_ 1 :=
  let main_v0 : FVec F S4096x8x256 .f32 := Host.absf main_arg0
  let main_cst : FVec F S_ .f32 := constant S_ .f32 0x7F800000#32
  let main_v1 : FVec F S4096x8x256 .f32 := broadcastInDim S4096x8x256 ![] bcast_S_S4096x8x256 main_cst
  let main_v2 : IVec S4096x8x256 1 := cmpf .olt main_v0 main_v1
  let main_c : IVec S_ 1 := constantI S_ 1 1#1
  let main_v3 : IVec S_ 1 := (fun x v => Host.reduce IntOp.andi x v reducesTo_S4096x8x256_S_d0_1_2 h_S_) main_v2 main_c
  let main_v4 : FVec F S4096x8x256 .f32 := Host.absf main_arg1
  let main_cst_0 : FVec F S_ .f32 := constant S_ .f32 0x7F800000#32
  let main_v5 : FVec F S4096x8x256 .f32 := broadcastInDim S4096x8x256 ![] bcast_S_S4096x8x256 main_cst_0
  let main_v6 : IVec S4096x8x256 1 := cmpf .olt main_v4 main_v5
  let main_c_1 : IVec S_ 1 := constantI S_ 1 1#1
  let main_v7 : IVec S_ 1 := (fun x v => Host.reduce IntOp.andi x v reducesTo_S4096x8x256_S_d0_1_2 h_S_) main_v6 main_c_1
  let main_v8 : IVec S_ 1 := andi main_v3 main_v7
  main_v8
-- ==== Kernel.lean ====
abbrev S4096x8x256 : Shape := ⟨3, ![4096, 8, 256]⟩
abbrev S4096x4096 : Shape := ⟨2, ![4096, 4096]⟩
abbrev S4096x256 : Shape := ⟨2, ![4096, 256]⟩
abbrev S512x8x256 : Shape := ⟨3, ![512, 8, 256]⟩
abbrev S512x256 : Shape := ⟨2, ![512, 256]⟩
abbrev S512 : Shape := ⟨1, ![512]⟩
abbrev S512x1 : Shape := ⟨2, ![512, 1]⟩
abbrev S4096x1 : Shape := ⟨2, ![4096, 1]⟩
abbrev S512x512 : Shape := ⟨2, ![512, 512]⟩
abbrev S256x512 : Shape := ⟨2, ![256, 512]⟩
abbrev S_ : Shape := ⟨0, ![]⟩

abbrev nBuf : Space → Nat
  | .hbm => 20
  | .vmem => 21
  | .smem => 0
  | _ => 0

abbrev bufTy : (tb : Table) → Fin (tcTables nBuf tb) → BufTy
  | .hbm, ⟨0, _⟩ => ⟨S4096x8x256, .f32⟩
  | .hbm, ⟨1, _⟩ => ⟨S4096x8x256, .f32⟩
  | .hbm, ⟨2, _⟩ => ⟨S4096x4096, .i32⟩
  | .hbm, ⟨3, _⟩ => ⟨S4096x256, .bf16⟩
  | .hbm, ⟨4, _⟩ => ⟨S4096x256, .bf16⟩
  | .hbm, ⟨5, _⟩ => ⟨S4096x1, .f32⟩
  | .hbm, ⟨6, _⟩ => ⟨S4096x1, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .i1⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .local _ .vmem, ⟨0, _⟩ => ⟨S512x8x256, .f32⟩
  | .local _ .vmem, ⟨1, _⟩ => ⟨S512x8x256, .f32⟩
  | .local _ .vmem, ⟨2, _⟩ => ⟨S512x256, .bf16⟩
  | .local _ .vmem, ⟨3, _⟩ => ⟨S512x256, .bf16⟩
  | .local _ .vmem, ⟨4, _⟩ => ⟨S512x8x256, .f32⟩
  | .local _ .vmem, ⟨5, _⟩ => ⟨S512x8x256, .f32⟩
  | .local _ .vmem, ⟨6, _⟩ => ⟨S512x256, .bf16⟩
  | .local _ .vmem, ⟨7, _⟩ => ⟨S512x256, .bf16⟩
  | .local _ .vmem, ⟨8, _⟩ => ⟨S512x256, .bf16⟩
  | .local _ .vmem, ⟨9, _⟩ => ⟨S512x256, .bf16⟩
  | .local _ .vmem, ⟨10, _⟩ => ⟨S512x256, .bf16⟩
  | .local _ .vmem, ⟨11, _⟩ => ⟨S512x256, .bf16⟩
  | .local _ .vmem, ⟨12, _⟩ => ⟨S512x512, .i32⟩
  | .local _ .vmem, ⟨13, _⟩ => ⟨S512x512, .i32⟩
  | .local _ .vmem, ⟨14, _⟩ => ⟨S512x1, .f32⟩
  | .local _ .vmem, ⟨15, _⟩ => ⟨S512x1, .f32⟩
  | .local _ .vmem, ⟨16, _⟩ => ⟨S512x1, .f32⟩
  | .local _ .vmem, ⟨17, _⟩ => ⟨S512x1, .f32⟩
  | .local _ .vmem, ⟨18, _⟩ => ⟨S512x1, .f32⟩
  | .local _ .vmem, ⟨19, _⟩ => ⟨S512x1, .f32⟩
  | .local _ .vmem, ⟨20, _⟩ => ⟨S512x1, .f32⟩
  | _, _ => ⟨S4096x8x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_cst : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_cst_3 : Ref sig .tc := ⟨.hbm, 16, rfl⟩
abbrev main_v8 : Ref sig .tc := ⟨.hbm, 17, rfl⟩
abbrev main_cst_4 : Ref sig .tc := ⟨.hbm, 18, rfl⟩
abbrev main_v9 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc2_stg0_0 : Ref sig .tc := ⟨.vmem, 8, rfl⟩
abbrev cc2_stg0_1 : Ref sig .tc := ⟨.vmem, 9, rfl⟩
abbrev cc2_stg1_0 : Ref sig .tc := ⟨.vmem, 10, rfl⟩
abbrev cc2_stg1_1 : Ref sig .tc := ⟨.vmem, 11, rfl⟩
abbrev cc2_stg2_0 : Ref sig .tc := ⟨.vmem, 12, rfl⟩
abbrev cc2_stg2_1 : Ref sig .tc := ⟨.vmem, 13, rfl⟩
abbrev cc2_stg3_0 : Ref sig .tc := ⟨.vmem, 14, rfl⟩
abbrev cc2_stg3_1 : Ref sig .tc := ⟨.vmem, 15, rfl⟩
abbrev cc2_stg4_0 : Ref sig .tc := ⟨.vmem, 16, rfl⟩
abbrev cc2_stg4_1 : Ref sig .tc := ⟨.vmem, 17, rfl⟩
abbrev cc2_scratch0 : Ref sig .tc := ⟨.vmem, 18, rfl⟩
abbrev cc2_scratch1 : Ref sig .tc := ⟨.vmem, 19, rfl⟩
abbrev cc2_scratch2 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc2_sem0_0 : DmaSem sig := 8
abbrev cc2_sem0_1 : DmaSem sig := 9
abbrev cc2_sem1_0 : DmaSem sig := 10
abbrev cc2_sem1_1 : DmaSem sig := 11
abbrev cc2_sem2_0 : DmaSem sig := 12
abbrev cc2_sem2_1 : DmaSem sig := 13
abbrev cc2_sem3_0 : DmaSem sig := 14
abbrev cc2_sem3_1 : DmaSem sig := 15
abbrev cc2_sem4_0 : DmaSem sig := 16
abbrev cc2_sem4_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x8x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![8], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x8x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev grid2 : Pipeline.Grid := ⟨2, ![8, 8], ![false, false]⟩

def k2_cond2 (i : grid2.Coords) : BitVec 1 :=
  let arg1 : BitVec 32 := BitVec.ofNat 32 (i 1).val
  let c7_i32 : BitVec 32 := 7#32
  let v53 : BitVec 1 := Scalar.cmpi .eq arg1 c7_i32
  let v54 : BitVec 32 := Scalar.extui v53
  let c0_i32_27 : BitVec 32 := 0#32
  let v55 : BitVec 1 := Scalar.cmpi .ne v54 c0_i32_27
  v55

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S512x256 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S512x256 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S512x512 .i32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S512x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev stage2_4 : Fin 2 → Memref sig .tc .vmem S512x1 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

class Facts₀ : Prop where
  inb_S512x8x256_S512x8x256_0_0_0 : ∀ a, (![0, 0, 0] : Fin 3 → Nat) a + S512x8x256.size a ≤ S512x8x256.size a
  h_S512x8x256 : 0 < S512x8x256.numel
  reduces_S512x8x256_S512x256 : S512x8x256.Reduces [1] S512x256
  reduces_S512x256_S512 : S512x256.Reduces [1] S512
  shapeCasts_S512_S512x1 : S512.ShapeCasts S512x1
  broadcasts_S512x1_S512x256 : S512x1.Broadcasts S512x256
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  packedbf16_S512x256_S512x256_0_0 : (Rect.unit (s := S512x256) ![0, 0] S512x256.size inb_S512x256_S512x256_0_0).PackedRows (EltTy.packing .bf16)
  inb_S512x1_S512x1_0_0 : ∀ a, (![0, 0] : Fin 2 → Nat) a + S512x1.size a ≤ S512x1.size a
  h_S512x1 : 0 < S512x1.numel
  shapeCasts_S512x1_S512x1 : S512x1.ShapeCasts S512x1
  shapeCasts_S512x256_S512x256 : S512x256.ShapeCasts S512x256
  transposes_S512x256_p1_0_S256x512 : S512x256.Transposes [1, 0] S256x512
  iota_S512x512_d0_w32 : S512x512.Iotas .tc 32 [0]
  iota_S512x512_d1_w32 : S512x512.Iotas .tc 32 [1]
  inb_S512x512_S512x512_0_0 : ∀ a, (![0, 0] : Fin 2 → Nat) a + S512x512.size a ≤ S512x512.size a
  h_S512x512 : 0 < S512x512.numel
  reduces_S512x512_S512 : S512x512.Reduces [1] S512
  natLt_1_32 : 1 < 32
  reducesTo_S4096x1_S_d0_1 : S4096x1.ReducesTo [0, 1] S_
  h_S_ : 0 < S_.numel
  dot_S512x256_S256x512_S512x512_1_0_0_1_n_n_wf : DotDims.WF S512x256 S256x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x8x256.size a ≤ S4096x8x256.size a
  hwx0_0 : ∀ i : grid0.Coords, EltTy.bits .f32 = 32 ∨ (Rect.block (s := S4096x8x256) S512x8x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S4096x256.size a
  hwx0_1 : ∀ i : grid0.Coords, EltTy.bits .bf16 = 32 ∨ (Rect.block (s := S4096x256) S512x256.size (cc0_transform_1 i) (hinb0_1 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x8x256.size a ≤ S4096x8x256.size a
  hwx1_0 : ∀ i : grid1.Coords, EltTy.bits .f32 = 32 ∨ (Rect.block (s := S4096x8x256) S512x8x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x256.size a ≤ S4096x256.size a
  hwx1_1 : ∀ i : grid1.Coords, EltTy.bits .bf16 = 32 ∨ (Rect.block (s := S4096x256) S512x256.size (cc1_transform_1 i) (hinb1_1 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x256.size a ≤ S4096x256.size a
  hwx2_0 : ∀ i : grid2.Coords, EltTy.bits .bf16 = 32 ∨ (Rect.block (s := S4096x256) S512x256.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S512x256.size a ≤ S4096x256.size a
  hwx2_1 : ∀ i : grid2.Coords, EltTy.bits .bf16 = 32 ∨ (Rect.block (s := S4096x256) S512x256.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S512x512.size a ≤ S4096x4096.size a
  hwx2_2 : ∀ i : grid2.Coords, EltTy.bits .i32 = 32 ∨ (Rect.block (s := S4096x4096) S512x512.size (cc2_transform_2 i) (hinb2_2 i)).WholeWords (EltTy.packing .i32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x1.size a ≤ S4096x1.size a
  hwx2_3 : ∀ i : grid2.Coords, EltTy.bits .f32 = 32 ∨ (Rect.block (s := S4096x1) S512x1.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S512x1.size a ≤ S4096x1.size a
  hwx2_4 : ∀ i : grid2.Coords, EltTy.bits .f32 = 32 ∨ (Rect.block (s := S4096x1) S512x1.size (cc2_transform_4 i) (hinb2_4 i)).WholeWords (EltTy.packing .f32)

variable [Facts₀]

def dot_S512x256_S256x512_S512x512_1_0_0_1_n_n : DotDims S512x256 S256x512 S512x512 where
  lhsContracting := [1]
  rhsContracting := [0]
  lhsNonContracting := [0]
  rhsNonContracting := [1]
  lhsBatch := []
  rhsBatch := []
  wf := dot_S512x256_S256x512_S512x512_1_0_0_1_n_n_wf

abbrev win0_0 : Pipeline.Window sig grid0 :=
  Pipeline.Window.ofSpec (Memref.whole main_arg0) S512x8x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x256.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg1) S512x8x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S512x256.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

abbrev win2_0 : Pipeline.Window sig grid2 :=
  Pipeline.Window.ofSpec (Memref.whole main_v0) S512x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v1) S512x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg2) S512x512.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v2_0) S512x1.size cc2_transform_3 reads2_3 true false 2 stage2_3 sem2_3
    hrank2 hreads2_3 hinb2_3 nbuf2_3 (Memref.isWhole_whole _) hwx2_3 hstage2_3

abbrev win2_4 : Pipeline.Window sig grid2 :=
  Pipeline.Window.ofSpec (Memref.whole main_v2_1) S512x1.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev idle2 : Fin 5 → grid2.Coords → Bool := fun | 0 => fun _ => false | 1 => fun _ => false | 2 => fun _ => false | 3 => fun i => !(k2_cond2 i == 1#1) | 4 => fun i => !(k2_cond2 i == 1#1) | ⟨_ + 5, h⟩ => absurd h (Nat.not_lt.2 (Nat.le_add_left _ _))

class Facts : Prop extends Facts₀ where

variable [Facts]
-- ==== ReferenceIdeal.lean ====
abbrev S4096x8x256 : Shape := ⟨3, ![4096, 8, 256]⟩
abbrev S4096x4096 : Shape := ⟨2, ![4096, 4096]⟩
abbrev S_ : Shape := ⟨0, ![]⟩
abbrev S4096x256 : Shape := ⟨2, ![4096, 256]⟩
abbrev S4096 : Shape := ⟨1, ![4096]⟩
abbrev S4096x1 : Shape := ⟨2, ![4096, 1]⟩
abbrev S256x4096 : Shape := ⟨2, ![256, 4096]⟩

abbrev nBuf : Space → Nat
  | .hbm => 83
  | .vmem => 0
  | .smem => 0
  | _ => 0

abbrev bufTy : (tb : Table) → Fin (tcTables nBuf tb) → BufTy
  | .hbm, ⟨0, _⟩ => ⟨S4096x8x256, .f32⟩
  | .hbm, ⟨1, _⟩ => ⟨S4096x8x256, .f32⟩
  | .hbm, ⟨2, _⟩ => ⟨S4096x4096, .i32⟩
  | .hbm, ⟨3, _⟩ => ⟨S_, .f32⟩
  | .hbm, ⟨4, _⟩ => ⟨S4096x256, .f32⟩
  | .hbm, ⟨5, _⟩ => ⟨S_, .f32⟩
  | .hbm, ⟨6, _⟩ => ⟨S4096x256, .f32⟩
  | .hbm, ⟨7, _⟩ => ⟨S4096x256, .f32⟩
  | .hbm, ⟨8, _⟩ => ⟨S_, .f32⟩
  | .hbm, ⟨9, _⟩ => ⟨S4096x256, .f32⟩
  | .hbm, ⟨10, _⟩ => ⟨S_, .f32⟩
  | .hbm, ⟨11, _⟩ => ⟨S4096x256, .f32⟩
  | .hbm, ⟨12, _⟩ => ⟨S4096x256, .f32⟩
  | .hbm, ⟨13, _⟩ => ⟨S4096x256, .f32⟩
  | .hbm, ⟨14, _⟩ => ⟨S_, .f32⟩
  | .hbm, ⟨15, _⟩ => ⟨S4096, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x256, .f32⟩
  | .hbm, ⟨22, _⟩ => ⟨S4096x256, .f32⟩
  | .hbm, ⟨23, _⟩ => ⟨S4096x256, .f32⟩
  | .hbm, ⟨24, _⟩ => ⟨S_, .f32⟩
  | .hbm, ⟨25, _⟩ => ⟨S4096, .f32⟩
  | .hbm, ⟨26, _⟩ => ⟨S4096x1, .f32⟩
  | .hbm, ⟨27, _⟩ => ⟨S4096x1, .f32⟩
  | .hbm, ⟨28, _⟩ => ⟨S_, .f32⟩
  | .hbm, ⟨29, _⟩ => ⟨S4096x1, .f32⟩
  | .hbm, ⟨30, _⟩ => ⟨S4096x1, .f32⟩
  | .hbm, ⟨31, _⟩ => ⟨S4096x256, .f32⟩
  | .hbm, ⟨32, _⟩ => ⟨S4096x256, .f32⟩
  | .hbm, ⟨33, _⟩ => ⟨S256x4096, .f32⟩
  | .hbm, ⟨34, _⟩ => ⟨S4096x4096, .f32⟩
  | .hbm, ⟨35, _⟩ => ⟨S_, .f32⟩
  | .hbm, ⟨36, _⟩ => ⟨S4096x4096, .f32⟩
  | .hbm, ⟨37, _⟩ => ⟨S4096x4096, .f32⟩
  | .hbm, ⟨38, _⟩ => ⟨S4096x4096, .i32⟩
  | .hbm, ⟨39, _⟩ => ⟨S4096x4096, .i32⟩
  | .hbm, ⟨40, _⟩ => ⟨S_, .i32⟩
  | .hbm, ⟨41, _⟩ => ⟨S4096x4096, .i32⟩
  | .hbm, ⟨42, _⟩ => ⟨S4096x4096, .i32⟩
  | .hbm, ⟨43, _⟩ => ⟨S4096x4096, .i1⟩
  | .hbm, ⟨44, _⟩ => ⟨S_, .i32⟩
  | .hbm, ⟨45, _⟩ => ⟨S4096x4096, .i32⟩
  | .hbm, ⟨46, _⟩ => ⟨S4096x4096, .i1⟩
  | .hbm, ⟨47, _⟩ => ⟨S4096x4096, .i1⟩
  | .hbm, ⟨48, _⟩ => ⟨S4096x4096, .i1⟩
  | .hbm, ⟨49, _⟩ => ⟨S4096x4096, .i1⟩
  | .hbm, ⟨50, _⟩ => ⟨S4096x4096, .f32⟩
  | .hbm, ⟨51, _⟩ => ⟨S_, .f32⟩
  | .hbm, ⟨52, _⟩ => ⟨S_, .f32⟩
  | .hbm, ⟨53, _⟩ => ⟨S4096x4096, .f32⟩
  | .hbm, ⟨54, _⟩ => ⟨S4096x4096, .f32⟩
  | .hbm, ⟨55, _⟩ => ⟨S_, .f32⟩
  | .hbm, ⟨56, _⟩ => ⟨S4096, .f32⟩
  | .hbm, ⟨57, _⟩ => ⟨S_, .f32⟩
  | .hbm, ⟨58, _⟩ => ⟨S4096, .f32⟩
  | .hbm, ⟨59, _⟩ => ⟨S4096, .f32⟩
  | .hbm, ⟨60, _⟩ => ⟨S4096, .f32⟩
  | .hbm, ⟨61, _⟩ => ⟨S4096x1, .f32⟩
  | .hbm, ⟨62, _⟩ => ⟨S4096x4096, .f32⟩
  | .hbm, ⟨63, _⟩ => ⟨S4096x4096, .f32⟩
  | .hbm, ⟨64, _⟩ => ⟨S4096x4096, .i32⟩
  | .hbm, ⟨65, _⟩ => ⟨S_, .i32⟩
  | .hbm, ⟨66, _⟩ => ⟨S_, .i32⟩
  | .hbm, ⟨67, _⟩ => ⟨S_, .f32⟩
  | .hbm, ⟨68, _⟩ => ⟨S_, .f32⟩
  | .hbm, ⟨69, _⟩ => ⟨S4096x4096, .f32⟩
  | .hbm, ⟨70, _⟩ => ⟨S4096x4096, .f32⟩
  | .hbm, ⟨71, _⟩ => ⟨S_, .f32⟩
  | .hbm, ⟨72, _⟩ => ⟨S_, .f32⟩
  | .hbm, ⟨73, _⟩ => ⟨S_, .i32⟩
  | .hbm, ⟨74, _⟩ => ⟨S_, .i1⟩
  | .hbm, ⟨75, _⟩ => ⟨S_, .i32⟩
  | .hbm, ⟨76, _⟩ => ⟨S_, .i32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | _, _ => ⟨S4096x8x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_cst_2 : Ref sig .tc := ⟨.hbm, 10, rfl⟩
abbrev main_v4 : Ref sig .tc := ⟨.hbm, 11, rfl⟩
abbrev main_v5 : Ref sig .tc := ⟨.hbm, 12, rfl⟩
abbrev main_call0_v0 : Ref sig .tc := ⟨.hbm, 13, rfl⟩
abbrev main_call0_cst : Ref sig .tc := ⟨.hbm, 14, rfl⟩
abbrev main_call0_v1 : Ref sig .tc := ⟨.hbm, 15, rfl⟩
abbrev main_call0_v2 : Ref sig .tc := ⟨.hbm, 16, rfl⟩
abbrev main_v6 : Ref sig .tc := ⟨.hbm, 17, rfl⟩
abbrev main_cst_3 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_call1_v0 : Ref sig .tc := ⟨.hbm, 23, rfl⟩
abbrev main_call1_cst : Ref sig .tc := ⟨.hbm, 24, rfl⟩
abbrev main_call1_v1 : Ref sig .tc := ⟨.hbm, 25, rfl⟩
abbrev main_call1_v2 : Ref sig .tc := ⟨.hbm, 26, rfl⟩
abbrev main_v11 : Ref sig .tc := ⟨.hbm, 27, rfl⟩
abbrev main_cst_4 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_5 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_c_6 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_7 : Ref sig .tc := ⟨.hbm, 51, rfl⟩
abbrev main_call2_v0 : Ref sig .tc := ⟨.hbm, 52, rfl⟩
abbrev main_call2_v1 : Ref sig .tc := ⟨.hbm, 53, rfl⟩
abbrev main_v31 : Ref sig .tc := ⟨.hbm, 54, rfl⟩
abbrev main_cst_8 : Ref sig .tc := ⟨.hbm, 55, rfl⟩
abbrev main_v32 : Ref sig .tc := ⟨.hbm, 56, rfl⟩
abbrev main_cst_9 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_c_10 : Ref sig .tc := ⟨.hbm, 65, rfl⟩
abbrev main_v40 : Ref sig .tc := ⟨.hbm, 66, rfl⟩
abbrev main_cst_11 : Ref sig .tc := ⟨.hbm, 67, rfl⟩
abbrev main_call3_v0 : Ref sig .tc := ⟨.hbm, 68, rfl⟩
abbrev main_call3_v1 : Ref sig .tc := ⟨.hbm, 69, rfl⟩
abbrev main_v41 : Ref sig .tc := ⟨.hbm, 70, rfl⟩
abbrev main_cst_12 : Ref sig .tc := ⟨.hbm, 71, rfl⟩
abbrev main_v42 : Ref sig .tc := ⟨.hbm, 72, rfl⟩
abbrev main_c_13 : Ref sig .tc := ⟨.hbm, 73, rfl⟩
abbrev main_v43 : Ref sig .tc := ⟨.hbm, 74, rfl⟩
abbrev main_c_14 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_cst_15 : Ref sig .tc := ⟨.hbm, 79, rfl⟩
abbrev main_v47 : Ref sig .tc := ⟨.hbm, 80, rfl⟩
abbrev main_cst_16 : Ref sig .tc := ⟨.hbm, 81, rfl⟩
abbrev main_v48 : Ref sig .tc := ⟨.hbm, 82, rfl⟩

abbrev nD : Nat := 1
abbrev τ : Topo := Topo.v7x

variable {F : FTy → Type} [FloatOps F]

class Facts₀ : Prop where
  reducesTo_S4096x8x256_S4096x256_d1 : S4096x8x256.ReducesTo [1] S4096x256
  h_S_ : 0 < S_.numel
  bcast_S_S4096x256 : S_.BroadcastsInDim S4096x256 (![] : Fin 0 → Fin S4096x256.rank)
  reducesTo_S4096x256_S4096_d1 : S4096x256.ReducesTo [1] S4096
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x256_0_1 : S4096x1.BroadcastsInDim S4096x256 (![0, 1] : Fin 2 → Fin S4096x256.rank)
  transposes_S4096x256_S256x4096_1_0 : S4096x256.Transposes [1, 0] S256x4096
  bcast_S_S4096x4096 : S_.BroadcastsInDim S4096x4096 (![] : Fin 0 → Fin S4096x4096.rank)
  reducesTo_S4096x4096_S4096_d1 : S4096x4096.ReducesTo [1] S4096
  bcast_S_S4096 : S_.BroadcastsInDim S4096 (![] : Fin 0 → Fin S4096.rank)
  bcast_S4096x1_S4096x4096_0_1 : S4096x1.BroadcastsInDim S4096x4096 (![0, 1] : Fin 2 → Fin S4096x4096.rank)
  natLt_1_32 : 1 < 32
  reducesTo_S4096x4096_S_d0_1 : S4096x4096.ReducesTo [0, 1] S_
  dot_S4096x256_S256x4096_S4096x4096_1_0_0_1_n_n_wf : DotDims.WF S4096x256 S256x4096 S4096x4096 [1] [0] [0] [1] [] []

variable [Facts₀]

def dot_S4096x256_S256x4096_S4096x4096_1_0_0_1_n_n : DotDims S4096x256 S256x4096 S4096x4096 where
  lhsContracting := [1]
  rhsContracting := [0]
  lhsNonContracting := [0]
  rhsNonContracting := [1]
  lhsBatch := []
  rhsBatch := []
  wf := dot_S4096x256_S256x4096_S4096x4096_1_0_0_1_n_n_wf

class Facts : Prop extends Facts₀ where

variable [Facts]
-- ==== Proof.K.Data.lean ====
import proofs.«128564_j90091234001463_1_alg».proof.Proof.Gen.Kernel.Launch
import proofs.«128564_j90091234001463_1_alg».proof.Proof.Gen.Kernel.Skeleton
import proofs.«128564_j90091234001463_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
  What each of the three pipelines holds, point by point, as functions of the arrays it is entered with.

  Pipelines 0 and 1 (pool and normalise): at point `t` the input window's buffer holds block `t` of its array (512
  samples, all their slots) and the body leaves in the output window's buffer the unit rows of those samples.

  Pipeline 2 (the loss rows) walks an 8 × 8 grid, point `t` being tile (`t / 8`, `t % 8`) of the pair table. It keeps
  three column accumulators in scratch buffers across the 8 points of a tile row — the partition sum, the sum of
  positive similarities and the number of positives of each of the tile row's 512 samples —, reset at the row's first
  tile (`accAt`). At the row's last tile the body stores the samples' loss shares and counts into the two output
  windows; at the other tiles it leaves those windows alone (they are idle there).
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when a pipeline is entered
variable (V : (c : Dev nD) → (b : Ref sig .tc) → Buf (Elt F) ((c : Thread nD τ).loc b))

/-! ## The windows' blocks -/

/-- Block `t` of window `w`'s array, for each pipeline. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## Pipelines 0 and 1 -/

/-- Pipeline 0: inputs at their blocks, the output at the unit rows of the block's samples; the region's invariant is
    the untouched scoped rest and the generator register. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => k0_pay1 (blk0 V c 0 t)
  Φ _ := Pipeline.ΦA spec0 c
  q _ := fullShare
  owed _ := 0

/-- Pipeline 1: the same of the second batch. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => k1_pay1 (blk1 V c 0 t)
  Φ _ := Pipeline.ΦA spec1 c
  q _ := fullShare
  owed _ := 0

/-! ## Pipeline 2: the accumulators -/

/-- The three scratch buffers as memrefs. -/
abbrev scr0 : Memref sig .tc .vmem S512x1 .f32 := Memref.whole cc2_scratch0
abbrev scr1 : Memref sig .tc .vmem S512x1 .f32 := Memref.whole cc2_scratch1
abbrev scr2 : Memref sig .tc .vmem S512x1 .f32 := Memref.whole cc2_scratch2

/-- The accumulators (partition sum, positive-similarity sum, count) as a triple. -/
abbrev Acc (F : FTy → Type) [FloatOps F] : Type := Vec F S512x1 .f32 × Vec F S512x1 .f32 × Vec F S512x1 .f32

/-- The accumulators at the start of a tile row: all zero. -/
def accZero : Acc F := (k2_pay4 (F := F), k2_pay5 (F := F), k2_pay6 (F := F))

/-- One tile's contribution added to the accumulators `a` the tile is entered with, from the tile's three blocks: rows
    of the first batch, rows of the second, labels. -/
def stepOf (i : grid2.Coords) (ri rj : Vec F S512x256 .bf16) (lab : Vec F S512x512 .i32) (a : Acc F) : Acc F :=
  (k2_pay10 i ri rj a.1, k2_pay1 (k2_pay7 ri rj) (k2_pay9 i lab) a.2.1, k2_pay2 (k2_pay9 i lab) a.2.2)

/-- The accumulators a tile starts from: zero at a row's first tile, else what the scratch buffers hold. -/
def accIn (i : grid2.Coords) (a : Acc F) : Acc F := if (i 1).val = 0 then accZero else a

/-- The same at point `t` of the grid, over the blocks of the arrays the pipeline is entered with. -/
def accStep (c : Dev nD) (t : Fin cfg2.N) (a : Acc F) : Acc F :=
  stepOf (grid2.coords t) (blk2 V c 0 t) (blk2 V c 1 t) (blk2 V c 2 t) a

/-- The accumulators after point `n`: reset at the first tile of a row (`n % 8 = 0`), else continued from the point
    before. -/
def accAt (c : Dev nD) : (n : ℕ) → n < cfg2.N → Acc F
  | 0, hn => accStep V c ⟨0, hn⟩ accZero
  | n + 1, hn => accStep V c ⟨n + 1, hn⟩ (if (n + 1) % 8 = 0 then accZero else accAt c n (Nat.lt_of_succ_lt hn))

/-- The loss shares the body stores at a row's last tile, from the accumulators after that tile. -/
def lossOf (a : Acc F) : Vec F S512x1 .f32 := k2_pay3 a.1 a.2.2 a.2.1

/-- The scoped buffers of the other two pipelines (their staging buffers), each whole at some contents. -/
def othersRest (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f))

/-- Pipeline 2's invariant before point `n`: before the first point the untouched scoped rest and the generator
    register; afterwards the other pipelines' buffers at anything, the three scratch buffers at the accumulators the
    point before left, and the generator register. -/
def Phi2 (c : Dev nD) : (n : ℕ) → n ≤ cfg2.N → sProp 𝕄
  | 0, _ => Pipeline.ΦA spec2 c
  | n + 1, hn => iprop(othersRest (F := F) c
      ∗ owns (c : Thread nD τ) scr0 fullShare (accAt V c n hn).1
      ∗ owns (c : Thread nD τ) scr1 fullShare (accAt V c n hn).2.1
      ∗ owns (c : Thread nD τ) scr2 fullShare (accAt V c n hn).2.2
      ∗ (∃ r, prngReg c r))

/-- Pipeline 2: inputs at their blocks; the two outputs at the loss shares and the counts computed from the
    accumulators after the point (consulted only at a row's last tile, where the windows are written back). -/
def dat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => blk2 V c 2 t
    | ⟨3, _⟩ => lossOf (accAt V c t.val t.isLt)
    | ⟨4, _⟩ => (accAt V c t.val t.isLt).2.2
  Φ t := Phi2 V c t.val (Nat.le_of_lt_succ t.isLt)
  q _ := fullShare
  owed _ := 0

end Cert.Kernel.Hand

end
-- ==== Proof.K.PoolBody.lean ====
import proofs.«128564_j90091234001463_1_alg».proof.Proof.K.Data
import Idealize.ShloMosaic.Lib.Pipeline.Value

/-! Pipelines 0 and 1 run their body at every grid point: from the input block the body stores the unit rows of the
    block's samples over the whole output buffer, and nothing else changes. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The whole-buffer accesses -/

/-- The offsets of a whole-buffer access are all zero. -/
theorem pool_hz3 : (![0, 0, 0] : Fin 3 → Nat) = fun _ => 0 := funext fun a => by fin_cases a <;> rfl
theorem pool_hz2 : (![0, 0] : Fin 2 → Nat) = fun _ => 0 := funext fun a => by fin_cases a <;> rfl

/-- The body's two accesses: the whole input buffer and the whole output buffer. -/
abbrev poolIn : Rect S512x8x256 := Rect.unit (s := S512x8x256) ![0, 0, 0] S512x8x256.size inb_S512x8x256_S512x8x256_0_0_0
abbrev poolOut : Rect S512x256 := Rect.unit (s := S512x256) ![0, 0] S512x256.size inb_S512x256_S512x256_0_0

/-- A load of the whole input buffer reads its contents. -/
theorem pool_ld_in (x0 : Vec F S512x8x256 .f32) : View.ld x0 poolIn = x0 :=
  View.ld_unit_zero (S := S512x8x256) pool_hz3 inb_S512x8x256_S512x8x256_0_0_0 x0

/-- One store over the whole output buffer leaves the stored value, -/
theorem pool_canon_out (w : Vec F S512x256 .bf16) : View.canon [(⟨poolOut, w⟩ : View.Piece (Elt F) S512x256 .bf16)] = w :=
  View.canon_unit_zero (S := S512x256) pool_hz2 inb_S512x256_S512x256_0_0 w

/-- since it covers the buffer. -/
theorem pool_cover_out (w : Vec F S512x256 .bf16) (y : S512x256.Idx) :
    ∃ pc ∈ ([⟨poolOut, w⟩] : List (View.Piece (Elt F) S512x256 .bf16)), y ∈ pc.1.set :=
  ⟨_, List.mem_singleton_self _, View.mem_set_unit_zero (S := S512x256) pool_hz2 inb_S512x256_S512x256_0_0 y⟩

/-! ## Pipeline 0 -/

/-- The proof data projected: the arrays are the entry contents, the input stays at its block, the output is left at
    the unit rows of the block's samples. -/
theorem A_eq0 (c : Dev nD) (w : Fin cfg0.W) : (dat0 V c).A w = V c (Pipeline.arrRef spec0 w) := by
  dsimp only [dat0]
theorem after0_0 (c : Dev nD) (t : Fin cfg0.N) : (dat0 V c).after 0 t = blk0 V c 0 t := by dsimp only [dat0]
theorem after0_1 (c : Dev nD) (t : Fin cfg0.N) : (dat0 V c).after 1 t = k0_pay1 (blk0 V c 0 t) := by dsimp only [dat0]

/-- The input window is fetched at every point and the body leaves it in place, so its current buffer holds its block
    at every point. -/
theorem before0_0 (c : Dev nD) (t : Fin cfg0.N) (d) : (dat0 V c).before 0 t d = blk0 V c 0 t :=
  ((dat0 V c).before_in_eq_fetched 0 rfl (fun _ => rfl) (fun _ _ _ => rfl)
    (fun t => by rw [after0_0]; unfold Dat.blockOf blk0; rw [A_eq0]; try rfl) t d).trans
    (by unfold Dat.fetched Dat.blockOf blk0; rw [A_eq0]; try rfl)

set_option maxHeartbeats 1000000 in
/-- The body on whole buffers, the input's at `x0` and the output's at anything: it reads the whole input, and its one
    store covers the whole output buffer, which is therefore left at the stored value, the unit rows of `x0`'s samples. -/
theorem sound_kernel0 (c : Dev nD) (E : Set ℕ) (i : grid0.Coords)
    (arg1 : Memref sig .tc .vmem S512x8x256 .f32) (harg1 : arg1.IsWhole)
    (arg2 : Memref sig .tc .vmem S512x256 .bf16) (harg2 : arg2.IsWhole)
    (x0 : Vec F S512x8x256 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (k0_pay1 x0)) -∗ K ⟨⟩))
      ⊢ wp frame (wpE (defs₀ (F := F)) Variants.none c none) E (cc0__pool_norm_kernel i arg1 harg1 arg2 harg2) K := by
  simp only [cc0__pool_norm_kernel_eq_skeleton]; unfold cc0__pool_norm_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  refine (View.read_writes_eq_canon _ _ _ (pool_cover_out _)).trans ?_
  rw [pool_canon_out]
  exact congrArg k0_pay1 (pool_ld_in _)

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

/-- The body at any point: the input's buffer holds its block, the invariant and what the core owes pass through
    unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (blk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation0 (c : Dev nD) : BodyObligation (dat0 (F := F) V c) (defs₀ (F := F)) Variants.none () Set.univ := fun t => by
  rw [bigSep_W0, bigSep_W0]
  exact sound_body0 V c t

/-! ## Pipeline 1 -/

/-- The proof data projected: the arrays are the entry contents, the input stays at its block, the output is left at
    the unit rows of the block's samples. -/
theorem A_eq1 (c : Dev nD) (w : Fin cfg1.W) : (dat1 V c).A w = V c (Pipeline.arrRef spec1 w) := by
  dsimp only [dat1]
theorem after1_0 (c : Dev nD) (t : Fin cfg1.N) : (dat1 V c).after 0 t = blk1 V c 0 t := by dsimp only [dat1]
theorem after1_1 (c : Dev nD) (t : Fin cfg1.N) : (dat1 V c).after 1 t = k1_pay1 (blk1 V c 0 t) := by dsimp only [dat1]

/-- The input window is fetched at every point and the body leaves it in place, so its current buffer holds its block
    at every point. -/
theorem before1_0 (c : Dev nD) (t : Fin cfg1.N) (d) : (dat1 V c).before 0 t d = blk1 V c 0 t :=
  ((dat1 V c).before_in_eq_fetched 0 rfl (fun _ => rfl) (fun _ _ _ => rfl)
    (fun t => by rw [after1_0]; unfold Dat.blockOf blk1; rw [A_eq1]; try rfl) t d).trans
    (by unfold Dat.fetched Dat.blockOf blk1; rw [A_eq1]; try rfl)

set_option maxHeartbeats 1000000 in
/-- The body on whole buffers, the input's at `x0` and the output's at anything: it reads the whole input, and its one
    store covers the whole output buffer, which is therefore left at the stored value, the unit rows of `x0`'s samples. -/
theorem sound_kernel1 (c : Dev nD) (E : Set ℕ) (i : grid1.Coords)
    (arg1 : Memref sig .tc .vmem S512x8x256 .f32) (harg1 : arg1.IsWhole)
    (arg2 : Memref sig .tc .vmem S512x256 .bf16) (harg2 : arg2.IsWhole)
    (x0 : Vec F S512x8x256 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (k1_pay1 x0)) -∗ K ⟨⟩))
      ⊢ wp frame (wpE (defs₀ (F := F)) Variants.none c none) E (cc1__pool_norm_kernel i arg1 harg1 arg2 harg2) K := by
  simp only [cc1__pool_norm_kernel_eq_skeleton]; unfold cc1__pool_norm_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  refine (View.read_writes_eq_canon _ _ _ (pool_cover_out _)).trans ?_
  rw [pool_canon_out]
  exact congrArg k1_pay1 (pool_ld_in _)

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t))

/-- The body at any point: the input's buffer holds its block, the invariant and what the core owes pass through
    unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).Φ t.succ = (dat1 V c).Φ t.castSucc from rfl,
    show (dat1 V c).owesAt () t.succ = (dat1 V c).owesAt () t.castSucc from rfl,
    after1_0, after1_1]
  iintro ⟨HΦ, Ho, ⟨%d0, H0⟩, ⟨%d1, H1⟩⟩
  iapply (sound_kernel1 c Set.univ _ _ _ _ _ (blk1 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.LossRun.lean ====
import proofs.«128564_j90091234001463_1_alg».proof.Proof.K.Data
import Idealize.ShloMosaic.Lib.Pipeline.Value

/-! The loss kernel's body on whole buffers: from the tile's three blocks and the accumulators the scratch buffers hold
    it leaves the accumulators advanced by the tile (reset first at a row's first tile), and at a row's last tile the
    loss shares and counts in the two output buffers; the other buffers keep their contents.

    The body tests the tile's column twice: "is it the row's first tile" (then the three accumulators are zeroed before
    the tile is added) and "is it the row's last tile" (then the loss shares and the counts are stored). Both tests are
    read off the column, a number below 8; the body is run once for each of the three combinations that occur (first
    tile, middle tile, last tile), and the statement follows by cases on the column. Every access of the body goes
    through the whole-shape rectangle, so a load reads a buffer's contents and a store leaves its payload, whatever was
    stored before. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two tests, from the tile's column -/

/-- "The tile is its row's first": the first conditional's test, as the body computes it from the column. -/
abbrev condFirst (i : grid2.Coords) : Prop :=
  (Scalar.cmpi .ne (Scalar.extui (Scalar.cmpi .eq (BitVec.ofNat 32 (i 1).val) 0#32)) 0#32) = 1#1
/-- "The tile is its row's last": the second conditional's test. -/
abbrev condLast (i : grid2.Coords) : Prop := k2_cond2 i = 1#1

/-- Over the 8 columns, the first test holds at column 0 only, -/
theorem condFirst_iff : ∀ j : Fin 8, ((Scalar.cmpi .ne (Scalar.extui (Scalar.cmpi .eq (BitVec.ofNat 32 j.val) 0#32)) 0#32) = 1#1) ↔ j.val = 0 := by
  decide
/-- and the second at column 7 only. -/
theorem condLast_iff : ∀ j : Fin 8, ((Scalar.cmpi .ne (Scalar.extui (Scalar.cmpi .eq (BitVec.ofNat 32 j.val) 7#32)) 0#32) = 1#1) ↔ j.val = 7 := by
  decide

theorem condFirst_iff' (i : grid2.Coords) : condFirst i ↔ (i 1).val = 0 := condFirst_iff (i 1)
theorem condLast_iff' (i : grid2.Coords) : condLast i ↔ (i 1).val = 7 := condLast_iff (i 1)

/-! ## Loads and stores through the whole-shape rectangle -/

/-- The offsets of every access of the body: zero on both axes. -/
theorem loss_hz : (![0, 0] : Fin 2 → Nat) = fun _ => 0 := funext fun a => by fin_cases a <;> rfl

/-- A buffer whose last store went through the whole-shape rectangle reads that store's payload, whatever the earlier
    stores were. -/
theorem loss_read_writes_whole {S : Shape} {e : EltTy} (v : View sig .tc .vmem S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons_self, View.mem_set_unit_zero h inb y⟩)).trans
    (View.canon_cons_unit_zero h inb w L)

/-- A load through the whole-shape rectangle reads the buffer's contents. -/
theorem loss_readAt_whole {S : Shape} {e : EltTy} (v : View sig .tc .vmem S e) (f : v.ty.Contents (Elt F))
    {off : Fin S.rank → Nat} (h : off = fun _ => 0) (inb : ∀ a, off a + S.size a ≤ S.size a) :
    v.readAt (Elt F) (Rect.unit off S.size inb).toLoadRect f = v.read (Elt F) f :=
  (View.readAt_eq_ld v f _).trans (View.ld_unit_zero h inb _)

/-! ## The body's run in each of the three cases -/

set_option maxHeartbeats 2000000 in
/-- A middle tile of a row (neither test holds): the accumulators the scratch buffers hold advance by the tile; the two
    output buffers are not touched. -/
theorem run_mid (c : Dev nD) (E : Set ℕ) (i : grid2.Coords) (hc1 : ¬condFirst i) (hc2 : ¬condLast i)
    (a2 : Memref sig .tc .vmem S512x256 .bf16) (h2 : a2.IsWhole) (a3 : Memref sig .tc .vmem S512x256 .bf16) (h3 : a3.IsWhole)
    (a4 : Memref sig .tc .vmem S512x512 .i32) (h4 : a4.IsWhole)
    (a5 : Memref sig .tc .vmem S512x1 .f32) (h5 : a5.IsWhole) (a6 : Memref sig .tc .vmem S512x1 .f32) (h6 : a6.IsWhole)
    (a7 : Memref sig .tc .vmem S512x1 .f32) (h7 : a7.IsWhole) (a8 : Memref sig .tc .vmem S512x1 .f32) (h8 : a8.IsWhole)
    (a9 : Memref sig .tc .vmem S512x1 .f32) (h9 : a9.IsWhole)
    (ri rj : Vec F S512x256 .bf16) (lab : Vec F S512x512 .i32) (a : Acc F) (K : PUnit → sProp 𝕄) :
    iprop(owns (c : Thread nD τ) a2 fullShare ri ∗ owns (c : Thread nD τ) a3 fullShare rj ∗ owns (c : Thread nD τ) a4 fullShare lab
        ∗ (∃ d, owns (c : Thread nD τ) a5 fullShare d) ∗ (∃ d, owns (c : Thread nD τ) a6 fullShare d)
        ∗ owns (c : Thread nD τ) a7 fullShare a.1 ∗ owns (c : Thread nD τ) a8 fullShare a.2.1 ∗ owns (c : Thread nD τ) a9 fullShare a.2.2
        ∗ (iprop(owns (c : Thread nD τ) a2 fullShare ri ∗ owns (c : Thread nD τ) a3 fullShare rj ∗ owns (c : Thread nD τ) a4 fullShare lab
            ∗ iprop((∃ d, owns (c : Thread nD τ) a5 fullShare d) ∗ (∃ d, owns (c : Thread nD τ) a6 fullShare d))
            ∗ owns (c : Thread nD τ) a7 fullShare (stepOf i ri rj lab a).1
            ∗ owns (c : Thread nD τ) a8 fullShare (stepOf i ri rj lab a).2.1
            ∗ owns (c : Thread nD τ) a9 fullShare (stepOf i ri rj lab a).2.2) -∗ K ⟨⟩))
      ⊢ wp frame (wpE (defs₀ (F := F)) Variants.none c none) E
          (cc2__loss_kernel i a2 h2 a3 h3 a4 h4 a5 h5 a6 h6 a7 h7 a8 h8 a9 h9) K := by
  simp only [cc2__loss_kernel_eq_skeleton]; unfold cc2__loss_kernel_skel
  simp only [k2_part1_eq_skeleton]; unfold k2_part1_skel
  unfold owns
  iintro ⟨⟨%f2, %hf2, H2⟩, ⟨%f3, %hf3, H3⟩, ⟨%f4, %hf4, H4⟩, ⟨%d5, %f5, -, H5⟩, ⟨%d6, %f6, -, H6⟩, ⟨%f7, %hf7, H7⟩, ⟨%f8, %hf8, H8⟩, ⟨%f9, %hf9, H9⟩, Hk⟩
  subst hf2; subst hf3; subst hf4
  sl_exec (disch := first | exact hc1 | exact hc2)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5 H6]
  · isplitl [H5]
    · iexists _, f5; isplitr; · ipureintro; rfl
      iexact H5
    · iexists _, f6; isplitr; · ipureintro; rfl
      iexact H6
  isplitl [H7]
  · iexists _; isplitr
    swap; · iexact H7
    ipureintro
    sl_unfold_run_names
    refine (loss_read_writes_whole (S := S512x1) _ _ loss_hz _ _ _).trans ?_
    simp only [loss_readAt_whole (S := S512x1) _ _ loss_hz, loss_readAt_whole (S := S512x256) _ _ loss_hz, loss_readAt_whole (S := S512x512) _ _ loss_hz, View.readCov_unit_zero (S := S512x1) _ loss_hz, hf7, hf8, hf9, stepOf, accZero, lossOf]
  isplitl [H8]
  · iexists _; isplitr
    swap; · iexact H8
    ipureintro
    sl_unfold_run_names
    refine (loss_read_writes_whole (S := S512x1) _ _ loss_hz _ _ _).trans ?_
    simp only [loss_readAt_whole (S := S512x1) _ _ loss_hz, loss_readAt_whole (S := S512x256) _ _ loss_hz, loss_readAt_whole (S := S512x512) _ _ loss_hz, View.readCov_unit_zero (S := S512x1) _ loss_hz, hf7, hf8, hf9, stepOf, accZero, lossOf]
  · iexists _; isplitr
    swap; · iexact H9
    ipureintro
    sl_unfold_run_names
    refine (loss_read_writes_whole (S := S512x1) _ _ loss_hz _ _ _).trans ?_
    simp only [loss_readAt_whole (S := S512x1) _ _ loss_hz, loss_readAt_whole (S := S512x256) _ _ loss_hz, loss_readAt_whole (S := S512x512) _ _ loss_hz, View.readCov_unit_zero (S := S512x1) _ loss_hz, hf7, hf8, hf9, stepOf, accZero, lossOf]

set_option maxHeartbeats 2000000 in
/-- A row's first tile (8 tiles to a row, so it is not the last): the accumulators are zeroed, then advance by the tile,
    so they end at the tile's contribution to zero accumulators, whatever the scratch buffers held; the two output
    buffers are not touched. -/
theorem run_first (c : Dev nD) (E : Set ℕ) (i : grid2.Coords) (hc1 : condFirst i) (hc2 : ¬condLast i)
    (a2 : Memref sig .tc .vmem S512x256 .bf16) (h2 : a2.IsWhole) (a3 : Memref sig .tc .vmem S512x256 .bf16) (h3 : a3.IsWhole)
    (a4 : Memref sig .tc .vmem S512x512 .i32) (h4 : a4.IsWhole)
    (a5 : Memref sig .tc .vmem S512x1 .f32) (h5 : a5.IsWhole) (a6 : Memref sig .tc .vmem S512x1 .f32) (h6 : a6.IsWhole)
    (a7 : Memref sig .tc .vmem S512x1 .f32) (h7 : a7.IsWhole) (a8 : Memref sig .tc .vmem S512x1 .f32) (h8 : a8.IsWhole)
    (a9 : Memref sig .tc .vmem S512x1 .f32) (h9 : a9.IsWhole)
    (ri rj : Vec F S512x256 .bf16) (lab : Vec F S512x512 .i32) (a : Acc F) (K : PUnit → sProp 𝕄) :
    iprop(owns (c : Thread nD τ) a2 fullShare ri ∗ owns (c : Thread nD τ) a3 fullShare rj ∗ owns (c : Thread nD τ) a4 fullShare lab
        ∗ (∃ d, owns (c : Thread nD τ) a5 fullShare d) ∗ (∃ d, owns (c : Thread nD τ) a6 fullShare d)
        ∗ owns (c : Thread nD τ) a7 fullShare a.1 ∗ owns (c : Thread nD τ) a8 fullShare a.2.1 ∗ owns (c : Thread nD τ) a9 fullShare a.2.2
        ∗ (iprop(owns (c : Thread nD τ) a2 fullShare ri ∗ owns (c : Thread nD τ) a3 fullShare rj ∗ owns (c : Thread nD τ) a4 fullShare lab
            ∗ iprop((∃ d, owns (c : Thread nD τ) a5 fullShare d) ∗ (∃ d, owns (c : Thread nD τ) a6 fullShare d))
            ∗ owns (c : Thread nD τ) a7 fullShare (stepOf i ri rj lab accZero).1
            ∗ owns (c : Thread nD τ) a8 fullShare (stepOf i ri rj lab accZero).2.1
            ∗ owns (c : Thread nD τ) a9 fullShare (stepOf i ri rj lab accZero).2.2) -∗ K ⟨⟩))
      ⊢ wp frame (wpE (defs₀ (F := F)) Variants.none c none) E
          (cc2__loss_kernel i a2 h2 a3 h3 a4 h4 a5 h5 a6 h6 a7 h7 a8 h8 a9 h9) K := by
  simp only [cc2__loss_kernel_eq_skeleton]; unfold cc2__loss_kernel_skel
  simp only [k2_part1_eq_skeleton]; unfold k2_part1_skel
  unfold owns
  iintro ⟨⟨%f2, %hf2, H2⟩, ⟨%f3, %hf3, H3⟩, ⟨%f4, %hf4, H4⟩, ⟨%d5, %f5, -, H5⟩, ⟨%d6, %f6, -, H6⟩, ⟨%f7, %hf7, H7⟩, ⟨%f8, %hf8, H8⟩, ⟨%f9, %hf9, H9⟩, Hk⟩
  subst hf2; subst hf3; subst hf4
  sl_exec (disch := first | exact hc1 | exact hc2)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5 H6]
  · isplitl [H5]
    · iexists _, f5; isplitr; · ipureintro; rfl
      iexact H5
    · iexists _, f6; isplitr; · ipureintro; rfl
      iexact H6
  isplitl [H7]
  · iexists _; isplitr
    swap; · iexact H7
    ipureintro
    sl_unfold_run_names
    refine (loss_read_writes_whole (S := S512x1) _ _ loss_hz _ _ _).trans ?_
    simp only [loss_readAt_whole (S := S512x1) _ _ loss_hz, loss_readAt_whole (S := S512x256) _ _ loss_hz, loss_readAt_whole (S := S512x512) _ _ loss_hz, View.readCov_unit_zero (S := S512x1) _ loss_hz, hf7, hf8, hf9, stepOf, accZero, lossOf]
  isplitl [H8]
  · iexists _; isplitr
    swap; · iexact H8
    ipureintro
    sl_unfold_run_names
    refine (loss_read_writes_whole (S := S512x1) _ _ loss_hz _ _ _).trans ?_
    simp only [loss_readAt_whole (S := S512x1) _ _ loss_hz, loss_readAt_whole (S := S512x256) _ _ loss_hz, loss_readAt_whole (S := S512x512) _ _ loss_hz, View.readCov_unit_zero (S := S512x1) _ loss_hz, hf7, hf8, hf9, stepOf, accZero, lossOf]
  · iexists _; isplitr
    swap; · iexact H9
    ipureintro
    sl_unfold_run_names
    refine (loss_read_writes_whole (S := S512x1) _ _ loss_hz _ _ _).trans ?_
    simp only [loss_readAt_whole (S := S512x1) _ _ loss_hz, loss_readAt_whole (S := S512x256) _ _ loss_hz, loss_readAt_whole (S := S512x512) _ _ loss_hz, View.readCov_unit_zero (S := S512x1) _ loss_hz, hf7, hf8, hf9, stepOf, accZero, lossOf]

set_option maxHeartbeats 2000000 in
/-- A row's last tile (not the first): the accumulators advance by the tile, and the output buffers are left at the loss
    shares computed from the advanced accumulators and at the advanced count. -/
theorem run_last (c : Dev nD) (E : Set ℕ) (i : grid2.Coords) (hc1 : ¬condFirst i) (hc2 : condLast i)
    (a2 : Memref sig .tc .vmem S512x256 .bf16) (h2 : a2.IsWhole) (a3 : Memref sig .tc .vmem S512x256 .bf16) (h3 : a3.IsWhole)
    (a4 : Memref sig .tc .vmem S512x512 .i32) (h4 : a4.IsWhole)
    (a5 : Memref sig .tc .vmem S512x1 .f32) (h5 : a5.IsWhole) (a6 : Memref sig .tc .vmem S512x1 .f32) (h6 : a6.IsWhole)
    (a7 : Memref sig .tc .vmem S512x1 .f32) (h7 : a7.IsWhole) (a8 : Memref sig .tc .vmem S512x1 .f32) (h8 : a8.IsWhole)
    (a9 : Memref sig .tc .vmem S512x1 .f32) (h9 : a9.IsWhole)
    (ri rj : Vec F S512x256 .bf16) (lab : Vec F S512x512 .i32) (a : Acc F) (K : PUnit → sProp 𝕄) :
    iprop(owns (c : Thread nD τ) a2 fullShare ri ∗ owns (c : Thread nD τ) a3 fullShare rj ∗ owns (c : Thread nD τ) a4 fullShare lab
        ∗ (∃ d, owns (c : Thread nD τ) a5 fullShare d) ∗ (∃ d, owns (c : Thread nD τ) a6 fullShare d)
        ∗ owns (c : Thread nD τ) a7 fullShare a.1 ∗ owns (c : Thread nD τ) a8 fullShare a.2.1 ∗ owns (c : Thread nD τ) a9 fullShare a.2.2
        ∗ (iprop(owns (c : Thread nD τ) a2 fullShare ri ∗ owns (c : Thread nD τ) a3 fullShare rj ∗ owns (c : Thread nD τ) a4 fullShare lab
            ∗ iprop(owns (c : Thread nD τ) a5 fullShare (lossOf (stepOf i ri rj lab a)) ∗ owns (c : Thread nD τ) a6 fullShare (stepOf i ri rj lab a).2.2)
            ∗ owns (c : Thread nD τ) a7 fullShare (stepOf i ri rj lab a).1
            ∗ owns (c : Thread nD τ) a8 fullShare (stepOf i ri rj lab a).2.1
            ∗ owns (c : Thread nD τ) a9 fullShare (stepOf i ri rj lab a).2.2) -∗ K ⟨⟩))
      ⊢ wp frame (wpE (defs₀ (F := F)) Variants.none c none) E
          (cc2__loss_kernel i a2 h2 a3 h3 a4 h4 a5 h5 a6 h6 a7 h7 a8 h8 a9 h9) K := by
  simp only [cc2__loss_kernel_eq_skeleton]; unfold cc2__loss_kernel_skel
  simp only [k2_part1_eq_skeleton]; unfold k2_part1_skel
  unfold owns
  iintro ⟨⟨%f2, %hf2, H2⟩, ⟨%f3, %hf3, H3⟩, ⟨%f4, %hf4, H4⟩, ⟨%d5, %f5, -, H5⟩, ⟨%d6, %f6, -, H6⟩, ⟨%f7, %hf7, H7⟩, ⟨%f8, %hf8, H8⟩, ⟨%f9, %hf9, H9⟩, Hk⟩
  subst hf2; subst hf3; subst hf4
  sl_exec (disch := first | exact hc1 | exact hc2)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5 H6]
  · isplitl [H5]
    · iexists _; isplitr
      swap; · iexact H5
      ipureintro
      sl_unfold_run_names
      refine (loss_read_writes_whole (S := S512x1) _ _ loss_hz _ _ _).trans ?_
      simp only [loss_readAt_whole (S := S512x1) _ _ loss_hz, loss_readAt_whole (S := S512x256) _ _ loss_hz, loss_readAt_whole (S := S512x512) _ _ loss_hz, View.readCov_unit_zero (S := S512x1) _ loss_hz, hf7, hf8, hf9, stepOf, accZero, lossOf]
    · iexists _; isplitr
      swap; · iexact H6
      ipureintro
      sl_unfold_run_names
      refine (loss_read_writes_whole (S := S512x1) _ _ loss_hz _ _ _).trans ?_
      simp only [loss_readAt_whole (S := S512x1) _ _ loss_hz, loss_readAt_whole (S := S512x256) _ _ loss_hz, loss_readAt_whole (S := S512x512) _ _ loss_hz, View.readCov_unit_zero (S := S512x1) _ loss_hz, hf7, hf8, hf9, stepOf, accZero, lossOf]
  isplitl [H7]
  · iexists _; isplitr
    swap; · iexact H7
    ipureintro
    sl_unfold_run_names
    refine (loss_read_writes_whole (S := S512x1) _ _ loss_hz _ _ _).trans ?_
    simp only [loss_readAt_whole (S := S512x1) _ _ loss_hz, loss_readAt_whole (S := S512x256) _ _ loss_hz, loss_readAt_whole (S := S512x512) _ _ loss_hz, View.readCov_unit_zero (S := S512x1) _ loss_hz, hf7, hf8, hf9, stepOf, accZero, lossOf]
  isplitl [H8]
  · iexists _; isplitr
    swap; · iexact H8
    ipureintro
    sl_unfold_run_names
    refine (loss_read_writes_whole (S := S512x1) _ _ loss_hz _ _ _).trans ?_
    simp only [loss_readAt_whole (S := S512x1) _ _ loss_hz, loss_readAt_whole (S := S512x256) _ _ loss_hz, loss_readAt_whole (S := S512x512) _ _ loss_hz, View.readCov_unit_zero (S := S512x1) _ loss_hz, hf7, hf8, hf9, stepOf, accZero, lossOf]
  · iexists _; isplitr
    swap; · iexact H9
    ipureintro
    sl_unfold_run_names
    refine (loss_read_writes_whole (S := S512x1) _ _ loss_hz _ _ _).trans ?_
    simp only [loss_readAt_whole (S := S512x1) _ _ loss_hz, loss_readAt_whole (S := S512x256) _ _ loss_hz, loss_readAt_whole (S := S512x512) _ _ loss_hz, View.readCov_unit_zero (S := S512x1) _ loss_hz, hf7, hf8, hf9, stepOf, accZero, lossOf]

/-! ## The body at any tile -/

theorem sound_loss (c : Dev nD) (E : Set ℕ) (i : grid2.Coords)
    (a2 : Memref sig .tc .vmem S512x256 .bf16) (h2 : a2.IsWhole) (a3 : Memref sig .tc .vmem S512x256 .bf16) (h3 : a3.IsWhole)
    (a4 : Memref sig .tc .vmem S512x512 .i32) (h4 : a4.IsWhole)
    (a5 : Memref sig .tc .vmem S512x1 .f32) (h5 : a5.IsWhole) (a6 : Memref sig .tc .vmem S512x1 .f32) (h6 : a6.IsWhole)
    (a7 : Memref sig .tc .vmem S512x1 .f32) (h7 : a7.IsWhole) (a8 : Memref sig .tc .vmem S512x1 .f32) (h8 : a8.IsWhole)
    (a9 : Memref sig .tc .vmem S512x1 .f32) (h9 : a9.IsWhole)
    (ri rj : Vec F S512x256 .bf16) (lab : Vec F S512x512 .i32) (a : Acc F) (K : PUnit → sProp 𝕄) :
    iprop(owns (c : Thread nD τ) a2 fullShare ri ∗ owns (c : Thread nD τ) a3 fullShare rj ∗ owns (c : Thread nD τ) a4 fullShare lab
        ∗ (∃ d, owns (c : Thread nD τ) a5 fullShare d) ∗ (∃ d, owns (c : Thread nD τ) a6 fullShare d)
        ∗ owns (c : Thread nD τ) a7 fullShare a.1 ∗ owns (c : Thread nD τ) a8 fullShare a.2.1 ∗ owns (c : Thread nD τ) a9 fullShare a.2.2
        ∗ (iprop(owns (c : Thread nD τ) a2 fullShare ri ∗ owns (c : Thread nD τ) a3 fullShare rj ∗ owns (c : Thread nD τ) a4 fullShare lab
            ∗ (if (i 1).val = 7 then
                iprop(owns (c : Thread nD τ) a5 fullShare (lossOf (stepOf i ri rj lab (accIn i a)))
                  ∗ owns (c : Thread nD τ) a6 fullShare (stepOf i ri rj lab (accIn i a)).2.2)
               else iprop((∃ d, owns (c : Thread nD τ) a5 fullShare d) ∗ (∃ d, owns (c : Thread nD τ) a6 fullShare d)))
            ∗ owns (c : Thread nD τ) a7 fullShare (stepOf i ri rj lab (accIn i a)).1
            ∗ owns (c : Thread nD τ) a8 fullShare (stepOf i ri rj lab (accIn i a)).2.1
            ∗ owns (c : Thread nD τ) a9 fullShare (stepOf i ri rj lab (accIn i a)).2.2) -∗ K ⟨⟩))
      ⊢ wp frame (wpE (defs₀ (F := F)) Variants.none c none) E
          (cc2__loss_kernel i a2 h2 a3 h3 a4 h4 a5 h5 a6 h6 a7 h7 a8 h8 a9 h9) K := by
  by_cases hfirst : (i 1).val = 0
  · -- the first tile: zero accumulators come in, the outputs are idle
    have hlast : ¬(i 1).val = 7 := by omega
    have e : accIn i a = accZero := by unfold accIn; exact if_pos hfirst
    rw [e, if_neg hlast]
    exact run_first c E i ((condFirst_iff' i).mpr hfirst) (fun h => hlast ((condLast_iff' i).mp h))
      a2 h2 a3 h3 a4 h4 a5 h5 a6 h6 a7 h7 a8 h8 a9 h9 ri rj lab a K
  · have e : accIn i a = a := by unfold accIn; exact if_neg hfirst
    have hc1 : ¬condFirst i := fun h => hfirst ((condFirst_iff' i).mp h)
    by_cases hlast : (i 1).val = 7
    · -- the last tile: the outputs are stored
      rw [e, if_pos hlast]
      exact run_last c E i hc1 ((condLast_iff' i).mpr hlast)
        a2 h2 a3 h3 a4 h4 a5 h5 a6 h6 a7 h7 a8 h8 a9 h9 ri rj lab a K
    · -- a middle tile
      rw [e, if_neg hlast]
      exact run_mid c E i hc1 (fun h => hlast ((condLast_iff' i).mp h))
        a2 h2 a3 h3 a4 h4 a5 h5 a6 h6 a7 h7 a8 h8 a9 h9 ri rj lab a K

end Cert.Kernel.Hand

end
-- ==== Proof.K.LossBody.lean ====
import proofs.«128564_j90091234001463_1_alg».proof.Proof.K.LossRun

/-! Pipeline 2 runs its body at every grid point: the invariant hands the body the three scratch buffers at the
    accumulators the point before left (at anything before the first point) and takes them back advanced by the tile. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The invariant -/

theorem PhiA2_split (c : Dev nD) : (Pipeline.ΦA spec2 c : sProp 𝕄) ⊢ iprop(othersRest (F := F) c
          ∗ (∃ d, owns (c : Thread nD τ) scr0 fullShare d)
          ∗ (∃ d, owns (c : Thread nD τ) scr1 fullShare d)
          ∗ (∃ d, owns (c : Thread nD τ) scr2 fullShare d)
          ∗ (∃ r, prngReg c r)) := by
  unfold Pipeline.ΦA othersRest; rw [scopedRest2_eq]; simp only [scr0, scr1, scr2, owns_whole]
  iintro ⟨⟨H0, H1, H2, H3, H4, H5, H6, H7, S0, S1, S2⟩, Hg⟩
  isplitl [H0 H1 H2 H3 H4 H5 H6 H7]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  isplitl [S0]; · iexact S0
  isplitl [S1]; · iexact S1
  isplitl [S2]; · iexact S2
  iexact Hg

theorem PhiA2_join (c : Dev nD) : iprop(othersRest (F := F) c
          ∗ (∃ d, owns (c : Thread nD τ) scr0 fullShare d)
          ∗ (∃ d, owns (c : Thread nD τ) scr1 fullShare d)
          ∗ (∃ d, owns (c : Thread nD τ) scr2 fullShare d)
          ∗ (∃ r, prngReg c r)) ⊢ (Pipeline.ΦA spec2 c : sProp 𝕄) := by
  unfold Pipeline.ΦA othersRest; rw [scopedRest2_eq]; simp only [scr0, scr1, scr2, owns_whole]
  iintro ⟨⟨H0, H1, H2, H3, H4, H5, H6, H7⟩, S0, S1, S2, Hg⟩
  isplitr [Hg]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [S0]; · iexact S0
    isplitl [S1]; · iexact S1
    iexact S2
  iexact Hg

/-- The launch's form of the invariant with the three scratch buffers as memrefs owned at some contents. -/
theorem PhiA2_eq (c : Dev nD) : (Pipeline.ΦA spec2 c : sProp 𝕄) = iprop(othersRest (F := F) c
          ∗ (∃ d, owns (c : Thread nD τ) scr0 fullShare d)
          ∗ (∃ d, owns (c : Thread nD τ) scr1 fullShare d)
          ∗ (∃ d, owns (c : Thread nD τ) scr2 fullShare d)
          ∗ (∃ r, prngReg c r)) :=
  Entails.antisymm (PhiA2_split c) (PhiA2_join c)

theorem Phi2_zero (c : Dev nD) (n : ℕ) (h : n ≤ cfg2.N) (hz : n = 0) : Phi2 V c n h = Pipeline.ΦA spec2 c := by
  subst hz; rfl

/-- After point `n`: the scratch buffers at that point's accumulators. -/
theorem Phi2_succ (c : Dev nD) (n : ℕ) (hn : n < cfg2.N) :
    Phi2 V c (n + 1) hn = iprop(othersRest (F := F) c
      ∗ owns (c : Thread nD τ) scr0 fullShare (accAt V c n hn).1
      ∗ owns (c : Thread nD τ) scr1 fullShare (accAt V c n hn).2.1
      ∗ owns (c : Thread nD τ) scr2 fullShare (accAt V c n hn).2.2
      ∗ (∃ r, prngReg c r)) := rfl

/-- Before a point that is not the first: the scratch buffers at what the point before left. -/
theorem Phi2_pos (c : Dev nD) (n : ℕ) (h : n ≤ cfg2.N) (hz : n ≠ 0) :
    Phi2 V c n h = iprop(othersRest (F := F) c
      ∗ owns (c : Thread nD τ) scr0 fullShare (accAt V c (n - 1) (by omega)).1
      ∗ owns (c : Thread nD τ) scr1 fullShare (accAt V c (n - 1) (by omega)).2.1
      ∗ owns (c : Thread nD τ) scr2 fullShare (accAt V c (n - 1) (by omega)).2.2
      ∗ (∃ r, prngReg c r)) := by
  cases n with
  | zero => exact absurd rfl hz
  | succ n => rfl

/-- The invariant at a point's start, restated at the point's position. -/
theorem Phi2_castSucc (c : Dev nD) (t : Fin cfg2.N) :
    (dat2 (F := F) V c).Φ t.castSucc = Phi2 V c t.val (Nat.le_of_lt t.isLt) := by
  dsimp only [dat2]; simp only [Fin.coe_castSucc]

/-! ## The windows -/

theorem A_eq2 (c : Dev nD) (w : Fin cfg2.W) : (dat2 (F := F) V c).A w = V c (Pipeline.arrRef spec2 w) := by
  dsimp only [dat2]

theorem after2_0 (c : Dev nD) (t : Fin cfg2.N) : (dat2 (F := F) V c).after 0 t = blk2 V c 0 t := by dsimp only [dat2]
theorem after2_1 (c : Dev nD) (t : Fin cfg2.N) : (dat2 (F := F) V c).after 1 t = blk2 V c 1 t := by dsimp only [dat2]
theorem after2_2 (c : Dev nD) (t : Fin cfg2.N) : (dat2 (F := F) V c).after 2 t = blk2 V c 2 t := by dsimp only [dat2]
theorem after2_3 (c : Dev nD) (t : Fin cfg2.N) : (dat2 (F := F) V c).after 3 t = lossOf (accAt V c t.val t.isLt) := by dsimp only [dat2]
theorem after2_4 (c : Dev nD) (t : Fin cfg2.N) : (dat2 (F := F) V c).after 4 t = (accAt V c t.val t.isLt).2.2 := by dsimp only [dat2]

/-- Each input window's current buffer holds its block at every point, fetched there or not: unfetched, the block
    index has not moved. -/
theorem before2_0 (c : Dev nD) (t : Fin cfg2.N) (d) : (dat2 (F := F) V c).before 0 t d = blk2 V c 0 t :=
  ((dat2 (F := F) V c).before_in_eq_fetched 0 rfl (fun _ => rfl) (fun _ _ _ => rfl)
    (fun t => by rw [after2_0]; unfold Dat.blockOf blk2; rw [A_eq2]; try rfl) t d).trans
    (by unfold Dat.fetched Dat.blockOf blk2; rw [A_eq2]; try rfl)
theorem before2_1 (c : Dev nD) (t : Fin cfg2.N) (d) : (dat2 (F := F) V c).before 1 t d = blk2 V c 1 t :=
  ((dat2 (F := F) V c).before_in_eq_fetched 1 rfl (fun _ => rfl) (fun _ _ _ => rfl)
    (fun t => by rw [after2_1]; unfold Dat.blockOf blk2; rw [A_eq2]; try rfl) t d).trans
    (by unfold Dat.fetched Dat.blockOf blk2; rw [A_eq2]; try rfl)
theorem before2_2 (c : Dev nD) (t : Fin cfg2.N) (d) : (dat2 (F := F) V c).before 2 t d = blk2 V c 2 t :=
  ((dat2 (F := F) V c).before_in_eq_fetched 2 rfl (fun _ => rfl) (fun _ _ _ => rfl)
    (fun t => by rw [after2_2]; unfold Dat.blockOf blk2; rw [A_eq2]; try rfl) t d).trans
    (by unfold Dat.fetched Dat.blockOf blk2; rw [A_eq2]; try rfl)

/-! ## Where the windows are live -/

theorem liveAt2_0 : ∀ t : Fin cfg2.N, cfg2.idle 0 (grid2.coords t) = false := fun _ => rfl
theorem liveAt2_1 : ∀ t : Fin cfg2.N, cfg2.idle 1 (grid2.coords t) = false := fun _ => rfl
theorem liveAt2_2 : ∀ t : Fin cfg2.N, cfg2.idle 2 (grid2.coords t) = false := fun _ => rfl

/-- A point's column coordinate is its position modulo 8. -/
theorem col_eq : ∀ t : Fin cfg2.N, (grid2.coords t 1).val = t.val % 8 :=
  (by decide +kernel : ∀ t : Fin grid2.N, (grid2.coords t 1).val = t.val % 8)

/-- The output windows are idle exactly away from a row's last tile. -/
theorem idle2_3 : ∀ t : Fin cfg2.N, cfg2.idle 3 (grid2.coords t) = !decide (t.val % 8 = 7) :=
  (by decide +kernel : ∀ t : Fin grid2.N, idle2 3 (grid2.coords t) = !decide (t.val % 8 = 7))
theorem idle2_4 : ∀ t : Fin cfg2.N, cfg2.idle 4 (grid2.coords t) = !decide (t.val % 8 = 7) :=
  (by decide +kernel : ∀ t : Fin grid2.N, idle2 4 (grid2.coords t) = !decide (t.val % 8 = 7))

theorem idleAt2_3 : ∀ t : Fin cfg2.N, ¬t.val % 8 = 7 → cfg2.idle 3 (grid2.coords t) = true :=
  (by decide +kernel : ∀ t : Fin grid2.N, ¬t.val % 8 = 7 → idle2 3 (grid2.coords t) = true)
theorem idleAt2_4 : ∀ t : Fin cfg2.N, ¬t.val % 8 = 7 → cfg2.idle 4 (grid2.coords t) = true :=
  (by decide +kernel : ∀ t : Fin grid2.N, ¬t.val % 8 = 7 → idle2 4 (grid2.coords t) = true)
theorem liveAt2_3 : ∀ t : Fin cfg2.N, t.val % 8 = 7 → cfg2.idle 3 (grid2.coords t) = false :=
  (by decide +kernel : ∀ t : Fin grid2.N, t.val % 8 = 7 → idle2 3 (grid2.coords t) = false)
theorem liveAt2_4 : ∀ t : Fin cfg2.N, t.val % 8 = 7 → cfg2.idle 4 (grid2.coords t) = false :=
  (by decide +kernel : ∀ t : Fin grid2.N, t.val % 8 = 7 → idle2 4 (grid2.coords t) = false)
theorem noFlush2_3 (t : Fin cfg2.N) (h : ¬t.val % 8 = 7) : (cfg2.win 3).flush t = false :=
  Bool.eq_false_iff.mpr fun hf => h ((flush2_3 t).mp hf)
theorem noFlush2_4 (t : Fin cfg2.N) (h : ¬t.val % 8 = 7) : (cfg2.win 4).flush t = false :=
  Bool.eq_false_iff.mpr fun hf => h ((flush2_4 t).mp hf)
/-- The output windows are never fetched. -/
theorem noFetch2_3 : ∀ t : Fin cfg2.N, (cfg2.win 3).fetch t = false :=
  (by decide +kernel : ∀ t : Fin grid2.N, win2_3.fetch t = false)
theorem noFetch2_4 : ∀ t : Fin cfg2.N, (cfg2.win 4).fetch t = false :=
  (by decide +kernel : ∀ t : Fin grid2.N, win2_4.fetch t = false)

/-- An output window's current buffer, where the body finds it, holds whatever the unfilled buffer held: the window is
    never fetched, and between two write-backs the body leaves it alone. -/
theorem before2_3_aux (c : Dev nD) : ∀ (n : ℕ) (hn : n < cfg2.N) (d), (dat2 (F := F) V c).before 3 ⟨n, hn⟩ d = d
  | 0, hn, d => by
      unfold Dat.before
      rw [noFetch2_3 ⟨0, hn⟩, if_neg Bool.false_ne_true, if_pos rfl]
  | n + 1, hn, d => by
      rw [Dat.before_of_pos _ 3 ⟨n + 1, hn⟩ (Nat.succ_ne_zero n) (noFetch2_3 _) d]
      simp only [Nat.add_sub_cancel]
      by_cases hf : (cfg2.win 3).flush ⟨n, Nat.lt_of_succ_lt hn⟩ = true
      · rw [if_pos hf]
      · rw [if_neg hf]
        have h7 : ¬n % 8 = 7 := fun h => hf ((flush2_3 ⟨n, Nat.lt_of_succ_lt hn⟩).mpr h)
        unfold Dat.left
        rw [idleAt2_3 ⟨n, Nat.lt_of_succ_lt hn⟩ h7]
        exact before2_3_aux c n _ d
theorem before2_4_aux (c : Dev nD) : ∀ (n : ℕ) (hn : n < cfg2.N) (d), (dat2 (F := F) V c).before 4 ⟨n, hn⟩ d = d
  | 0, hn, d => by
      unfold Dat.before
      rw [noFetch2_4 ⟨0, hn⟩, if_neg Bool.false_ne_true, if_pos rfl]
  | n + 1, hn, d => by
      rw [Dat.before_of_pos _ 4 ⟨n + 1, hn⟩ (Nat.succ_ne_zero n) (noFetch2_4 _) d]
      simp only [Nat.add_sub_cancel]
      by_cases hf : (cfg2.win 4).flush ⟨n, Nat.lt_of_succ_lt hn⟩ = true
      · rw [if_pos hf]
      · rw [if_neg hf]
        have h7 : ¬n % 8 = 7 := fun h => hf ((flush2_4 ⟨n, Nat.lt_of_succ_lt hn⟩).mpr h)
        unfold Dat.left
        rw [idleAt2_4 ⟨n, Nat.lt_of_succ_lt hn⟩ h7]
        exact before2_4_aux c n _ d
theorem before2_3 (c : Dev nD) (t : Fin cfg2.N) (d) : (dat2 (F := F) V c).before 3 t d = d := before2_3_aux V c t.val t.isLt d
theorem before2_4 (c : Dev nD) (t : Fin cfg2.N) (d) : (dat2 (F := F) V c).before 4 t d = d := before2_4_aux V c t.val t.isLt d

/-! ## The accumulators, point by point -/

/-- At a row's first tile the accumulators restart from zero. -/
theorem accAt_first (c : Dev nD) (t : Fin cfg2.N) (h : t.val % 8 = 0) :
    accAt V c t.val t.isLt = accStep V c t accZero := by
  obtain ⟨n, hn⟩ := t
  cases n with
  | zero => rfl
  | succ n => exact congrArg (accStep V c ⟨n + 1, hn⟩) (if_pos h)

/-- At the other tiles they continue from the point before. -/
theorem accAt_next (c : Dev nD) (t : Fin cfg2.N) (h : ¬t.val % 8 = 0) :
    accAt V c t.val t.isLt = accStep V c t (accAt V c (t.val - 1) (Nat.lt_of_le_of_lt (Nat.sub_le _ _) t.isLt)) := by
  obtain ⟨n, hn⟩ := t
  cases n with
  | zero => exact absurd (Nat.zero_mod _) h
  | succ n => exact congrArg (accStep V c ⟨n + 1, hn⟩) (if_neg h)

/-- One tile's step from what the scratch buffers hold is the accumulators after the point: at a row's first tile
    whatever they hold is discarded, at the others they hold what the point before left. -/
theorem step_eq_accAt (c : Dev nD) (t : Fin cfg2.N) (a : Acc F)
    (ha : ¬t.val % 8 = 0 → a = accAt V c (t.val - 1) (Nat.lt_of_le_of_lt (Nat.sub_le _ _) t.isLt)) :
    stepOf (grid2.coords t) (blk2 V c 0 t) (blk2 V c 1 t) (blk2 V c 2 t) (accIn (grid2.coords t) a)
      = accAt V c t.val t.isLt := by
  by_cases h : t.val % 8 = 0
  · rw [accAt_first V c t h]; unfold accIn; rw [if_pos (by rw [col_eq]; exact h)]; rfl
  · rw [accAt_next V c t h, ← ha h]; unfold accIn; rw [if_neg (by rw [col_eq]; exact h)]; rfl

/-! ## The body obligation, at a generic point -/

/-- Each window's current staging memref at point `t`, as the pipeline passes it to the body, and its wholeness. -/
abbrev ms2_0 (t : Fin cfg2.N) : Memref sig .tc .vmem S512x256 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S512x256 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S512x512 .i32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S512x1 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S512x1 .f32 := win2_4.stage (cfg2.slots t 4)
abbrev hs2_4 (t : Fin cfg2.N) : (ms2_4 t).IsWhole := hstage2_4 ((cfg2.slots t 4).cast nbuf2_4)

/-- What the body is called with at point `t`, the windows one by one, -/
def bodyPre (c : Dev nD) (t : Fin cfg2.N) : sProp 𝕄 :=
  iprop((dat2 (F := F) V c).Φ t.castSucc ∗ (dat2 (F := F) V c).owesAt () t.castSucc
    ∗ (∃ d, owns (c : Thread nD τ) (ms2_0 t) fullShare ((dat2 (F := F) V c).before 0 t d))
    ∗ (∃ d, owns (c : Thread nD τ) (ms2_1 t) fullShare ((dat2 (F := F) V c).before 1 t d))
    ∗ (∃ d, owns (c : Thread nD τ) (ms2_2 t) fullShare ((dat2 (F := F) V c).before 2 t d))
    ∗ (∃ d, owns (c : Thread nD τ) (ms2_3 t) fullShare ((dat2 (F := F) V c).before 3 t d))
    ∗ (∃ d, owns (c : Thread nD τ) (ms2_4 t) fullShare ((dat2 (F := F) V c).before 4 t d)))

/-- and what it returns. -/
def bodyPost (c : Dev nD) (t : Fin cfg2.N) : sProp 𝕄 :=
  iprop((dat2 (F := F) V c).Φ t.succ ∗ (dat2 (F := F) V c).owesAt () t.succ
    ∗ (dat2 (F := F) V c).leavesExact 0 t
    ∗ (dat2 (F := F) V c).leavesExact 1 t
    ∗ (dat2 (F := F) V c).leavesExact 2 t
    ∗ (dat2 (F := F) V c).leavesExact 3 t
    ∗ (dat2 (F := F) V c).leavesExact 4 t)

set_option maxHeartbeats 4800000 in
/-- The body at a point whose scratch buffers hold `a` — anything at a row's first tile, else what the point before
    left: the input windows hold their blocks, the output windows anything; the body leaves the scratch buffers at the
    accumulators after the point and, at a row's last tile, the output windows at the loss shares and counts; at the
    other tiles the output windows come back untouched. The core owes nothing throughout. -/
theorem sound_core (c : Dev nD) (t : Fin cfg2.N) (a : Acc F)
    (ha : ¬t.val % 8 = 0 → a = accAt V c (t.val - 1) (Nat.lt_of_le_of_lt (Nat.sub_le _ _) t.isLt)) :
    iprop(othersRest (F := F) c
        ∗ owns (c : Thread nD τ) scr0 fullShare a.1
        ∗ owns (c : Thread nD τ) scr1 fullShare a.2.1
        ∗ owns (c : Thread nD τ) scr2 fullShare a.2.2
        ∗ (∃ r, prngReg c r)
        ∗ (dat2 (F := F) V c).owesAt () t.castSucc
        ∗ (∃ d, owns (c : Thread nD τ) (ms2_0 t) fullShare ((dat2 (F := F) V c).before 0 t d))
        ∗ (∃ d, owns (c : Thread nD τ) (ms2_1 t) fullShare ((dat2 (F := F) V c).before 1 t d))
        ∗ (∃ d, owns (c : Thread nD τ) (ms2_2 t) fullShare ((dat2 (F := F) V c).before 2 t d))
        ∗ (∃ d, owns (c : Thread nD τ) (ms2_3 t) fullShare ((dat2 (F := F) V c).before 3 t d))
        ∗ (∃ d, owns (c : Thread nD τ) (ms2_4 t) fullShare ((dat2 (F := F) V c).before 4 t d)))
      ⊢ wp frame (wpE (defs₀ (F := F)) Variants.none c none) Set.univ (bodyAt2 t) (fun _ => bodyPost V c t) := by
  have hl := sound_loss (F := F) c Set.univ (grid2.coords t) (ms2_0 t) (hs2_0 t) (ms2_1 t) (hs2_1 t) (ms2_2 t) (hs2_2 t)
    (ms2_3 t) (hs2_3 t) (ms2_4 t) (hs2_4 t) scr0 (Memref.isWhole_whole _) scr1 (Memref.isWhole_whole _)
    scr2 (Memref.isWhole_whole _) (blk2 V c 0 t) (blk2 V c 1 t) (blk2 V c 2 t) a (fun _ => bodyPost V c t)
  rw [step_eq_accAt V c t a ha] at hl
  unfold bodyPost at hl ⊢
  unfold bodyAt2
  simp only [before2_0, before2_1, before2_2, before2_3, before2_4]
  rw [show (dat2 (F := F) V c).owesAt () t.succ = (dat2 (F := F) V c).owesAt () t.castSucc from rfl] at hl ⊢
  rw [show (dat2 (F := F) V c).Φ t.succ = Phi2 V c (t.val + 1) t.isLt from rfl, Phi2_succ] at hl ⊢
  rw [show (dat2 (F := F) V c).leavesExact 0 t = owns (c : Thread nD τ) (ms2_0 t) fullShare ((dat2 (F := F) V c).after 0 t) from by
    unfold Dat.leavesExact; rw [liveAt2_0 t], after2_0] at hl ⊢
  rw [show (dat2 (F := F) V c).leavesExact 1 t = owns (c : Thread nD τ) (ms2_1 t) fullShare ((dat2 (F := F) V c).after 1 t) from by
    unfold Dat.leavesExact; rw [liveAt2_1 t], after2_1] at hl ⊢
  rw [show (dat2 (F := F) V c).leavesExact 2 t = owns (c : Thread nD τ) (ms2_2 t) fullShare ((dat2 (F := F) V c).after 2 t) from by
    unfold Dat.leavesExact; rw [liveAt2_2 t], after2_2] at hl ⊢
  by_cases h7 : t.val % 8 = 7
  · rw [if_pos (show (grid2.coords t 1).val = 7 by rw [col_eq]; exact h7)] at hl
    rw [show (dat2 (F := F) V c).leavesExact 3 t = owns (c : Thread nD τ) (ms2_3 t) fullShare ((dat2 (F := F) V c).after 3 t) from by
      unfold Dat.leavesExact; rw [liveAt2_3 t h7], after2_3] at hl ⊢
    rw [show (dat2 (F := F) V c).leavesExact 4 t = owns (c : Thread nD τ) (ms2_4 t) fullShare ((dat2 (F := F) V c).after 4 t) from by
      unfold Dat.leavesExact; rw [liveAt2_4 t h7], after2_4] at hl ⊢
    iintro ⟨Hr, S0, S1, S2, Hg, Ho, ⟨%d0, H0⟩, ⟨%d1, H1⟩, ⟨%d2, H2⟩, H3, H4⟩
    iapply hl
    isplitl [H0]; · iexact H0
    isplitl [H1]; · iexact H1
    isplitl [H2]; · iexact H2
    isplitl [H3]; · iexact H3
    isplitl [H4]; · iexact H4
    isplitl [S0]; · iexact S0
    isplitl [S1]; · iexact S1
    isplitl [S2]; · iexact S2
    iintro ⟨H0, H1, H2, ⟨H3, H4⟩, S0, S1, S2⟩
    isplitl [Hr S0 S1 S2 Hg]
    · isplitl [Hr]; · iexact Hr
      isplitl [S0]; · iexact S0
      isplitl [S1]; · iexact S1
      isplitl [S2]; · iexact S2
      iexact Hg
    isplitl [Ho]; · iexact Ho
    isplitl [H0]; · iexact H0
    isplitl [H1]; · iexact H1
    isplitl [H2]; · iexact H2
    isplitl [H3]; · iexact H3
    iexact H4
  · rw [if_neg (show ¬(grid2.coords t 1).val = 7 by rw [col_eq]; exact h7)] at hl
    rw [Dat.leavesExact_idle (dat2 (F := F) V c) 3 t (idleAt2_3 t h7) (noFlush2_3 t h7)] at hl ⊢
    rw [Dat.leavesExact_idle (dat2 (F := F) V c) 4 t (idleAt2_4 t h7) (noFlush2_4 t h7)] at hl ⊢
    simp only [before2_3, before2_4] at hl ⊢
    iintro ⟨Hr, S0, S1, S2, Hg, Ho, ⟨%d0, H0⟩, ⟨%d1, H1⟩, ⟨%d2, H2⟩, H3, H4⟩
    iapply hl
    isplitl [H0]; · iexact H0
    isplitl [H1]; · iexact H1
    isplitl [H2]; · iexact H2
    isplitl [H3]; · iexact H3
    isplitl [H4]; · iexact H4
    isplitl [S0]; · iexact S0
    isplitl [S1]; · iexact S1
    isplitl [S2]; · iexact S2
    iintro ⟨H0, H1, H2, ⟨H3, H4⟩, S0, S1, S2⟩
    isplitl [Hr S0 S1 S2 Hg]
    · isplitl [Hr]; · iexact Hr
      isplitl [S0]; · iexact S0
      isplitl [S1]; · iexact S1
      isplitl [S2]; · iexact S2
      iexact Hg
    isplitl [Ho]; · iexact Ho
    isplitl [H0]; · iexact H0
    isplitl [H1]; · iexact H1
    isplitl [H2]; · iexact H2
    isplitl [H3]; · iexact H3
    iexact H4

set_option maxHeartbeats 4800000 in
/-- The body at any point: before the first point the invariant is the launch's, the scratch buffers at anything;
    afterwards it names what the point before left in them. -/
theorem sound_body (c : Dev nD) (t : Fin cfg2.N) :
    bodyPre V c t ⊢ wp frame (wpE (defs₀ (F := F)) Variants.none c none) Set.univ (bodyAt2 t) (fun _ => bodyPost V c t) := by
  unfold bodyPre
  by_cases hz : t.val = 0
  · rw [Phi2_castSucc V c t, Phi2_zero V c _ _ hz, PhiA2_eq]
    iintro ⟨⟨Hr, ⟨%e0, S0⟩, ⟨%e1, S1⟩, ⟨%e2, S2⟩, Hg⟩, Ho, H0, H1, H2, H3, H4⟩
    iapply (sound_core V c t (e0, e1, e2) (fun h => absurd (by rw [hz]) h))
    isplitl [Hr]; · iexact Hr
    isplitl [S0]; · iexact S0
    isplitl [S1]; · iexact S1
    isplitl [S2]; · iexact S2
    isplitl [Hg]; · iexact Hg
    isplitl [Ho]; · iexact Ho
    isplitl [H0]; · iexact H0
    isplitl [H1]; · iexact H1
    isplitl [H2]; · iexact H2
    isplitl [H3]; · iexact H3
    iexact H4
  · rw [Phi2_castSucc V c t, Phi2_pos V c _ _ hz]
    iintro ⟨⟨Hr, S0, S1, S2, Hg⟩, Ho, H0, H1, H2, H3, H4⟩
    iapply (sound_core V c t (accAt V c (t.val - 1) (Nat.lt_of_le_of_lt (Nat.sub_le _ _) t.isLt)) (fun _ => rfl))
    isplitl [Hr]; · iexact Hr
    isplitl [S0]; · iexact S0
    isplitl [S1]; · iexact S1
    isplitl [S2]; · iexact S2
    isplitl [Hg]; · iexact Hg
    isplitl [Ho]; · iexact Ho
    isplitl [H0]; · iexact H0
    isplitl [H1]; · iexact H1
    isplitl [H2]; · iexact H2
    isplitl [H3]; · iexact H3
    iexact H4

/-! ## The three interfaces -/

/-- What the launch hands the region is the invariant before the first point. -/
theorem Phi2_entry (c : Dev nD) : Pipeline.ΦA spec2 c ⊢ (dat2 (F := F) V c).Φ 0 := by
  rw [show (dat2 (F := F) V c).Φ 0 = Phi2 V c 0 (Nat.zero_le _) from rfl, Phi2_zero V c 0 _ rfl]

/-- After the last point the invariant gives the launch's form back: the accumulators' contents are forgotten. -/
theorem Phi2_exit (c : Dev nD) : (dat2 (F := F) V c).Φ (Fin.last cfg2.N) ⊢ Pipeline.ΦA spec2 c := by
  rw [show (dat2 (F := F) V c).Φ (Fin.last cfg2.N) = Phi2 V c (Fin.last cfg2.N).val (Nat.le_of_lt_succ (Fin.last cfg2.N).isLt) from rfl,
    Phi2_pos V c _ _ (by rw [Fin.val_last]; have : cfg2.N = 64 := N_2; omega), PhiA2_eq]
  iintro ⟨Hr, S0, S1, S2, Hg⟩
  isplitl [Hr]; · iexact Hr
  isplitl [S0]; · iexists _; iexact S0
  isplitl [S1]; · iexists _; iexact S1
  isplitl [S2]; · iexists _; iexact S2
  iexact Hg

/-- The library's body obligation, at every point. -/
theorem body_obligation2 (c : Dev nD) : BodyObligation (dat2 (F := F) V c) (defs₀ (F := F)) Variants.none () Set.univ := fun t => by
  rw [bigSep_W2, bigSep_W2]
  exact sound_body V c t

end Cert.Kernel.Hand

end
-- ==== Proof.K.Tail.lean ====
import proofs.«128564_j90091234001463_1_alg».proof.Proof.K.Data

/-! The host operations after the three pipelines, as one function of the two columns pipeline 2 leaves: the columns
    are summed, and the result is the weight times (total / max(count, 1)) when the count is positive, else zero. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The program's last thirteen host operations composed: `x` the loss shares, `y` the counts. -/
def hostTail (x y : (⟨S4096x1, .f32⟩ : BufTy).Contents (Elt F)) : (⟨S_, .f32⟩ : BufTy).Contents (Elt F) :=
  mulf (constant S_ .f32 0x3E99999A#32)
    (select (cmpf .ogt (Host.reduceAdd y (constant S_ .f32 0x00000000#32) reducesTo_S4096x1_S_d0_1 h_S_) (constant S_ .f32 0x00000000#32))
      (Host.divf (Host.reduceAdd x (constant S_ .f32 0x00000000#32) reducesTo_S4096x1_S_d0_1 h_S_)
        (maximumf (Host.reduceAdd y (constant S_ .f32 0x00000000#32) reducesTo_S4096x1_S_d0_1 h_S_) (constant S_ .f32 0x3F800000#32)))
      (constant S_ .f32 0x00000000#32))

end Cert.Kernel.Hand

end
-- ==== Proof.K.Run.lean ====
import proofs.«128564_j90091234001463_1_alg».proof.Proof.K.PoolBody
import proofs.«128564_j90091234001463_1_alg».proof.Proof.K.LossBody
import proofs.«128564_j90091234001463_1_alg».proof.Proof.K.Tail
import proofs.«128564_j90091234001463_1_alg».proof.Proof.Gen.Kernel.Regions

/-! The whole program's run: the three pipelines one after the other, each entered with what the one before left, then
    the host operations. Between two items every unscoped buffer is held at a named valuation: the launch memory; after a
    pipeline its windows' arrays at what its write-backs leave and every other buffer as before. At the end the result is
    the host tail of the two columns pipeline 2 leaves, and the three arguments are as launched. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s unscoped buffers at launch, and the same read at the TensorCore's references (what pipeline 0 is entered with). -/
abbrev W0 (c : Dev nD) : Valuation τ sig (Elt F) := fun b => m (c, b)
abbrev En0 : (c : Dev nD) → (b : Ref sig .tc) → Buf (Elt F) ((c : Thread nD τ).loc b) := fun c b => W0 m c b
/-- After pipeline 0: its arrays at what it leaves, every other buffer as before. -/
def W1 (c : Dev nD) : Valuation τ sig (Elt F) :=
  Pipeline.withArrays spec0 c (W0 m c) fun w => (dat0 (En0 m) c).arrAt w cfg0.N
abbrev En1 : (c : Dev nD) → (b : Ref sig .tc) → Buf (Elt F) ((c : Thread nD τ).loc b) := fun c b => W1 m c b
/-- After pipeline 1. -/
def W2 (c : Dev nD) : Valuation τ sig (Elt F) :=
  Pipeline.withArrays spec1 c (W1 m c) fun w => (dat1 (En1 m) c).arrAt w cfg1.N
abbrev En2 : (c : Dev nD) → (b : Ref sig .tc) → Buf (Elt F) ((c : Thread nD τ).loc b) := fun c b => W2 m c b
/-- After pipeline 2. -/
def W3 (c : Dev nD) : Valuation τ sig (Elt F) :=
  Pipeline.withArrays spec2 c (W2 m c) fun w => (dat2 (En2 m) c).arrAt w cfg2.N

/-- The unit rows of the two batches as pipelines 0 and 1 leave them, and the two columns pipeline 2 leaves. -/
def riArr (c : Dev nD) := (dat0 (En0 m) c).arrAt 1 cfg0.N
def rjArr (c : Dev nD) := (dat1 (En1 m) c).arrAt 1 cfg1.N
def lossArr (c : Dev nD) := (dat2 (En2 m) c).arrAt 3 cfg2.N
def cntArr (c : Dev nD) := (dat2 (En2 m) c).arrAt 4 cfg2.N

/-! ## What each pipeline is entered with -/

theorem W1_arr (c : Dev nD) (w : Fin cfg0.W) :
    W1 m c (Proc.devRef .tc (Pipeline.arrRef spec0 w)) = (dat0 (En0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
theorem W2_arr (c : Dev nD) (w : Fin cfg1.W) :
    W2 m c (Proc.devRef .tc (Pipeline.arrRef spec1 w)) = (dat1 (En1 m) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m c (Proc.devRef .tc b) = W1 m c (Proc.devRef .tc b) := by
  unfold W2; exact Pipeline.withArrays_of_ne spec1 c _ _ b hb
theorem W3_arr (c : Dev nD) (w : Fin cfg2.W) :
    W3 m c (Proc.devRef .tc (Pipeline.arrRef spec2 w)) = (dat2 (En2 m) c).arrAt w cfg2.N := by
  unfold W3; exact Pipeline.withArrays_arr spec2 launch2.win.arr_inj c _ _ w
theorem W3_of_ne (c : Dev nD) (b : Ref sig .tc) (hb : ∀ w, Pipeline.arrRef spec2 w ≠ b) :
    W3 m c (Proc.devRef .tc b) = W2 m c (Proc.devRef .tc b) := by
  unfold W3; exact Pipeline.withArrays_of_ne spec2 c _ _ b hb

theorem En1_arg1 (c : Dev nD) : En1 m c main_arg1 = m ((c : Thread nD τ).loc main_arg1) :=
  (W1_of_ne m c main_arg1 (by decide)).trans rfl
theorem En2_v0 (c : Dev nD) : En2 m c main_v0 = riArr m c :=
  (W2_of_ne m c main_v0 (by decide)).trans (W1_arr m c 1)
theorem En2_v1 (c : Dev nD) : En2 m c main_v1 = rjArr m c :=
  W2_arr m c 1
theorem En2_arg2 (c : Dev nD) : En2 m c main_arg2 = m ((c : Thread nD τ).loc main_arg2) :=
  (W2_of_ne m c main_arg2 (by decide)).trans ((W1_of_ne m c main_arg2 (by decide)).trans rfl)

/-! ## The buffers after the host operations -/

/-- After the first ten host operations, after the selection, after the last two. -/
abbrev W4 (c : Dev nD) : Valuation τ sig (Elt F) := StableHlo.after hostOps3 (W3 m c)
abbrev W5 (c : Dev nD) : Valuation τ sig (Elt F) := StableHlo.after hostOps3_1 (W4 m c)
abbrev W6 (c : Dev nD) : Valuation τ sig (Elt F) := StableHlo.after hostOps3_2 (W5 m c)

/-- A buffer no host operation writes is after them what pipeline 2 left. -/
theorem W6_of (c : Dev nD) (r : Ref sig .tc) (h4 : r ∉ hostOps3_W) (h5 : r ∉ hostOps3_1_W) (h6 : r ∉ hostOps3_2_W) :
    W6 m c (Proc.devRef .tc r) = W3 m c (Proc.devRef .tc r) :=
  (StableHlo.after_of_writes_sub hostOps3_2 _ hostOps3_2_writes h6).trans <|
    (StableHlo.after_of_writes_sub hostOps3_1 _ hostOps3_1_writes h5).trans <|
      StableHlo.after_of_writes_sub hostOps3 _ hostOps3_writes h4

/-- The arguments end as launched: no host operation writes one, and a pipeline either reads it through an input
    window or does not stage it. -/
theorem W6_main_arg0 (c : Dev nD) : W6 m c (Proc.devRef .tc main_arg0) = m ((c : Thread nD τ).loc main_arg0) :=
  calc W6 m c (Proc.devRef .tc main_arg0)
    _ = W3 m c (Proc.devRef .tc main_arg0) := W6_of m c main_arg0 (by decide) (by decide) (by decide)
    _ = W2 m c (Proc.devRef .tc main_arg0) := W3_of_ne m c main_arg0 (by decide)
    _ = W1 m c (Proc.devRef .tc main_arg0) := W2_of_ne m c main_arg0 (by decide)
    _ = m ((c : Thread nD τ).loc main_arg0) := (W1_arr m c 0).trans ((dat0 (En0 m) c).arrAt_in 0 rfl _)
theorem W6_main_arg1 (c : Dev nD) : W6 m c (Proc.devRef .tc main_arg1) = m ((c : Thread nD τ).loc main_arg1) :=
  calc W6 m c (Proc.devRef .tc main_arg1)
    _ = W3 m c (Proc.devRef .tc main_arg1) := W6_of m c main_arg1 (by decide) (by decide) (by decide)
    _ = W2 m c (Proc.devRef .tc main_arg1) := W3_of_ne m c main_arg1 (by decide)
    _ = En1 m c main_arg1 := (W2_arr m c 0).trans ((dat1 (En1 m) c).arrAt_in 0 rfl _)
    _ = m ((c : Thread nD τ).loc main_arg1) := En1_arg1 m c
theorem W6_main_arg2 (c : Dev nD) : W6 m c (Proc.devRef .tc main_arg2) = m ((c : Thread nD τ).loc main_arg2) :=
  calc W6 m c (Proc.devRef .tc main_arg2)
    _ = W3 m c (Proc.devRef .tc main_arg2) := W6_of m c main_arg2 (by decide) (by decide) (by decide)
    _ = En2 m c main_arg2 := (W3_arr m c 2).trans ((dat2 (En2 m) c).arrAt_in 2 rfl _)
    _ = m ((c : Thread nD τ).loc main_arg2) := En2_arg2 m c

/-- The result buffer ends at the host tail of the two columns pipeline 2 leaves. -/
theorem W6_main_v9 (c : Dev nD) : W6 m c (Proc.devRef .tc main_v9) = hostTail (lossArr m c) (cntArr m c) := by
  show StableHlo.after hostOps3_2 (StableHlo.after hostOps3_1 (StableHlo.after hostOps3 (W3 m c))) (Proc.devRef .tc main_v9) = _
  after_results
  rw [W3_arr m c 3, W3_arr m c 4]
  unfold hostTail
  rfl

/-! ## The proof data family and the thread state -/

/-- Every pipeline's proof data, each at what its pipeline is entered with. -/
def pdats : (p : Fin 3) → (c : Dev nD) → Dat τ (Elt F) Unit ℕ (UR sig nD τ) ℕ (Pipeline.pin (pcfgs (F := F)) adm p) c
  | ⟨0, _⟩ => fun c => dat0 (En0 m) c
  | ⟨1, _⟩ => fun c => dat1 (En1 m) c
  | ⟨2, _⟩ => fun c => dat2 (En2 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers between two items: the core's generator register at some state and nothing owed. -/
abbrev R (c : Dev nD) : sProp 𝕄 := iprop((∃ r, prngReg c r) ∗ ∃ W, owes (c : Thread nD τ) (0 : CellTallies nD τ sig Unit) W)
/-- A stretch of host operations from the contents W, R riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the last contents, the register at some state. -/
abbrev Tₙ (c : Dev nD) : sProp 𝕄 := iprop(StableHlo.held (c : Thread nD τ) (Pipeline.ucRefs τ sig) (W6 m c) ∗ ∃ r, prngReg c r)

/-- At a pipeline's exit each of its arrays holds what the pipeline leaves and every other buffer what it held at entry. -/
theorem hF0 (c : Dev nD) (w : Fin cfg0.W) : (dat0 (En0 m) c).arrAt w cfg0.N = En1 m c (Pipeline.arrRef spec0 w) :=
  (W1_arr m c w).symm
theorem hrest0 (c : Dev nD) : ∀ b, b ∉ Finset.univ.image (Pipeline.arrRef spec0) → En1 m c b = En0 m c b :=
  fun b hb => W1_of_ne m c b fun w e => hb (Finset.mem_image.mpr ⟨w, Finset.mem_univ _, e⟩)
theorem hF1 (c : Dev nD) (w : Fin cfg1.W) : (dat1 (En1 m) c).arrAt w cfg1.N = En2 m c (Pipeline.arrRef spec1 w) :=
  (W2_arr m c w).symm
theorem hrest1 (c : Dev nD) : ∀ b, b ∉ Finset.univ.image (Pipeline.arrRef spec1) → En2 m c b = En1 m c b :=
  fun b hb => W2_of_ne m c b fun w e => hb (Finset.mem_image.mpr ⟨w, Finset.mem_univ _, e⟩)
/-- The buffers after pipeline 2 read at the core's references. -/
abbrev Ex2 : (c : Dev nD) → (b : Ref sig .tc) → Buf (Elt F) ((c : Thread nD τ).loc b) := fun c b => W3 m c b
theorem hF2 (c : Dev nD) (w : Fin cfg2.W) : (dat2 (En2 m) c).arrAt w cfg2.N = Ex2 m c (Pipeline.arrRef spec2 w) :=
  (W3_arr m c w).symm
theorem hrest2 (c : Dev nD) : ∀ b, b ∉ Finset.univ.image (Pipeline.arrRef spec2) → Ex2 m c b = En2 m c b :=
  fun b hb => W3_of_ne m c b fun w e => hb (Finset.mem_image.mpr ⟨w, Finset.mem_univ _, e⟩)

/-! ## The pipelines as segments -/

set_option backward.isDefEq.respectTransparency.types false in
/-- Pipeline 0 over the thread state: entered from every unscoped buffer at the launch contents, left at W1. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (En0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (En0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (En0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (En0 m c) (En1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pipeline 1 over the thread state: entered from W1, left at W2. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (En1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec1 c (En1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (En1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (En1 m c) (En2 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pipeline 2 over the thread state: entered from W2, left at W3. Its invariant is the accumulators': entered from
    the launch's form and giving that form back after the last point. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (En2 m) c).loose
  hwaits := Pipeline.hwaits_of_owed_zero _ _ _ _ L lv 2 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec2 c (En2 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (En2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := Phi2_entry (F := F) (En2 m) c
    unfold Pipeline.ΦA at h
    rw [show (pdats m 2 c).Φ 0 = (dat2 (En2 m) c).Φ 0 from rfl]
    iintro ⟨Hp, -, Hr⟩
    iapply h
    isplitl [Hr]; · iexact Hr
    iexact Hp
  hout c := by
    have h := Phi2_exit (F := F) (En2 m) c
    unfold Pipeline.ΦA at h
    rw [Pipeline.ownSems0_none, show (pdats m 2 c).Φ (Fin.last _) = (dat2 (En2 m) c).Φ (Fin.last cfg2.N) from rfl]
    iintro H
    ihave H' := h $$ H
    icases H' with ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (En2 m c) (Ex2 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The last item's thread state regrouped: the buffers and the register on one side, what is owed on the other. -/
theorem last_state (c : Dev nD) :
    (iprop(StableHlo.held (c : Thread nD τ) (Pipeline.ucRefs τ sig) (W6 m c) ∗ (∃ r, prngReg c r) ∗ ∃ W, owes (c : Thread nD τ) (0 : CellTallies nD τ sig Unit) W) : sProp 𝕄)
      ⊢ iprop((StableHlo.held (c : Thread nD τ) (Pipeline.ucRefs τ sig) (W6 m c) ∗ ∃ r, prngReg c r) ∗ ∃ W, owes (c : Thread nD τ) (0 : CellTallies nD τ sig Unit) W) := by
  iintro ⟨Hh, Hp, HO⟩
  isplitl [Hh Hp]
  · isplitl [Hh]; · iexact Hh
    iexact Hp
  iexact HO

/-! ## The program as segments, and the run -/

/-- The program's six items in order: the three pipelines, then the three stretches of host operations. -/
abbrev segsH : List (Pipeline.Seg (pcfgs (F := F)) adm (pdats m) () defs₀ 𝒱₀ L lv) :=
  [ .region (reg0 m),
    .region (reg1 m),
    .region (reg2 m),
    .host (hseg hostOps3 hostOps3_sub hostOps3_fresh (W3 m)),
    .host (hseg hostOps3_1 hostOps3_1_sub hostOps3_1_fresh (W4 m)),
    .host (hseg hostOps3_2 hostOps3_2_sub hostOps3_2_fresh (W5 m)) ]

set_option backward.isDefEq.respectTransparency.types false in
/-- Every weakly fair execution of the program from memory m with zero counters terminates, nothing faulting; the
    result buffer ends at the host tail of pipeline 2's two columns and the arguments end as launched. -/
theorem run_main : θ_run defs (onTc (τ := τ) (main (F := F))) ⟨m, fun _ => 0, ρ⟩ (fun r => ∀ c : Dev nD,
      r.2.mem ((c.tc : Thread nD τ).loc main_v9) = hostTail (lossArr m c) (cntArr m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m) () cellOf_inj emb₁ defs₀ 𝒱₀ L lv m ρ main (segsH m)
    (fun c Q => by
      rewrite [main_chain c, Pipeline.Seg.run_eq_chain,
        show (segsH m).map Pipeline.Seg.prog = [
          Prog.lift (.customCall (Pipeline.entry 0) ()),
          Prog.lift (.customCall (Pipeline.entry 1) ()),
          Prog.lift (.customCall (Pipeline.entry 2) ()),
          StableHlo.seq hostOps3,
          StableHlo.seq hostOps3_1,
          StableHlo.seq hostOps3_2 ] from rfl]
      exact .rfl)
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun c => last_state m c⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h c =>
      ⟨(h c _ (mem_uc main_v9 (by decide))).trans (W6_main_v9 m c),
       (h c _ (mem_uc main_arg0 (by decide))).trans (W6_main_arg0 m c),
       (h c _ (mem_uc main_arg1 (by decide))).trans (W6_main_arg1 m c),
       (h c _ (mem_uc main_arg2 (by decide))).trans (W6_main_arg2 m c)⟩)

end Cert.Kernel.Hand

end
-- ==== Proof.KI.Data.lean ====
import proofs.«128564_j90091234001463_1_alg».proof.Proof.Gen.KernelIdeal.Launch
import proofs.«128564_j90091234001463_1_alg».proof.Proof.Gen.KernelIdeal.Skeleton
import proofs.«128564_j90091234001463_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
  What each of the three pipelines holds, point by point, as functions of the arrays it is entered with.

  Pipelines 0 and 1 (pool and normalise): at point `t` the input window's buffer holds block `t` of its array (512
  samples, all their slots) and the body leaves in the output window's buffer the unit rows of those samples.

  Pipeline 2 (the loss rows) walks an 8 × 8 grid, point `t` being tile (`t / 8`, `t % 8`) of the pair table. It keeps
  three column accumulators in scratch buffers across the 8 points of a tile row — the partition sum, the sum of
  positive similarities and the number of positives of each of the tile row's 512 samples —, reset at the row's first
  tile (`accAt`). At the row's last tile the body stores the samples' loss shares and counts into the two output
  windows; at the other tiles it leaves those windows alone (they are idle there).
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when a pipeline is entered
variable (V : (c : Dev nD) → (b : Ref sig .tc) → Buf (Elt F) ((c : Thread nD τ).loc b))

/-! ## The windows' blocks -/

/-- Block `t` of window `w`'s array, for each pipeline. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## Pipelines 0 and 1 -/

/-- Pipeline 0: inputs at their blocks, the output at the unit rows of the block's samples; the region's invariant is
    the untouched scoped rest and the generator register. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => k0_pay1 (blk0 V c 0 t)
  Φ _ := Pipeline.ΦA spec0 c
  q _ := fullShare
  owed _ := 0

/-- Pipeline 1: the same of the second batch. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => k1_pay1 (blk1 V c 0 t)
  Φ _ := Pipeline.ΦA spec1 c
  q _ := fullShare
  owed _ := 0

/-! ## Pipeline 2: the accumulators -/

/-- The three scratch buffers as memrefs. -/
abbrev scr0 : Memref sig .tc .vmem S512x1 .f32 := Memref.whole cc2_scratch0
abbrev scr1 : Memref sig .tc .vmem S512x1 .f32 := Memref.whole cc2_scratch1
abbrev scr2 : Memref sig .tc .vmem S512x1 .f32 := Memref.whole cc2_scratch2

/-- The accumulators (partition sum, positive-similarity sum, count) as a triple. -/
abbrev Acc (F : FTy → Type) [FloatOps F] : Type := Vec F S512x1 .f32 × Vec F S512x1 .f32 × Vec F S512x1 .f32

/-- The accumulators at the start of a tile row: all zero. -/
def accZero : Acc F := (k2_pay4 (F := F), k2_pay5 (F := F), k2_pay6 (F := F))

/-- One tile's contribution added to the accumulators `a` the tile is entered with, from the tile's three blocks: rows
    of the first batch, rows of the second, labels. -/
def stepOf (i : grid2.Coords) (ri rj : Vec F S512x256 .bf16) (lab : Vec F S512x512 .i32) (a : Acc F) : Acc F :=
  (k2_pay10 i ri rj a.1, k2_pay1 (k2_pay7 ri rj) (k2_pay9 i lab) a.2.1, k2_pay2 (k2_pay9 i lab) a.2.2)

/-- The accumulators a tile starts from: zero at a row's first tile, else what the scratch buffers hold. -/
def accIn (i : grid2.Coords) (a : Acc F) : Acc F := if (i 1).val = 0 then accZero else a

/-- The same at point `t` of the grid, over the blocks of the arrays the pipeline is entered with. -/
def accStep (c : Dev nD) (t : Fin cfg2.N) (a : Acc F) : Acc F :=
  stepOf (grid2.coords t) (blk2 V c 0 t) (blk2 V c 1 t) (blk2 V c 2 t) a

/-- The accumulators after point `n`: reset at the first tile of a row (`n % 8 = 0`), else continued from the point
    before. -/
def accAt (c : Dev nD) : (n : ℕ) → n < cfg2.N → Acc F
  | 0, hn => accStep V c ⟨0, hn⟩ accZero
  | n + 1, hn => accStep V c ⟨n + 1, hn⟩ (if (n + 1) % 8 = 0 then accZero else accAt c n (Nat.lt_of_succ_lt hn))

/-- The loss shares the body stores at a row's last tile, from the accumulators after that tile. -/
def lossOf (a : Acc F) : Vec F S512x1 .f32 := k2_pay3 a.1 a.2.2 a.2.1

/-- The scoped buffers of the other two pipelines (their staging buffers), each whole at some contents. -/
def othersRest (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f))

/-- Pipeline 2's invariant before point `n`: before the first point the untouched scoped rest and the generator
    register; afterwards the other pipelines' buffers at anything, the three scratch buffers at the accumulators the
    point before left, and the generator register. -/
def Phi2 (c : Dev nD) : (n : ℕ) → n ≤ cfg2.N → sProp 𝕄
  | 0, _ => Pipeline.ΦA spec2 c
  | n + 1, hn => iprop(othersRest (F := F) c
      ∗ owns (c : Thread nD τ) scr0 fullShare (accAt V c n hn).1
      ∗ owns (c : Thread nD τ) scr1 fullShare (accAt V c n hn).2.1
      ∗ owns (c : Thread nD τ) scr2 fullShare (accAt V c n hn).2.2
      ∗ (∃ r, prngReg c r))

/-- Pipeline 2: inputs at their blocks; the two outputs at the loss shares and the counts computed from the
    accumulators after the point (consulted only at a row's last tile, where the windows are written back). -/
def dat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => blk2 V c 2 t
    | ⟨3, _⟩ => lossOf (accAt V c t.val t.isLt)
    | ⟨4, _⟩ => (accAt V c t.val t.isLt).2.2
  Φ t := Phi2 V c t.val (Nat.le_of_lt_succ t.isLt)
  q _ := fullShare
  owed _ := 0

end Cert.KernelIdeal.Hand

end
-- ==== Proof.KI.PoolBody.lean ====
import proofs.«128564_j90091234001463_1_alg».proof.Proof.KI.Data
import Idealize.ShloMosaic.Lib.Pipeline.Value

/-! Pipelines 0 and 1 run their body at every grid point: from the input block the body stores the unit rows of the
    block's samples over the whole output buffer, and nothing else changes. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The whole-buffer accesses -/

/-- The offsets of a whole-buffer access are all zero. -/
theorem pool_hz3 : (![0, 0, 0] : Fin 3 → Nat) = fun _ => 0 := funext fun a => by fin_cases a <;> rfl
theorem pool_hz2 : (![0, 0] : Fin 2 → Nat) = fun _ => 0 := funext fun a => by fin_cases a <;> rfl

/-- The body's two accesses: the whole input buffer and the whole output buffer. -/
abbrev poolIn : Rect S512x8x256 := Rect.unit (s := S512x8x256) ![0, 0, 0] S512x8x256.size inb_S512x8x256_S512x8x256_0_0_0
abbrev poolOut : Rect S512x256 := Rect.unit (s := S512x256) ![0, 0] S512x256.size inb_S512x256_S512x256_0_0

/-- A load of the whole input buffer reads its contents. -/
theorem pool_ld_in (x0 : Vec F S512x8x256 .f32) : View.ld x0 poolIn = x0 :=
  View.ld_unit_zero (S := S512x8x256) pool_hz3 inb_S512x8x256_S512x8x256_0_0_0 x0

/-- One store over the whole output buffer leaves the stored value, -/
theorem pool_canon_out (w : Vec F S512x256 .bf16) : View.canon [(⟨poolOut, w⟩ : View.Piece (Elt F) S512x256 .bf16)] = w :=
  View.canon_unit_zero (S := S512x256) pool_hz2 inb_S512x256_S512x256_0_0 w

/-- since it covers the buffer. -/
theorem pool_cover_out (w : Vec F S512x256 .bf16) (y : S512x256.Idx) :
    ∃ pc ∈ ([⟨poolOut, w⟩] : List (View.Piece (Elt F) S512x256 .bf16)), y ∈ pc.1.set :=
  ⟨_, List.mem_singleton_self _, View.mem_set_unit_zero (S := S512x256) pool_hz2 inb_S512x256_S512x256_0_0 y⟩

/-! ## Pipeline 0 -/

/-- The proof data projected: the arrays are the entry contents, the input stays at its block, the output is left at
    the unit rows of the block's samples. -/
theorem A_eq0 (c : Dev nD) (w : Fin cfg0.W) : (dat0 V c).A w = V c (Pipeline.arrRef spec0 w) := by
  dsimp only [dat0]
theorem after0_0 (c : Dev nD) (t : Fin cfg0.N) : (dat0 V c).after 0 t = blk0 V c 0 t := by dsimp only [dat0]
theorem after0_1 (c : Dev nD) (t : Fin cfg0.N) : (dat0 V c).after 1 t = k0_pay1 (blk0 V c 0 t) := by dsimp only [dat0]

/-- The input window is fetched at every point and the body leaves it in place, so its current buffer holds its block
    at every point. -/
theorem before0_0 (c : Dev nD) (t : Fin cfg0.N) (d) : (dat0 V c).before 0 t d = blk0 V c 0 t :=
  ((dat0 V c).before_in_eq_fetched 0 rfl (fun _ => rfl) (fun _ _ _ => rfl)
    (fun t => by rw [after0_0]; unfold Dat.blockOf blk0; rw [A_eq0]; try rfl) t d).trans
    (by unfold Dat.fetched Dat.blockOf blk0; rw [A_eq0]; try rfl)

set_option maxHeartbeats 1000000 in
/-- The body on whole buffers, the input's at `x0` and the output's at anything: it reads the whole input, and its one
    store covers the whole output buffer, which is therefore left at the stored value, the unit rows of `x0`'s samples. -/
theorem sound_kernel0 (c : Dev nD) (E : Set ℕ) (i : grid0.Coords)
    (arg1 : Memref sig .tc .vmem S512x8x256 .f32) (harg1 : arg1.IsWhole)
    (arg2 : Memref sig .tc .vmem S512x256 .bf16) (harg2 : arg2.IsWhole)
    (x0 : Vec F S512x8x256 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (k0_pay1 x0)) -∗ K ⟨⟩))
      ⊢ wp frame (wpE (defs₀ (F := F)) Variants.none c none) E (cc0__pool_norm_kernel i arg1 harg1 arg2 harg2) K := by
  simp only [cc0__pool_norm_kernel_eq_skeleton]; unfold cc0__pool_norm_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  refine (View.read_writes_eq_canon _ _ _ (pool_cover_out _)).trans ?_
  rw [pool_canon_out]
  exact congrArg k0_pay1 (pool_ld_in _)

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

/-- The body at any point: the input's buffer holds its block, the invariant and what the core owes pass through
    unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (blk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation0 (c : Dev nD) : BodyObligation (dat0 (F := F) V c) (defs₀ (F := F)) Variants.none () Set.univ := fun t => by
  rw [bigSep_W0, bigSep_W0]
  exact sound_body0 V c t

/-! ## Pipeline 1 -/

/-- The proof data projected: the arrays are the entry contents, the input stays at its block, the output is left at
    the unit rows of the block's samples. -/
theorem A_eq1 (c : Dev nD) (w : Fin cfg1.W) : (dat1 V c).A w = V c (Pipeline.arrRef spec1 w) := by
  dsimp only [dat1]
theorem after1_0 (c : Dev nD) (t : Fin cfg1.N) : (dat1 V c).after 0 t = blk1 V c 0 t := by dsimp only [dat1]
theorem after1_1 (c : Dev nD) (t : Fin cfg1.N) : (dat1 V c).after 1 t = k1_pay1 (blk1 V c 0 t) := by dsimp only [dat1]

/-- The input window is fetched at every point and the body leaves it in place, so its current buffer holds its block
    at every point. -/
theorem before1_0 (c : Dev nD) (t : Fin cfg1.N) (d) : (dat1 V c).before 0 t d = blk1 V c 0 t :=
  ((dat1 V c).before_in_eq_fetched 0 rfl (fun _ => rfl) (fun _ _ _ => rfl)
    (fun t => by rw [after1_0]; unfold Dat.blockOf blk1; rw [A_eq1]; try rfl) t d).trans
    (by unfold Dat.fetched Dat.blockOf blk1; rw [A_eq1]; try rfl)

set_option maxHeartbeats 1000000 in
/-- The body on whole buffers, the input's at `x0` and the output's at anything: it reads the whole input, and its one
    store covers the whole output buffer, which is therefore left at the stored value, the unit rows of `x0`'s samples. -/
theorem sound_kernel1 (c : Dev nD) (E : Set ℕ) (i : grid1.Coords)
    (arg1 : Memref sig .tc .vmem S512x8x256 .f32) (harg1 : arg1.IsWhole)
    (arg2 : Memref sig .tc .vmem S512x256 .bf16) (harg2 : arg2.IsWhole)
    (x0 : Vec F S512x8x256 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (k1_pay1 x0)) -∗ K ⟨⟩))
      ⊢ wp frame (wpE (defs₀ (F := F)) Variants.none c none) E (cc1__pool_norm_kernel i arg1 harg1 arg2 harg2) K := by
  simp only [cc1__pool_norm_kernel_eq_skeleton]; unfold cc1__pool_norm_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  refine (View.read_writes_eq_canon _ _ _ (pool_cover_out _)).trans ?_
  rw [pool_canon_out]
  exact congrArg k1_pay1 (pool_ld_in _)

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t))

/-- The body at any point: the input's buffer holds its block, the invariant and what the core owes pass through
    unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).Φ t.succ = (dat1 V c).Φ t.castSucc from rfl,
    show (dat1 V c).owesAt () t.succ = (dat1 V c).owesAt () t.castSucc from rfl,
    after1_0, after1_1]
  iintro ⟨HΦ, Ho, ⟨%d0, H0⟩, ⟨%d1, H1⟩⟩
  iapply (sound_kernel1 c Set.univ _ _ _ _ _ (blk1 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.LossRun.lean ====
import proofs.«128564_j90091234001463_1_alg».proof.Proof.KI.Data
import Idealize.ShloMosaic.Lib.Pipeline.Value

/-! The loss kernel's body on whole buffers: from the tile's three blocks and the accumulators the scratch buffers hold
    it leaves the accumulators advanced by the tile (reset first at a row's first tile), and at a row's last tile the
    loss shares and counts in the two output buffers; the other buffers keep their contents.

    The body tests the tile's column twice: "is it the row's first tile" (then the three accumulators are zeroed before
    the tile is added) and "is it the row's last tile" (then the loss shares and the counts are stored). Both tests are
    read off the column, a number below 8; the body is run once for each of the three combinations that occur (first
    tile, middle tile, last tile), and the statement follows by cases on the column. Every access of the body goes
    through the whole-shape rectangle, so a load reads a buffer's contents and a store leaves its payload, whatever was
    stored before. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two tests, from the tile's column -/

/-- "The tile is its row's first": the first conditional's test, as the body computes it from the column. -/
abbrev condFirst (i : grid2.Coords) : Prop :=
  (Scalar.cmpi .ne (Scalar.extui (Scalar.cmpi .eq (BitVec.ofNat 32 (i 1).val) 0#32)) 0#32) = 1#1
/-- "The tile is its row's last": the second conditional's test. -/
abbrev condLast (i : grid2.Coords) : Prop := k2_cond2 i = 1#1

/-- Over the 8 columns, the first test holds at column 0 only, -/
theorem condFirst_iff : ∀ j : Fin 8, ((Scalar.cmpi .ne (Scalar.extui (Scalar.cmpi .eq (BitVec.ofNat 32 j.val) 0#32)) 0#32) = 1#1) ↔ j.val = 0 := by
  decide
/-- and the second at column 7 only. -/
theorem condLast_iff : ∀ j : Fin 8, ((Scalar.cmpi .ne (Scalar.extui (Scalar.cmpi .eq (BitVec.ofNat 32 j.val) 7#32)) 0#32) = 1#1) ↔ j.val = 7 := by
  decide

theorem condFirst_iff' (i : grid2.Coords) : condFirst i ↔ (i 1).val = 0 := condFirst_iff (i 1)
theorem condLast_iff' (i : grid2.Coords) : condLast i ↔ (i 1).val = 7 := condLast_iff (i 1)

/-! ## Loads and stores through the whole-shape rectangle -/

/-- The offsets of every access of the body: zero on both axes. -/
theorem loss_hz : (![0, 0] : Fin 2 → Nat) = fun _ => 0 := funext fun a => by fin_cases a <;> rfl

/-- A buffer whose last store went through the whole-shape rectangle reads that store's payload, whatever the earlier
    stores were. -/
theorem loss_read_writes_whole {S : Shape} {e : EltTy} (v : View sig .tc .vmem S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons_self, View.mem_set_unit_zero h inb y⟩)).trans
    (View.canon_cons_unit_zero h inb w L)

/-- A load through the whole-shape rectangle reads the buffer's contents. -/
theorem loss_readAt_whole {S : Shape} {e : EltTy} (v : View sig .tc .vmem S e) (f : v.ty.Contents (Elt F))
    {off : Fin S.rank → Nat} (h : off = fun _ => 0) (inb : ∀ a, off a + S.size a ≤ S.size a) :
    v.readAt (Elt F) (Rect.unit off S.size inb).toLoadRect f = v.read (Elt F) f :=
  (View.readAt_eq_ld v f _).trans (View.ld_unit_zero h inb _)

/-! ## The body's run in each of the three cases -/

set_option maxHeartbeats 2000000 in
/-- A middle tile of a row (neither test holds): the accumulators the scratch buffers hold advance by the tile; the two
    output buffers are not touched. -/
theorem run_mid (c : Dev nD) (E : Set ℕ) (i : grid2.Coords) (hc1 : ¬condFirst i) (hc2 : ¬condLast i)
    (a2 : Memref sig .tc .vmem S512x256 .bf16) (h2 : a2.IsWhole) (a3 : Memref sig .tc .vmem S512x256 .bf16) (h3 : a3.IsWhole)
    (a4 : Memref sig .tc .vmem S512x512 .i32) (h4 : a4.IsWhole)
    (a5 : Memref sig .tc .vmem S512x1 .f32) (h5 : a5.IsWhole) (a6 : Memref sig .tc .vmem S512x1 .f32) (h6 : a6.IsWhole)
    (a7 : Memref sig .tc .vmem S512x1 .f32) (h7 : a7.IsWhole) (a8 : Memref sig .tc .vmem S512x1 .f32) (h8 : a8.IsWhole)
    (a9 : Memref sig .tc .vmem S512x1 .f32) (h9 : a9.IsWhole)
    (ri rj : Vec F S512x256 .bf16) (lab : Vec F S512x512 .i32) (a : Acc F) (K : PUnit → sProp 𝕄) :
    iprop(owns (c : Thread nD τ) a2 fullShare ri ∗ owns (c : Thread nD τ) a3 fullShare rj ∗ owns (c : Thread nD τ) a4 fullShare lab
        ∗ (∃ d, owns (c : Thread nD τ) a5 fullShare d) ∗ (∃ d, owns (c : Thread nD τ) a6 fullShare d)
        ∗ owns (c : Thread nD τ) a7 fullShare a.1 ∗ owns (c : Thread nD τ) a8 fullShare a.2.1 ∗ owns (c : Thread nD τ) a9 fullShare a.2.2
        ∗ (iprop(owns (c : Thread nD τ) a2 fullShare ri ∗ owns (c : Thread nD τ) a3 fullShare rj ∗ owns (c : Thread nD τ) a4 fullShare lab
            ∗ iprop((∃ d, owns (c : Thread nD τ) a5 fullShare d) ∗ (∃ d, owns (c : Thread nD τ) a6 fullShare d))
            ∗ owns (c : Thread nD τ) a7 fullShare (stepOf i ri rj lab a).1
            ∗ owns (c : Thread nD τ) a8 fullShare (stepOf i ri rj lab a).2.1
            ∗ owns (c : Thread nD τ) a9 fullShare (stepOf i ri rj lab a).2.2) -∗ K ⟨⟩))
      ⊢ wp frame (wpE (defs₀ (F := F)) Variants.none c none) E
          (cc2__loss_kernel i a2 h2 a3 h3 a4 h4 a5 h5 a6 h6 a7 h7 a8 h8 a9 h9) K := by
  simp only [cc2__loss_kernel_eq_skeleton]; unfold cc2__loss_kernel_skel
  simp only [k2_part1_eq_skeleton]; unfold k2_part1_skel
  unfold owns
  iintro ⟨⟨%f2, %hf2, H2⟩, ⟨%f3, %hf3, H3⟩, ⟨%f4, %hf4, H4⟩, ⟨%d5, %f5, -, H5⟩, ⟨%d6, %f6, -, H6⟩, ⟨%f7, %hf7, H7⟩, ⟨%f8, %hf8, H8⟩, ⟨%f9, %hf9, H9⟩, Hk⟩
  subst hf2; subst hf3; subst hf4
  sl_exec (disch := first | exact hc1 | exact hc2)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5 H6]
  · isplitl [H5]
    · iexists _, f5; isplitr; · ipureintro; rfl
      iexact H5
    · iexists _, f6; isplitr; · ipureintro; rfl
      iexact H6
  isplitl [H7]
  · iexists _; isplitr
    swap; · iexact H7
    ipureintro
    sl_unfold_run_names
    refine (loss_read_writes_whole (S := S512x1) _ _ loss_hz _ _ _).trans ?_
    simp only [loss_readAt_whole (S := S512x1) _ _ loss_hz, loss_readAt_whole (S := S512x256) _ _ loss_hz, loss_readAt_whole (S := S512x512) _ _ loss_hz, View.readCov_unit_zero (S := S512x1) _ loss_hz, hf7, hf8, hf9, stepOf, accZero, lossOf]
  isplitl [H8]
  · iexists _; isplitr
    swap; · iexact H8
    ipureintro
    sl_unfold_run_names
    refine (loss_read_writes_whole (S := S512x1) _ _ loss_hz _ _ _).trans ?_
    simp only [loss_readAt_whole (S := S512x1) _ _ loss_hz, loss_readAt_whole (S := S512x256) _ _ loss_hz, loss_readAt_whole (S := S512x512) _ _ loss_hz, View.readCov_unit_zero (S := S512x1) _ loss_hz, hf7, hf8, hf9, stepOf, accZero, lossOf]
  · iexists _; isplitr
    swap; · iexact H9
    ipureintro
    sl_unfold_run_names
    refine (loss_read_writes_whole (S := S512x1) _ _ loss_hz _ _ _).trans ?_
    simp only [loss_readAt_whole (S := S512x1) _ _ loss_hz, loss_readAt_whole (S := S512x256) _ _ loss_hz, loss_readAt_whole (S := S512x512) _ _ loss_hz, View.readCov_unit_zero (S := S512x1) _ loss_hz, hf7, hf8, hf9, stepOf, accZero, lossOf]

set_option maxHeartbeats 2000000 in
/-- A row's first tile (8 tiles to a row, so it is not the last): the accumulators are zeroed, then advance by the tile,
    so they end at the tile's contribution to zero accumulators, whatever the scratch buffers held; the two output
    buffers are not touched. -/
theorem run_first (c : Dev nD) (E : Set ℕ) (i : grid2.Coords) (hc1 : condFirst i) (hc2 : ¬condLast i)
    (a2 : Memref sig .tc .vmem S512x256 .bf16) (h2 : a2.IsWhole) (a3 : Memref sig .tc .vmem S512x256 .bf16) (h3 : a3.IsWhole)
    (a4 : Memref sig .tc .vmem S512x512 .i32) (h4 : a4.IsWhole)
    (a5 : Memref sig .tc .vmem S512x1 .f32) (h5 : a5.IsWhole) (a6 : Memref sig .tc .vmem S512x1 .f32) (h6 : a6.IsWhole)
    (a7 : Memref sig .tc .vmem S512x1 .f32) (h7 : a7.IsWhole) (a8 : Memref sig .tc .vmem S512x1 .f32) (h8 : a8.IsWhole)
    (a9 : Memref sig .tc .vmem S512x1 .f32) (h9 : a9.IsWhole)
    (ri rj : Vec F S512x256 .bf16) (lab : Vec F S512x512 .i32) (a : Acc F) (K : PUnit → sProp 𝕄) :
    iprop(owns (c : Thread nD τ) a2 fullShare ri ∗ owns (c : Thread nD τ) a3 fullShare rj ∗ owns (c : Thread nD τ) a4 fullShare lab
        ∗ (∃ d, owns (c : Thread nD τ) a5 fullShare d) ∗ (∃ d, owns (c : Thread nD τ) a6 fullShare d)
        ∗ owns (c : Thread nD τ) a7 fullShare a.1 ∗ owns (c : Thread nD τ) a8 fullShare a.2.1 ∗ owns (c : Thread nD τ) a9 fullShare a.2.2
        ∗ (iprop(owns (c : Thread nD τ) a2 fullShare ri ∗ owns (c : Thread nD τ) a3 fullShare rj ∗ owns (c : Thread nD τ) a4 fullShare lab
            ∗ iprop((∃ d, owns (c : Thread nD τ) a5 fullShare d) ∗ (∃ d, owns (c : Thread nD τ) a6 fullShare d))
            ∗ owns (c : Thread nD τ) a7 fullShare (stepOf i ri rj lab accZero).1
            ∗ owns (c : Thread nD τ) a8 fullShare (stepOf i ri rj lab accZero).2.1
            ∗ owns (c : Thread nD τ) a9 fullShare (stepOf i ri rj lab accZero).2.2) -∗ K ⟨⟩))
      ⊢ wp frame (wpE (defs₀ (F := F)) Variants.none c none) E
          (cc2__loss_kernel i a2 h2 a3 h3 a4 h4 a5 h5 a6 h6 a7 h7 a8 h8 a9 h9) K := by
  simp only [cc2__loss_kernel_eq_skeleton]; unfold cc2__loss_kernel_skel
  simp only [k2_part1_eq_skeleton]; unfold k2_part1_skel
  unfold owns
  iintro ⟨⟨%f2, %hf2, H2⟩, ⟨%f3, %hf3, H3⟩, ⟨%f4, %hf4, H4⟩, ⟨%d5, %f5, -, H5⟩, ⟨%d6, %f6, -, H6⟩, ⟨%f7, %hf7, H7⟩, ⟨%f8, %hf8, H8⟩, ⟨%f9, %hf9, H9⟩, Hk⟩
  subst hf2; subst hf3; subst hf4
  sl_exec (disch := first | exact hc1 | exact hc2)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5 H6]
  · isplitl [H5]
    · iexists _, f5; isplitr; · ipureintro; rfl
      iexact H5
    · iexists _, f6; isplitr; · ipureintro; rfl
      iexact H6
  isplitl [H7]
  · iexists _; isplitr
    swap; · iexact H7
    ipureintro
    sl_unfold_run_names
    refine (loss_read_writes_whole (S := S512x1) _ _ loss_hz _ _ _).trans ?_
    simp only [loss_readAt_whole (S := S512x1) _ _ loss_hz, loss_readAt_whole (S := S512x256) _ _ loss_hz, loss_readAt_whole (S := S512x512) _ _ loss_hz, View.readCov_unit_zero (S := S512x1) _ loss_hz, hf7, hf8, hf9, stepOf, accZero, lossOf]
  isplitl [H8]
  · iexists _; isplitr
    swap; · iexact H8
    ipureintro
    sl_unfold_run_names
    refine (loss_read_writes_whole (S := S512x1) _ _ loss_hz _ _ _).trans ?_
    simp only [loss_readAt_whole (S := S512x1) _ _ loss_hz, loss_readAt_whole (S := S512x256) _ _ loss_hz, loss_readAt_whole (S := S512x512) _ _ loss_hz, View.readCov_unit_zero (S := S512x1) _ loss_hz, hf7, hf8, hf9, stepOf, accZero, lossOf]
  · iexists _; isplitr
    swap; · iexact H9
    ipureintro
    sl_unfold_run_names
    refine (loss_read_writes_whole (S := S512x1) _ _ loss_hz _ _ _).trans ?_
    simp only [loss_readAt_whole (S := S512x1) _ _ loss_hz, loss_readAt_whole (S := S512x256) _ _ loss_hz, loss_readAt_whole (S := S512x512) _ _ loss_hz, View.readCov_unit_zero (S := S512x1) _ loss_hz, hf7, hf8, hf9, stepOf, accZero, lossOf]

set_option maxHeartbeats 2000000 in
/-- A row's last tile (not the first): the accumulators advance by the tile, and the output buffers are left at the loss
    shares computed from the advanced accumulators and at the advanced count. -/
theorem run_last (c : Dev nD) (E : Set ℕ) (i : grid2.Coords) (hc1 : ¬condFirst i) (hc2 : condLast i)
    (a2 : Memref sig .tc .vmem S512x256 .bf16) (h2 : a2.IsWhole) (a3 : Memref sig .tc .vmem S512x256 .bf16) (h3 : a3.IsWhole)
    (a4 : Memref sig .tc .vmem S512x512 .i32) (h4 : a4.IsWhole)
    (a5 : Memref sig .tc .vmem S512x1 .f32) (h5 : a5.IsWhole) (a6 : Memref sig .tc .vmem S512x1 .f32) (h6 : a6.IsWhole)
    (a7 : Memref sig .tc .vmem S512x1 .f32) (h7 : a7.IsWhole) (a8 : Memref sig .tc .vmem S512x1 .f32) (h8 : a8.IsWhole)
    (a9 : Memref sig .tc .vmem S512x1 .f32) (h9 : a9.IsWhole)
    (ri rj : Vec F S512x256 .bf16) (lab : Vec F S512x512 .i32) (a : Acc F) (K : PUnit → sProp 𝕄) :
    iprop(owns (c : Thread nD τ) a2 fullShare ri ∗ owns (c : Thread nD τ) a3 fullShare rj ∗ owns (c : Thread nD τ) a4 fullShare lab
        ∗ (∃ d, owns (c : Thread nD τ) a5 fullShare d) ∗ (∃ d, owns (c : Thread nD τ) a6 fullShare d)
        ∗ owns (c : Thread nD τ) a7 fullShare a.1 ∗ owns (c : Thread nD τ) a8 fullShare a.2.1 ∗ owns (c : Thread nD τ) a9 fullShare a.2.2
        ∗ (iprop(owns (c : Thread nD τ) a2 fullShare ri ∗ owns (c : Thread nD τ) a3 fullShare rj ∗ owns (c : Thread nD τ) a4 fullShare lab
            ∗ iprop(owns (c : Thread nD τ) a5 fullShare (lossOf (stepOf i ri rj lab a)) ∗ owns (c : Thread nD τ) a6 fullShare (stepOf i ri rj lab a).2.2)
            ∗ owns (c : Thread nD τ) a7 fullShare (stepOf i ri rj lab a).1
            ∗ owns (c : Thread nD τ) a8 fullShare (stepOf i ri rj lab a).2.1
            ∗ owns (c : Thread nD τ) a9 fullShare (stepOf i ri rj lab a).2.2) -∗ K ⟨⟩))
      ⊢ wp frame (wpE (defs₀ (F := F)) Variants.none c none) E
          (cc2__loss_kernel i a2 h2 a3 h3 a4 h4 a5 h5 a6 h6 a7 h7 a8 h8 a9 h9) K := by
  simp only [cc2__loss_kernel_eq_skeleton]; unfold cc2__loss_kernel_skel
  simp only [k2_part1_eq_skeleton]; unfold k2_part1_skel
  unfold owns
  iintro ⟨⟨%f2, %hf2, H2⟩, ⟨%f3, %hf3, H3⟩, ⟨%f4, %hf4, H4⟩, ⟨%d5, %f5, -, H5⟩, ⟨%d6, %f6, -, H6⟩, ⟨%f7, %hf7, H7⟩, ⟨%f8, %hf8, H8⟩, ⟨%f9, %hf9, H9⟩, Hk⟩
  subst hf2; subst hf3; subst hf4
  sl_exec (disch := first | exact hc1 | exact hc2)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5 H6]
  · isplitl [H5]
    · iexists _; isplitr
      swap; · iexact H5
      ipureintro
      sl_unfold_run_names
      refine (loss_read_writes_whole (S := S512x1) _ _ loss_hz _ _ _).trans ?_
      simp only [loss_readAt_whole (S := S512x1) _ _ loss_hz, loss_readAt_whole (S := S512x256) _ _ loss_hz, loss_readAt_whole (S := S512x512) _ _ loss_hz, View.readCov_unit_zero (S := S512x1) _ loss_hz, hf7, hf8, hf9, stepOf, accZero, lossOf]
    · iexists _; isplitr
      swap; · iexact H6
      ipureintro
      sl_unfold_run_names
      refine (loss_read_writes_whole (S := S512x1) _ _ loss_hz _ _ _).trans ?_
      simp only [loss_readAt_whole (S := S512x1) _ _ loss_hz, loss_readAt_whole (S := S512x256) _ _ loss_hz, loss_readAt_whole (S := S512x512) _ _ loss_hz, View.readCov_unit_zero (S := S512x1) _ loss_hz, hf7, hf8, hf9, stepOf, accZero, lossOf]
  isplitl [H7]
  · iexists _; isplitr
    swap; · iexact H7
    ipureintro
    sl_unfold_run_names
    refine (loss_read_writes_whole (S := S512x1) _ _ loss_hz _ _ _).trans ?_
    simp only [loss_readAt_whole (S := S512x1) _ _ loss_hz, loss_readAt_whole (S := S512x256) _ _ loss_hz, loss_readAt_whole (S := S512x512) _ _ loss_hz, View.readCov_unit_zero (S := S512x1) _ loss_hz, hf7, hf8, hf9, stepOf, accZero, lossOf]
  isplitl [H8]
  · iexists _; isplitr
    swap; · iexact H8
    ipureintro
    sl_unfold_run_names
    refine (loss_read_writes_whole (S := S512x1) _ _ loss_hz _ _ _).trans ?_
    simp only [loss_readAt_whole (S := S512x1) _ _ loss_hz, loss_readAt_whole (S := S512x256) _ _ loss_hz, loss_readAt_whole (S := S512x512) _ _ loss_hz, View.readCov_unit_zero (S := S512x1) _ loss_hz, hf7, hf8, hf9, stepOf, accZero, lossOf]
  · iexists _; isplitr
    swap; · iexact H9
    ipureintro
    sl_unfold_run_names
    refine (loss_read_writes_whole (S := S512x1) _ _ loss_hz _ _ _).trans ?_
    simp only [loss_readAt_whole (S := S512x1) _ _ loss_hz, loss_readAt_whole (S := S512x256) _ _ loss_hz, loss_readAt_whole (S := S512x512) _ _ loss_hz, View.readCov_unit_zero (S := S512x1) _ loss_hz, hf7, hf8, hf9, stepOf, accZero, lossOf]

/-! ## The body at any tile -/

theorem sound_loss (c : Dev nD) (E : Set ℕ) (i : grid2.Coords)
    (a2 : Memref sig .tc .vmem S512x256 .bf16) (h2 : a2.IsWhole) (a3 : Memref sig .tc .vmem S512x256 .bf16) (h3 : a3.IsWhole)
    (a4 : Memref sig .tc .vmem S512x512 .i32) (h4 : a4.IsWhole)
    (a5 : Memref sig .tc .vmem S512x1 .f32) (h5 : a5.IsWhole) (a6 : Memref sig .tc .vmem S512x1 .f32) (h6 : a6.IsWhole)
    (a7 : Memref sig .tc .vmem S512x1 .f32) (h7 : a7.IsWhole) (a8 : Memref sig .tc .vmem S512x1 .f32) (h8 : a8.IsWhole)
    (a9 : Memref sig .tc .vmem S512x1 .f32) (h9 : a9.IsWhole)
    (ri rj : Vec F S512x256 .bf16) (lab : Vec F S512x512 .i32) (a : Acc F) (K : PUnit → sProp 𝕄) :
    iprop(owns (c : Thread nD τ) a2 fullShare ri ∗ owns (c : Thread nD τ) a3 fullShare rj ∗ owns (c : Thread nD τ) a4 fullShare lab
        ∗ (∃ d, owns (c : Thread nD τ) a5 fullShare d) ∗ (∃ d, owns (c : Thread nD τ) a6 fullShare d)
        ∗ owns (c : Thread nD τ) a7 fullShare a.1 ∗ owns (c : Thread nD τ) a8 fullShare a.2.1 ∗ owns (c : Thread nD τ) a9 fullShare a.2.2
        ∗ (iprop(owns (c : Thread nD τ) a2 fullShare ri ∗ owns (c : Thread nD τ) a3 fullShare rj ∗ owns (c : Thread nD τ) a4 fullShare lab
            ∗ (if (i 1).val = 7 then
                iprop(owns (c : Thread nD τ) a5 fullShare (lossOf (stepOf i ri rj lab (accIn i a)))
                  ∗ owns (c : Thread nD τ) a6 fullShare (stepOf i ri rj lab (accIn i a)).2.2)
               else iprop((∃ d, owns (c : Thread nD τ) a5 fullShare d) ∗ (∃ d, owns (c : Thread nD τ) a6 fullShare d)))
            ∗ owns (c : Thread nD τ) a7 fullShare (stepOf i ri rj lab (accIn i a)).1
            ∗ owns (c : Thread nD τ) a8 fullShare (stepOf i ri rj lab (accIn i a)).2.1
            ∗ owns (c : Thread nD τ) a9 fullShare (stepOf i ri rj lab (accIn i a)).2.2) -∗ K ⟨⟩))
      ⊢ wp frame (wpE (defs₀ (F := F)) Variants.none c none) E
          (cc2__loss_kernel i a2 h2 a3 h3 a4 h4 a5 h5 a6 h6 a7 h7 a8 h8 a9 h9) K := by
  by_cases hfirst : (i 1).val = 0
  · -- the first tile: zero accumulators come in, the outputs are idle
    have hlast : ¬(i 1).val = 7 := by omega
    have e : accIn i a = accZero := by unfold accIn; exact if_pos hfirst
    rw [e, if_neg hlast]
    exact run_first c E i ((condFirst_iff' i).mpr hfirst) (fun h => hlast ((condLast_iff' i).mp h))
      a2 h2 a3 h3 a4 h4 a5 h5 a6 h6 a7 h7 a8 h8 a9 h9 ri rj lab a K
  · have e : accIn i a = a := by unfold accIn; exact if_neg hfirst
    have hc1 : ¬condFirst i := fun h => hfirst ((condFirst_iff' i).mp h)
    by_cases hlast : (i 1).val = 7
    · -- the last tile: the outputs are stored
      rw [e, if_pos hlast]
      exact run_last c E i hc1 ((condLast_iff' i).mpr hlast)
        a2 h2 a3 h3 a4 h4 a5 h5 a6 h6 a7 h7 a8 h8 a9 h9 ri rj lab a K
    · -- a middle tile
      rw [e, if_neg hlast]
      exact run_mid c E i hc1 (fun h => hlast ((condLast_iff' i).mp h))
        a2 h2 a3 h3 a4 h4 a5 h5 a6 h6 a7 h7 a8 h8 a9 h9 ri rj lab a K

end Cert.KernelIdeal.Hand

end
-- ==== Proof.KI.LossBody.lean ====
import proofs.«128564_j90091234001463_1_alg».proof.Proof.KI.LossRun

/-! Pipeline 2 runs its body at every grid point: the invariant hands the body the three scratch buffers at the
    accumulators the point before left (at anything before the first point) and takes them back advanced by the tile. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The invariant -/

theorem PhiA2_split (c : Dev nD) : (Pipeline.ΦA spec2 c : sProp 𝕄) ⊢ iprop(othersRest (F := F) c
          ∗ (∃ d, owns (c : Thread nD τ) scr0 fullShare d)
          ∗ (∃ d, owns (c : Thread nD τ) scr1 fullShare d)
          ∗ (∃ d, owns (c : Thread nD τ) scr2 fullShare d)
          ∗ (∃ r, prngReg c r)) := by
  unfold Pipeline.ΦA othersRest; rw [scopedRest2_eq]; simp only [scr0, scr1, scr2, owns_whole]
  iintro ⟨⟨H0, H1, H2, H3, H4, H5, H6, H7, S0, S1, S2⟩, Hg⟩
  isplitl [H0 H1 H2 H3 H4 H5 H6 H7]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  isplitl [S0]; · iexact S0
  isplitl [S1]; · iexact S1
  isplitl [S2]; · iexact S2
  iexact Hg

theorem PhiA2_join (c : Dev nD) : iprop(othersRest (F := F) c
          ∗ (∃ d, owns (c : Thread nD τ) scr0 fullShare d)
          ∗ (∃ d, owns (c : Thread nD τ) scr1 fullShare d)
          ∗ (∃ d, owns (c : Thread nD τ) scr2 fullShare d)
          ∗ (∃ r, prngReg c r)) ⊢ (Pipeline.ΦA spec2 c : sProp 𝕄) := by
  unfold Pipeline.ΦA othersRest; rw [scopedRest2_eq]; simp only [scr0, scr1, scr2, owns_whole]
  iintro ⟨⟨H0, H1, H2, H3, H4, H5, H6, H7⟩, S0, S1, S2, Hg⟩
  isplitr [Hg]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [S0]; · iexact S0
    isplitl [S1]; · iexact S1
    iexact S2
  iexact Hg

/-- The launch's form of the invariant with the three scratch buffers as memrefs owned at some contents. -/
theorem PhiA2_eq (c : Dev nD) : (Pipeline.ΦA spec2 c : sProp 𝕄) = iprop(othersRest (F := F) c
          ∗ (∃ d, owns (c : Thread nD τ) scr0 fullShare d)
          ∗ (∃ d, owns (c : Thread nD τ) scr1 fullShare d)
          ∗ (∃ d, owns (c : Thread nD τ) scr2 fullShare d)
          ∗ (∃ r, prngReg c r)) :=
  Entails.antisymm (PhiA2_split c) (PhiA2_join c)

theorem Phi2_zero (c : Dev nD) (n : ℕ) (h : n ≤ cfg2.N) (hz : n = 0) : Phi2 V c n h = Pipeline.ΦA spec2 c := by
  subst hz; rfl

/-- After point `n`: the scratch buffers at that point's accumulators. -/
theorem Phi2_succ (c : Dev nD) (n : ℕ) (hn : n < cfg2.N) :
    Phi2 V c (n + 1) hn = iprop(othersRest (F := F) c
      ∗ owns (c : Thread nD τ) scr0 fullShare (accAt V c n hn).1
      ∗ owns (c : Thread nD τ) scr1 fullShare (accAt V c n hn).2.1
      ∗ owns (c : Thread nD τ) scr2 fullShare (accAt V c n hn).2.2
      ∗ (∃ r, prngReg c r)) := rfl

/-- Before a point that is not the first: the scratch buffers at what the point before left. -/
theorem Phi2_pos (c : Dev nD) (n : ℕ) (h : n ≤ cfg2.N) (hz : n ≠ 0) :
    Phi2 V c n h = iprop(othersRest (F := F) c
      ∗ owns (c : Thread nD τ) scr0 fullShare (accAt V c (n - 1) (by omega)).1
      ∗ owns (c : Thread nD τ) scr1 fullShare (accAt V c (n - 1) (by omega)).2.1
      ∗ owns (c : Thread nD τ) scr2 fullShare (accAt V c (n - 1) (by omega)).2.2
      ∗ (∃ r, prngReg c r)) := by
  cases n with
  | zero => exact absurd rfl hz
  | succ n => rfl

/-- The invariant at a point's start, restated at the point's position. -/
theorem Phi2_castSucc (c : Dev nD) (t : Fin cfg2.N) :
    (dat2 (F := F) V c).Φ t.castSucc = Phi2 V c t.val (Nat.le_of_lt t.isLt) := by
  dsimp only [dat2]; simp only [Fin.coe_castSucc]

/-! ## The windows -/

theorem A_eq2 (c : Dev nD) (w : Fin cfg2.W) : (dat2 (F := F) V c).A w = V c (Pipeline.arrRef spec2 w) := by
  dsimp only [dat2]

theorem after2_0 (c : Dev nD) (t : Fin cfg2.N) : (dat2 (F := F) V c).after 0 t = blk2 V c 0 t := by dsimp only [dat2]
theorem after2_1 (c : Dev nD) (t : Fin cfg2.N) : (dat2 (F := F) V c).after 1 t = blk2 V c 1 t := by dsimp only [dat2]
theorem after2_2 (c : Dev nD) (t : Fin cfg2.N) : (dat2 (F := F) V c).after 2 t = blk2 V c 2 t := by dsimp only [dat2]
theorem after2_3 (c : Dev nD) (t : Fin cfg2.N) : (dat2 (F := F) V c).after 3 t = lossOf (accAt V c t.val t.isLt) := by dsimp only [dat2]
theorem after2_4 (c : Dev nD) (t : Fin cfg2.N) : (dat2 (F := F) V c).after 4 t = (accAt V c t.val t.isLt).2.2 := by dsimp only [dat2]

/-- Each input window's current buffer holds its block at every point, fetched there or not: unfetched, the block
    index has not moved. -/
theorem before2_0 (c : Dev nD) (t : Fin cfg2.N) (d) : (dat2 (F := F) V c).before 0 t d = blk2 V c 0 t :=
  ((dat2 (F := F) V c).before_in_eq_fetched 0 rfl (fun _ => rfl) (fun _ _ _ => rfl)
    (fun t => by rw [after2_0]; unfold Dat.blockOf blk2; rw [A_eq2]; try rfl) t d).trans
    (by unfold Dat.fetched Dat.blockOf blk2; rw [A_eq2]; try rfl)
theorem before2_1 (c : Dev nD) (t : Fin cfg2.N) (d) : (dat2 (F := F) V c).before 1 t d = blk2 V c 1 t :=
  ((dat2 (F := F) V c).before_in_eq_fetched 1 rfl (fun _ => rfl) (fun _ _ _ => rfl)
    (fun t => by rw [after2_1]; unfold Dat.blockOf blk2; rw [A_eq2]; try rfl) t d).trans
    (by unfold Dat.fetched Dat.blockOf blk2; rw [A_eq2]; try rfl)
theorem before2_2 (c : Dev nD) (t : Fin cfg2.N) (d) : (dat2 (F := F) V c).before 2 t d = blk2 V c 2 t :=
  ((dat2 (F := F) V c).before_in_eq_fetched 2 rfl (fun _ => rfl) (fun _ _ _ => rfl)
    (fun t => by rw [after2_2]; unfold Dat.blockOf blk2; rw [A_eq2]; try rfl) t d).trans
    (by unfold Dat.fetched Dat.blockOf blk2; rw [A_eq2]; try rfl)

/-! ## Where the windows are live -/

theorem liveAt2_0 : ∀ t : Fin cfg2.N, cfg2.idle 0 (grid2.coords t) = false := fun _ => rfl
theorem liveAt2_1 : ∀ t : Fin cfg2.N, cfg2.idle 1 (grid2.coords t) = false := fun _ => rfl
theorem liveAt2_2 : ∀ t : Fin cfg2.N, cfg2.idle 2 (grid2.coords t) = false := fun _ => rfl

/-- A point's column coordinate is its position modulo 8. -/
theorem col_eq : ∀ t : Fin cfg2.N, (grid2.coords t 1).val = t.val % 8 :=
  (by decide +kernel : ∀ t : Fin grid2.N, (grid2.coords t 1).val = t.val % 8)

/-- The output windows are idle exactly away from a row's last tile. -/
theorem idle2_3 : ∀ t : Fin cfg2.N, cfg2.idle 3 (grid2.coords t) = !decide (t.val % 8 = 7) :=
  (by decide +kernel : ∀ t : Fin grid2.N, idle2 3 (grid2.coords t) = !decide (t.val % 8 = 7))
theorem idle2_4 : ∀ t : Fin cfg2.N, cfg2.idle 4 (grid2.coords t) = !decide (t.val % 8 = 7) :=
  (by decide +kernel : ∀ t : Fin grid2.N, idle2 4 (grid2.coords t) = !decide (t.val % 8 = 7))

theorem idleAt2_3 : ∀ t : Fin cfg2.N, ¬t.val % 8 = 7 → cfg2.idle 3 (grid2.coords t) = true :=
  (by decide +kernel : ∀ t : Fin grid2.N, ¬t.val % 8 = 7 → idle2 3 (grid2.coords t) = true)
theorem idleAt2_4 : ∀ t : Fin cfg2.N, ¬t.val % 8 = 7 → cfg2.idle 4 (grid2.coords t) = true :=
  (by decide +kernel : ∀ t : Fin grid2.N, ¬t.val % 8 = 7 → idle2 4 (grid2.coords t) = true)
theorem liveAt2_3 : ∀ t : Fin cfg2.N, t.val % 8 = 7 → cfg2.idle 3 (grid2.coords t) = false :=
  (by decide +kernel : ∀ t : Fin grid2.N, t.val % 8 = 7 → idle2 3 (grid2.coords t) = false)
theorem liveAt2_4 : ∀ t : Fin cfg2.N, t.val % 8 = 7 → cfg2.idle 4 (grid2.coords t) = false :=
  (by decide +kernel : ∀ t : Fin grid2.N, t.val % 8 = 7 → idle2 4 (grid2.coords t) = false)
theorem noFlush2_3 (t : Fin cfg2.N) (h : ¬t.val % 8 = 7) : (cfg2.win 3).flush t = false :=
  Bool.eq_false_iff.mpr fun hf => h ((flush2_3 t).mp hf)
theorem noFlush2_4 (t : Fin cfg2.N) (h : ¬t.val % 8 = 7) : (cfg2.win 4).flush t = false :=
  Bool.eq_false_iff.mpr fun hf => h ((flush2_4 t).mp hf)
/-- The output windows are never fetched. -/
theorem noFetch2_3 : ∀ t : Fin cfg2.N, (cfg2.win 3).fetch t = false :=
  (by decide +kernel : ∀ t : Fin grid2.N, win2_3.fetch t = false)
theorem noFetch2_4 : ∀ t : Fin cfg2.N, (cfg2.win 4).fetch t = false :=
  (by decide +kernel : ∀ t : Fin grid2.N, win2_4.fetch t = false)

/-- An output window's current buffer, where the body finds it, holds whatever the unfilled buffer held: the window is
    never fetched, and between two write-backs the body leaves it alone. -/
theorem before2_3_aux (c : Dev nD) : ∀ (n : ℕ) (hn : n < cfg2.N) (d), (dat2 (F := F) V c).before 3 ⟨n, hn⟩ d = d
  | 0, hn, d => by
      unfold Dat.before
      rw [noFetch2_3 ⟨0, hn⟩, if_neg Bool.false_ne_true, if_pos rfl]
  | n + 1, hn, d => by
      rw [Dat.before_of_pos _ 3 ⟨n + 1, hn⟩ (Nat.succ_ne_zero n) (noFetch2_3 _) d]
      simp only [Nat.add_sub_cancel]
      by_cases hf : (cfg2.win 3).flush ⟨n, Nat.lt_of_succ_lt hn⟩ = true
      · rw [if_pos hf]
      · rw [if_neg hf]
        have h7 : ¬n % 8 = 7 := fun h => hf ((flush2_3 ⟨n, Nat.lt_of_succ_lt hn⟩).mpr h)
        unfold Dat.left
        rw [idleAt2_3 ⟨n, Nat.lt_of_succ_lt hn⟩ h7]
        exact before2_3_aux c n _ d
theorem before2_4_aux (c : Dev nD) : ∀ (n : ℕ) (hn : n < cfg2.N) (d), (dat2 (F := F) V c).before 4 ⟨n, hn⟩ d = d
  | 0, hn, d => by
      unfold Dat.before
      rw [noFetch2_4 ⟨0, hn⟩, if_neg Bool.false_ne_true, if_pos rfl]
  | n + 1, hn, d => by
      rw [Dat.before_of_pos _ 4 ⟨n + 1, hn⟩ (Nat.succ_ne_zero n) (noFetch2_4 _) d]
      simp only [Nat.add_sub_cancel]
      by_cases hf : (cfg2.win 4).flush ⟨n, Nat.lt_of_succ_lt hn⟩ = true
      · rw [if_pos hf]
      · rw [if_neg hf]
        have h7 : ¬n % 8 = 7 := fun h => hf ((flush2_4 ⟨n, Nat.lt_of_succ_lt hn⟩).mpr h)
        unfold Dat.left
        rw [idleAt2_4 ⟨n, Nat.lt_of_succ_lt hn⟩ h7]
        exact before2_4_aux c n _ d
theorem before2_3 (c : Dev nD) (t : Fin cfg2.N) (d) : (dat2 (F := F) V c).before 3 t d = d := before2_3_aux V c t.val t.isLt d
theorem before2_4 (c : Dev nD) (t : Fin cfg2.N) (d) : (dat2 (F := F) V c).before 4 t d = d := before2_4_aux V c t.val t.isLt d

/-! ## The accumulators, point by point -/

/-- At a row's first tile the accumulators restart from zero. -/
theorem accAt_first (c : Dev nD) (t : Fin cfg2.N) (h : t.val % 8 = 0) :
    accAt V c t.val t.isLt = accStep V c t accZero := by
  obtain ⟨n, hn⟩ := t
  cases n with
  | zero => rfl
  | succ n => exact congrArg (accStep V c ⟨n + 1, hn⟩) (if_pos h)

/-- At the other tiles they continue from the point before. -/
theorem accAt_next (c : Dev nD) (t : Fin cfg2.N) (h : ¬t.val % 8 = 0) :
    accAt V c t.val t.isLt = accStep V c t (accAt V c (t.val - 1) (Nat.lt_of_le_of_lt (Nat.sub_le _ _) t.isLt)) := by
  obtain ⟨n, hn⟩ := t
  cases n with
  | zero => exact absurd (Nat.zero_mod _) h
  | succ n => exact congrArg (accStep V c ⟨n + 1, hn⟩) (if_neg h)

/-- One tile's step from what the scratch buffers hold is the accumulators after the point: at a row's first tile
    whatever they hold is discarded, at the others they hold what the point before left. -/
theorem step_eq_accAt (c : Dev nD) (t : Fin cfg2.N) (a : Acc F)
    (ha : ¬t.val % 8 = 0 → a = accAt V c (t.val - 1) (Nat.lt_of_le_of_lt (Nat.sub_le _ _) t.isLt)) :
    stepOf (grid2.coords t) (blk2 V c 0 t) (blk2 V c 1 t) (blk2 V c 2 t) (accIn (grid2.coords t) a)
      = accAt V c t.val t.isLt := by
  by_cases h : t.val % 8 = 0
  · rw [accAt_first V c t h]; unfold accIn; rw [if_pos (by rw [col_eq]; exact h)]; rfl
  · rw [accAt_next V c t h, ← ha h]; unfold accIn; rw [if_neg (by rw [col_eq]; exact h)]; rfl

/-! ## The body obligation, at a generic point -/

/-- Each window's current staging memref at point `t`, as the pipeline passes it to the body, and its wholeness. -/
abbrev ms2_0 (t : Fin cfg2.N) : Memref sig .tc .vmem S512x256 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S512x256 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S512x512 .i32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S512x1 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S512x1 .f32 := win2_4.stage (cfg2.slots t 4)
abbrev hs2_4 (t : Fin cfg2.N) : (ms2_4 t).IsWhole := hstage2_4 ((cfg2.slots t 4).cast nbuf2_4)

/-- What the body is called with at point `t`, the windows one by one, -/
def bodyPre (c : Dev nD) (t : Fin cfg2.N) : sProp 𝕄 :=
  iprop((dat2 (F := F) V c).Φ t.castSucc ∗ (dat2 (F := F) V c).owesAt () t.castSucc
    ∗ (∃ d, owns (c : Thread nD τ) (ms2_0 t) fullShare ((dat2 (F := F) V c).before 0 t d))
    ∗ (∃ d, owns (c : Thread nD τ) (ms2_1 t) fullShare ((dat2 (F := F) V c).before 1 t d))
    ∗ (∃ d, owns (c : Thread nD τ) (ms2_2 t) fullShare ((dat2 (F := F) V c).before 2 t d))
    ∗ (∃ d, owns (c : Thread nD τ) (ms2_3 t) fullShare ((dat2 (F := F) V c).before 3 t d))
    ∗ (∃ d, owns (c : Thread nD τ) (ms2_4 t) fullShare ((dat2 (F := F) V c).before 4 t d)))

/-- and what it returns. -/
def bodyPost (c : Dev nD) (t : Fin cfg2.N) : sProp 𝕄 :=
  iprop((dat2 (F := F) V c).Φ t.succ ∗ (dat2 (F := F) V c).owesAt () t.succ
    ∗ (dat2 (F := F) V c).leavesExact 0 t
    ∗ (dat2 (F := F) V c).leavesExact 1 t
    ∗ (dat2 (F := F) V c).leavesExact 2 t
    ∗ (dat2 (F := F) V c).leavesExact 3 t
    ∗ (dat2 (F := F) V c).leavesExact 4 t)

set_option maxHeartbeats 4800000 in
/-- The body at a point whose scratch buffers hold `a` — anything at a row's first tile, else what the point before
    left: the input windows hold their blocks, the output windows anything; the body leaves the scratch buffers at the
    accumulators after the point and, at a row's last tile, the output windows at the loss shares and counts; at the
    other tiles the output windows come back untouched. The core owes nothing throughout. -/
theorem sound_core (c : Dev nD) (t : Fin cfg2.N) (a : Acc F)
    (ha : ¬t.val % 8 = 0 → a = accAt V c (t.val - 1) (Nat.lt_of_le_of_lt (Nat.sub_le _ _) t.isLt)) :
    iprop(othersRest (F := F) c
        ∗ owns (c : Thread nD τ) scr0 fullShare a.1
        ∗ owns (c : Thread nD τ) scr1 fullShare a.2.1
        ∗ owns (c : Thread nD τ) scr2 fullShare a.2.2
        ∗ (∃ r, prngReg c r)
        ∗ (dat2 (F := F) V c).owesAt () t.castSucc
        ∗ (∃ d, owns (c : Thread nD τ) (ms2_0 t) fullShare ((dat2 (F := F) V c).before 0 t d))
        ∗ (∃ d, owns (c : Thread nD τ) (ms2_1 t) fullShare ((dat2 (F := F) V c).before 1 t d))
        ∗ (∃ d, owns (c : Thread nD τ) (ms2_2 t) fullShare ((dat2 (F := F) V c).before 2 t d))
        ∗ (∃ d, owns (c : Thread nD τ) (ms2_3 t) fullShare ((dat2 (F := F) V c).before 3 t d))
        ∗ (∃ d, owns (c : Thread nD τ) (ms2_4 t) fullShare ((dat2 (F := F) V c).before 4 t d)))
      ⊢ wp frame (wpE (defs₀ (F := F)) Variants.none c none) Set.univ (bodyAt2 t) (fun _ => bodyPost V c t) := by
  have hl := sound_loss (F := F) c Set.univ (grid2.coords t) (ms2_0 t) (hs2_0 t) (ms2_1 t) (hs2_1 t) (ms2_2 t) (hs2_2 t)
    (ms2_3 t) (hs2_3 t) (ms2_4 t) (hs2_4 t) scr0 (Memref.isWhole_whole _) scr1 (Memref.isWhole_whole _)
    scr2 (Memref.isWhole_whole _) (blk2 V c 0 t) (blk2 V c 1 t) (blk2 V c 2 t) a (fun _ => bodyPost V c t)
  rw [step_eq_accAt V c t a ha] at hl
  unfold bodyPost at hl ⊢
  unfold bodyAt2
  simp only [before2_0, before2_1, before2_2, before2_3, before2_4]
  rw [show (dat2 (F := F) V c).owesAt () t.succ = (dat2 (F := F) V c).owesAt () t.castSucc from rfl] at hl ⊢
  rw [show (dat2 (F := F) V c).Φ t.succ = Phi2 V c (t.val + 1) t.isLt from rfl, Phi2_succ] at hl ⊢
  rw [show (dat2 (F := F) V c).leavesExact 0 t = owns (c : Thread nD τ) (ms2_0 t) fullShare ((dat2 (F := F) V c).after 0 t) from by
    unfold Dat.leavesExact; rw [liveAt2_0 t], after2_0] at hl ⊢
  rw [show (dat2 (F := F) V c).leavesExact 1 t = owns (c : Thread nD τ) (ms2_1 t) fullShare ((dat2 (F := F) V c).after 1 t) from by
    unfold Dat.leavesExact; rw [liveAt2_1 t], after2_1] at hl ⊢
  rw [show (dat2 (F := F) V c).leavesExact 2 t = owns (c : Thread nD τ) (ms2_2 t) fullShare ((dat2 (F := F) V c).after 2 t) from by
    unfold Dat.leavesExact; rw [liveAt2_2 t], after2_2] at hl ⊢
  by_cases h7 : t.val % 8 = 7
  · rw [if_pos (show (grid2.coords t 1).val = 7 by rw [col_eq]; exact h7)] at hl
    rw [show (dat2 (F := F) V c).leavesExact 3 t = owns (c : Thread nD τ) (ms2_3 t) fullShare ((dat2 (F := F) V c).after 3 t) from by
      unfold Dat.leavesExact; rw [liveAt2_3 t h7], after2_3] at hl ⊢
    rw [show (dat2 (F := F) V c).leavesExact 4 t = owns (c : Thread nD τ) (ms2_4 t) fullShare ((dat2 (F := F) V c).after 4 t) from by
      unfold Dat.leavesExact; rw [liveAt2_4 t h7], after2_4] at hl ⊢
    iintro ⟨Hr, S0, S1, S2, Hg, Ho, ⟨%d0, H0⟩, ⟨%d1, H1⟩, ⟨%d2, H2⟩, H3, H4⟩
    iapply hl
    isplitl [H0]; · iexact H0
    isplitl [H1]; · iexact H1
    isplitl [H2]; · iexact H2
    isplitl [H3]; · iexact H3
    isplitl [H4]; · iexact H4
    isplitl [S0]; · iexact S0
    isplitl [S1]; · iexact S1
    isplitl [S2]; · iexact S2
    iintro ⟨H0, H1, H2, ⟨H3, H4⟩, S0, S1, S2⟩
    isplitl [Hr S0 S1 S2 Hg]
    · isplitl [Hr]; · iexact Hr
      isplitl [S0]; · iexact S0
      isplitl [S1]; · iexact S1
      isplitl [S2]; · iexact S2
      iexact Hg
    isplitl [Ho]; · iexact Ho
    isplitl [H0]; · iexact H0
    isplitl [H1]; · iexact H1
    isplitl [H2]; · iexact H2
    isplitl [H3]; · iexact H3
    iexact H4
  · rw [if_neg (show ¬(grid2.coords t 1).val = 7 by rw [col_eq]; exact h7)] at hl
    rw [Dat.leavesExact_idle (dat2 (F := F) V c) 3 t (idleAt2_3 t h7) (noFlush2_3 t h7)] at hl ⊢
    rw [Dat.leavesExact_idle (dat2 (F := F) V c) 4 t (idleAt2_4 t h7) (noFlush2_4 t h7)] at hl ⊢
    simp only [before2_3, before2_4] at hl ⊢
    iintro ⟨Hr, S0, S1, S2, Hg, Ho, ⟨%d0, H0⟩, ⟨%d1, H1⟩, ⟨%d2, H2⟩, H3, H4⟩
    iapply hl
    isplitl [H0]; · iexact H0
    isplitl [H1]; · iexact H1
    isplitl [H2]; · iexact H2
    isplitl [H3]; · iexact H3
    isplitl [H4]; · iexact H4
    isplitl [S0]; · iexact S0
    isplitl [S1]; · iexact S1
    isplitl [S2]; · iexact S2
    iintro ⟨H0, H1, H2, ⟨H3, H4⟩, S0, S1, S2⟩
    isplitl [Hr S0 S1 S2 Hg]
    · isplitl [Hr]; · iexact Hr
      isplitl [S0]; · iexact S0
      isplitl [S1]; · iexact S1
      isplitl [S2]; · iexact S2
      iexact Hg
    isplitl [Ho]; · iexact Ho
    isplitl [H0]; · iexact H0
    isplitl [H1]; · iexact H1
    isplitl [H2]; · iexact H2
    isplitl [H3]; · iexact H3
    iexact H4

set_option maxHeartbeats 4800000 in
/-- The body at any point: before the first point the invariant is the launch's, the scratch buffers at anything;
    afterwards it names what the point before left in them. -/
theorem sound_body (c : Dev nD) (t : Fin cfg2.N) :
    bodyPre V c t ⊢ wp frame (wpE (defs₀ (F := F)) Variants.none c none) Set.univ (bodyAt2 t) (fun _ => bodyPost V c t) := by
  unfold bodyPre
  by_cases hz : t.val = 0
  · rw [Phi2_castSucc V c t, Phi2_zero V c _ _ hz, PhiA2_eq]
    iintro ⟨⟨Hr, ⟨%e0, S0⟩, ⟨%e1, S1⟩, ⟨%e2, S2⟩, Hg⟩, Ho, H0, H1, H2, H3, H4⟩
    iapply (sound_core V c t (e0, e1, e2) (fun h => absurd (by rw [hz]) h))
    isplitl [Hr]; · iexact Hr
    isplitl [S0]; · iexact S0
    isplitl [S1]; · iexact S1
    isplitl [S2]; · iexact S2
    isplitl [Hg]; · iexact Hg
    isplitl [Ho]; · iexact Ho
    isplitl [H0]; · iexact H0
    isplitl [H1]; · iexact H1
    isplitl [H2]; · iexact H2
    isplitl [H3]; · iexact H3
    iexact H4
  · rw [Phi2_castSucc V c t, Phi2_pos V c _ _ hz]
    iintro ⟨⟨Hr, S0, S1, S2, Hg⟩, Ho, H0, H1, H2, H3, H4⟩
    iapply (sound_core V c t (accAt V c (t.val - 1) (Nat.lt_of_le_of_lt (Nat.sub_le _ _) t.isLt)) (fun _ => rfl))
    isplitl [Hr]; · iexact Hr
    isplitl [S0]; · iexact S0
    isplitl [S1]; · iexact S1
    isplitl [S2]; · iexact S2
    isplitl [Hg]; · iexact Hg
    isplitl [Ho]; · iexact Ho
    isplitl [H0]; · iexact H0
    isplitl [H1]; · iexact H1
    isplitl [H2]; · iexact H2
    isplitl [H3]; · iexact H3
    iexact H4

/-! ## The three interfaces -/

/-- What the launch hands the region is the invariant before the first point. -/
theorem Phi2_entry (c : Dev nD) : Pipeline.ΦA spec2 c ⊢ (dat2 (F := F) V c).Φ 0 := by
  rw [show (dat2 (F := F) V c).Φ 0 = Phi2 V c 0 (Nat.zero_le _) from rfl, Phi2_zero V c 0 _ rfl]

/-- After the last point the invariant gives the launch's form back: the accumulators' contents are forgotten. -/
theorem Phi2_exit (c : Dev nD) : (dat2 (F := F) V c).Φ (Fin.last cfg2.N) ⊢ Pipeline.ΦA spec2 c := by
  rw [show (dat2 (F := F) V c).Φ (Fin.last cfg2.N) = Phi2 V c (Fin.last cfg2.N).val (Nat.le_of_lt_succ (Fin.last cfg2.N).isLt) from rfl,
    Phi2_pos V c _ _ (by rw [Fin.val_last]; have : cfg2.N = 64 := N_2; omega), PhiA2_eq]
  iintro ⟨Hr, S0, S1, S2, Hg⟩
  isplitl [Hr]; · iexact Hr
  isplitl [S0]; · iexists _; iexact S0
  isplitl [S1]; · iexists _; iexact S1
  isplitl [S2]; · iexists _; iexact S2
  iexact Hg

/-- The library's body obligation, at every point. -/
theorem body_obligation2 (c : Dev nD) : BodyObligation (dat2 (F := F) V c) (defs₀ (F := F)) Variants.none () Set.univ := fun t => by
  rw [bigSep_W2, bigSep_W2]
  exact sound_body V c t

end Cert.KernelIdeal.Hand

end
-- ==== Proof.KI.Tail.lean ====
import proofs.«128564_j90091234001463_1_alg».proof.Proof.KI.Data

/-! The host operations after the three pipelines, as one function of the two columns pipeline 2 leaves: the columns
    are summed, and the result is the weight times (total / max(count, 1)) when the count is positive, else zero. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The program's last thirteen host operations composed: `x` the loss shares, `y` the counts. -/
def hostTail (x y : (⟨S4096x1, .f32⟩ : BufTy).Contents (Elt F)) : (⟨S_, .f32⟩ : BufTy).Contents (Elt F) :=
  mulf (constant S_ .f32 0x3E99999A#32)
    (select (cmpf .ogt (Host.reduceAdd y (constant S_ .f32 0x00000000#32) reducesTo_S4096x1_S_d0_1 h_S_) (constant S_ .f32 0x00000000#32))
      (Host.divf (Host.reduceAdd x (constant S_ .f32 0x00000000#32) reducesTo_S4096x1_S_d0_1 h_S_)
        (maximumf (Host.reduceAdd y (constant S_ .f32 0x00000000#32) reducesTo_S4096x1_S_d0_1 h_S_) (constant S_ .f32 0x3F800000#32)))
      (constant S_ .f32 0x00000000#32))

end Cert.KernelIdeal.Hand

end
-- ==== Proof.KI.Run.lean ====
import proofs.«128564_j90091234001463_1_alg».proof.Proof.KI.PoolBody
import proofs.«128564_j90091234001463_1_alg».proof.Proof.KI.LossBody
import proofs.«128564_j90091234001463_1_alg».proof.Proof.KI.Tail
import proofs.«128564_j90091234001463_1_alg».proof.Proof.Gen.KernelIdeal.Regions

/-! The whole program's run: the three pipelines one after the other, each entered with what the one before left, then
    the host operations. Between two items every unscoped buffer is held at a named valuation: the launch memory; after a
    pipeline its windows' arrays at what its write-backs leave and every other buffer as before. At the end the result is
    the host tail of the two columns pipeline 2 leaves, and the three arguments are as launched. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s unscoped buffers at launch, and the same read at the TensorCore's references (what pipeline 0 is entered with). -/
abbrev W0 (c : Dev nD) : Valuation τ sig (Elt F) := fun b => m (c, b)
abbrev En0 : (c : Dev nD) → (b : Ref sig .tc) → Buf (Elt F) ((c : Thread nD τ).loc b) := fun c b => W0 m c b
/-- After pipeline 0: its arrays at what it leaves, every other buffer as before. -/
def W1 (c : Dev nD) : Valuation τ sig (Elt F) :=
  Pipeline.withArrays spec0 c (W0 m c) fun w => (dat0 (En0 m) c).arrAt w cfg0.N
abbrev En1 : (c : Dev nD) → (b : Ref sig .tc) → Buf (Elt F) ((c : Thread nD τ).loc b) := fun c b => W1 m c b
/-- After pipeline 1. -/
def W2 (c : Dev nD) : Valuation τ sig (Elt F) :=
  Pipeline.withArrays spec1 c (W1 m c) fun w => (dat1 (En1 m) c).arrAt w cfg1.N
abbrev En2 : (c : Dev nD) → (b : Ref sig .tc) → Buf (Elt F) ((c : Thread nD τ).loc b) := fun c b => W2 m c b
/-- After pipeline 2. -/
def W3 (c : Dev nD) : Valuation τ sig (Elt F) :=
  Pipeline.withArrays spec2 c (W2 m c) fun w => (dat2 (En2 m) c).arrAt w cfg2.N

/-- The unit rows of the two batches as pipelines 0 and 1 leave them, and the two columns pipeline 2 leaves. -/
def riArr (c : Dev nD) := (dat0 (En0 m) c).arrAt 1 cfg0.N
def rjArr (c : Dev nD) := (dat1 (En1 m) c).arrAt 1 cfg1.N
def lossArr (c : Dev nD) := (dat2 (En2 m) c).arrAt 3 cfg2.N
def cntArr (c : Dev nD) := (dat2 (En2 m) c).arrAt 4 cfg2.N

/-! ## What each pipeline is entered with -/

theorem W1_arr (c : Dev nD) (w : Fin cfg0.W) :
    W1 m c (Proc.devRef .tc (Pipeline.arrRef spec0 w)) = (dat0 (En0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
theorem W2_arr (c : Dev nD) (w : Fin cfg1.W) :
    W2 m c (Proc.devRef .tc (Pipeline.arrRef spec1 w)) = (dat1 (En1 m) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m c (Proc.devRef .tc b) = W1 m c (Proc.devRef .tc b) := by
  unfold W2; exact Pipeline.withArrays_of_ne spec1 c _ _ b hb
theorem W3_arr (c : Dev nD) (w : Fin cfg2.W) :
    W3 m c (Proc.devRef .tc (Pipeline.arrRef spec2 w)) = (dat2 (En2 m) c).arrAt w cfg2.N := by
  unfold W3; exact Pipeline.withArrays_arr spec2 launch2.win.arr_inj c _ _ w
theorem W3_of_ne (c : Dev nD) (b : Ref sig .tc) (hb : ∀ w, Pipeline.arrRef spec2 w ≠ b) :
    W3 m c (Proc.devRef .tc b) = W2 m c (Proc.devRef .tc b) := by
  unfold W3; exact Pipeline.withArrays_of_ne spec2 c _ _ b hb

theorem En1_arg1 (c : Dev nD) : En1 m c main_arg1 = m ((c : Thread nD τ).loc main_arg1) :=
  (W1_of_ne m c main_arg1 (by decide)).trans rfl
theorem En2_v0 (c : Dev nD) : En2 m c main_v0 = riArr m c :=
  (W2_of_ne m c main_v0 (by decide)).trans (W1_arr m c 1)
theorem En2_v1 (c : Dev nD) : En2 m c main_v1 = rjArr m c :=
  W2_arr m c 1
theorem En2_arg2 (c : Dev nD) : En2 m c main_arg2 = m ((c : Thread nD τ).loc main_arg2) :=
  (W2_of_ne m c main_arg2 (by decide)).trans ((W1_of_ne m c main_arg2 (by decide)).trans rfl)

/-! ## The buffers after the host operations -/

/-- After the first ten host operations, after the selection, after the last two. -/
abbrev W4 (c : Dev nD) : Valuation τ sig (Elt F) := StableHlo.after hostOps3 (W3 m c)
abbrev W5 (c : Dev nD) : Valuation τ sig (Elt F) := StableHlo.after hostOps3_1 (W4 m c)
abbrev W6 (c : Dev nD) : Valuation τ sig (Elt F) := StableHlo.after hostOps3_2 (W5 m c)

/-- A buffer no host operation writes is after them what pipeline 2 left. -/
theorem W6_of (c : Dev nD) (r : Ref sig .tc) (h4 : r ∉ hostOps3_W) (h5 : r ∉ hostOps3_1_W) (h6 : r ∉ hostOps3_2_W) :
    W6 m c (Proc.devRef .tc r) = W3 m c (Proc.devRef .tc r) :=
  (StableHlo.after_of_writes_sub hostOps3_2 _ hostOps3_2_writes h6).trans <|
    (StableHlo.after_of_writes_sub hostOps3_1 _ hostOps3_1_writes h5).trans <|
      StableHlo.after_of_writes_sub hostOps3 _ hostOps3_writes h4

/-- The arguments end as launched: no host operation writes one, and a pipeline either reads it through an input
    window or does not stage it. -/
theorem W6_main_arg0 (c : Dev nD) : W6 m c (Proc.devRef .tc main_arg0) = m ((c : Thread nD τ).loc main_arg0) :=
  calc W6 m c (Proc.devRef .tc main_arg0)
    _ = W3 m c (Proc.devRef .tc main_arg0) := W6_of m c main_arg0 (by decide) (by decide) (by decide)
    _ = W2 m c (Proc.devRef .tc main_arg0) := W3_of_ne m c main_arg0 (by decide)
    _ = W1 m c (Proc.devRef .tc main_arg0) := W2_of_ne m c main_arg0 (by decide)
    _ = m ((c : Thread nD τ).loc main_arg0) := (W1_arr m c 0).trans ((dat0 (En0 m) c).arrAt_in 0 rfl _)
theorem W6_main_arg1 (c : Dev nD) : W6 m c (Proc.devRef .tc main_arg1) = m ((c : Thread nD τ).loc main_arg1) :=
  calc W6 m c (Proc.devRef .tc main_arg1)
    _ = W3 m c (Proc.devRef .tc main_arg1) := W6_of m c main_arg1 (by decide) (by decide) (by decide)
    _ = W2 m c (Proc.devRef .tc main_arg1) := W3_of_ne m c main_arg1 (by decide)
    _ = En1 m c main_arg1 := (W2_arr m c 0).trans ((dat1 (En1 m) c).arrAt_in 0 rfl _)
    _ = m ((c : Thread nD τ).loc main_arg1) := En1_arg1 m c
theorem W6_main_arg2 (c : Dev nD) : W6 m c (Proc.devRef .tc main_arg2) = m ((c : Thread nD τ).loc main_arg2) :=
  calc W6 m c (Proc.devRef .tc main_arg2)
    _ = W3 m c (Proc.devRef .tc main_arg2) := W6_of m c main_arg2 (by decide) (by decide) (by decide)
    _ = En2 m c main_arg2 := (W3_arr m c 2).trans ((dat2 (En2 m) c).arrAt_in 2 rfl _)
    _ = m ((c : Thread nD τ).loc main_arg2) := En2_arg2 m c

/-- The result buffer ends at the host tail of the two columns pipeline 2 leaves. -/
theorem W6_main_v9 (c : Dev nD) : W6 m c (Proc.devRef .tc main_v9) = hostTail (lossArr m c) (cntArr m c) := by
  show StableHlo.after hostOps3_2 (StableHlo.after hostOps3_1 (StableHlo.after hostOps3 (W3 m c))) (Proc.devRef .tc main_v9) = _
  after_results
  rw [W3_arr m c 3, W3_arr m c 4]
  unfold hostTail
  rfl

/-! ## The proof data family and the thread state -/

/-- Every pipeline's proof data, each at what its pipeline is entered with. -/
def pdats : (p : Fin 3) → (c : Dev nD) → Dat τ (Elt F) Unit ℕ (UR sig nD τ) ℕ (Pipeline.pin (pcfgs (F := F)) adm p) c
  | ⟨0, _⟩ => fun c => dat0 (En0 m) c
  | ⟨1, _⟩ => fun c => dat1 (En1 m) c
  | ⟨2, _⟩ => fun c => dat2 (En2 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers between two items: the core's generator register at some state and nothing owed. -/
abbrev R (c : Dev nD) : sProp 𝕄 := iprop((∃ r, prngReg c r) ∗ ∃ W, owes (c : Thread nD τ) (0 : CellTallies nD τ sig Unit) W)
/-- A stretch of host operations from the contents W, R riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the last contents, the register at some state. -/
abbrev Tₙ (c : Dev nD) : sProp 𝕄 := iprop(StableHlo.held (c : Thread nD τ) (Pipeline.ucRefs τ sig) (W6 m c) ∗ ∃ r, prngReg c r)

/-- At a pipeline's exit each of its arrays holds what the pipeline leaves and every other buffer what it held at entry. -/
theorem hF0 (c : Dev nD) (w : Fin cfg0.W) : (dat0 (En0 m) c).arrAt w cfg0.N = En1 m c (Pipeline.arrRef spec0 w) :=
  (W1_arr m c w).symm
theorem hrest0 (c : Dev nD) : ∀ b, b ∉ Finset.univ.image (Pipeline.arrRef spec0) → En1 m c b = En0 m c b :=
  fun b hb => W1_of_ne m c b fun w e => hb (Finset.mem_image.mpr ⟨w, Finset.mem_univ _, e⟩)
theorem hF1 (c : Dev nD) (w : Fin cfg1.W) : (dat1 (En1 m) c).arrAt w cfg1.N = En2 m c (Pipeline.arrRef spec1 w) :=
  (W2_arr m c w).symm
theorem hrest1 (c : Dev nD) : ∀ b, b ∉ Finset.univ.image (Pipeline.arrRef spec1) → En2 m c b = En1 m c b :=
  fun b hb => W2_of_ne m c b fun w e => hb (Finset.mem_image.mpr ⟨w, Finset.mem_univ _, e⟩)
/-- The buffers after pipeline 2 read at the core's references. -/
abbrev Ex2 : (c : Dev nD) → (b : Ref sig .tc) → Buf (Elt F) ((c : Thread nD τ).loc b) := fun c b => W3 m c b
theorem hF2 (c : Dev nD) (w : Fin cfg2.W) : (dat2 (En2 m) c).arrAt w cfg2.N = Ex2 m c (Pipeline.arrRef spec2 w) :=
  (W3_arr m c w).symm
theorem hrest2 (c : Dev nD) : ∀ b, b ∉ Finset.univ.image (Pipeline.arrRef spec2) → Ex2 m c b = En2 m c b :=
  fun b hb => W3_of_ne m c b fun w e => hb (Finset.mem_image.mpr ⟨w, Finset.mem_univ _, e⟩)

/-! ## The pipelines as segments -/

set_option backward.isDefEq.respectTransparency.types false in
/-- Pipeline 0 over the thread state: entered from every unscoped buffer at the launch contents, left at W1. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (En0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (En0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (En0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (En0 m c) (En1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pipeline 1 over the thread state: entered from W1, left at W2. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (En1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec1 c (En1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (En1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (En1 m c) (En2 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pipeline 2 over the thread state: entered from W2, left at W3. Its invariant is the accumulators': entered from
    the launch's form and giving that form back after the last point. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (En2 m) c).loose
  hwaits := Pipeline.hwaits_of_owed_zero _ _ _ _ L lv 2 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec2 c (En2 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (En2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := Phi2_entry (F := F) (En2 m) c
    unfold Pipeline.ΦA at h
    rw [show (pdats m 2 c).Φ 0 = (dat2 (En2 m) c).Φ 0 from rfl]
    iintro ⟨Hp, -, Hr⟩
    iapply h
    isplitl [Hr]; · iexact Hr
    iexact Hp
  hout c := by
    have h := Phi2_exit (F := F) (En2 m) c
    unfold Pipeline.ΦA at h
    rw [Pipeline.ownSems0_none, show (pdats m 2 c).Φ (Fin.last _) = (dat2 (En2 m) c).Φ (Fin.last cfg2.N) from rfl]
    iintro H
    ihave H' := h $$ H
    icases H' with ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (En2 m c) (Ex2 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The last item's thread state regrouped: the buffers and the register on one side, what is owed on the other. -/
theorem last_state (c : Dev nD) :
    (iprop(StableHlo.held (c : Thread nD τ) (Pipeline.ucRefs τ sig) (W6 m c) ∗ (∃ r, prngReg c r) ∗ ∃ W, owes (c : Thread nD τ) (0 : CellTallies nD τ sig Unit) W) : sProp 𝕄)
      ⊢ iprop((StableHlo.held (c : Thread nD τ) (Pipeline.ucRefs τ sig) (W6 m c) ∗ ∃ r, prngReg c r) ∗ ∃ W, owes (c : Thread nD τ) (0 : CellTallies nD τ sig Unit) W) := by
  iintro ⟨Hh, Hp, HO⟩
  isplitl [Hh Hp]
  · isplitl [Hh]; · iexact Hh
    iexact Hp
  iexact HO

/-! ## The program as segments, and the run -/

/-- The program's six items in order: the three pipelines, then the three stretches of host operations. -/
abbrev segsH : List (Pipeline.Seg (pcfgs (F := F)) adm (pdats m) () defs₀ 𝒱₀ L lv) :=
  [ .region (reg0 m),
    .region (reg1 m),
    .region (reg2 m),
    .host (hseg hostOps3 hostOps3_sub hostOps3_fresh (W3 m)),
    .host (hseg hostOps3_1 hostOps3_1_sub hostOps3_1_fresh (W4 m)),
    .host (hseg hostOps3_2 hostOps3_2_sub hostOps3_2_fresh (W5 m)) ]

set_option backward.isDefEq.respectTransparency.types false in
/-- Every weakly fair execution of the program from memory m with zero counters terminates, nothing faulting; the
    result buffer ends at the host tail of pipeline 2's two columns and the arguments end as launched. -/
theorem run_main : θ_run defs (onTc (τ := τ) (main (F := F))) ⟨m, fun _ => 0, ρ⟩ (fun r => ∀ c : Dev nD,
      r.2.mem ((c.tc : Thread nD τ).loc main_v9) = hostTail (lossArr m c) (cntArr m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m) () cellOf_inj emb₁ defs₀ 𝒱₀ L lv m ρ main (segsH m)
    (fun c Q => by
      rewrite [main_chain c, Pipeline.Seg.run_eq_chain,
        show (segsH m).map Pipeline.Seg.prog = [
          Prog.lift (.customCall (Pipeline.entry 0) ()),
          Prog.lift (.customCall (Pipeline.entry 1) ()),
          Prog.lift (.customCall (Pipeline.entry 2) ()),
          StableHlo.seq hostOps3,
          StableHlo.seq hostOps3_1,
          StableHlo.seq hostOps3_2 ] from rfl]
      exact .rfl)
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun c => last_state m c⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h c =>
      ⟨(h c _ (mem_uc main_v9 (by decide))).trans (W6_main_v9 m c),
       (h c _ (mem_uc main_arg0 (by decide))).trans (W6_main_arg0 m c),
       (h c _ (mem_uc main_arg1 (by decide))).trans (W6_main_arg1 m c),
       (h c _ (mem_uc main_arg2 (by decide))).trans (W6_main_arg2 m c)⟩)

end Cert.KernelIdeal.Hand

end
-- ==== Proof.Contrast.lean ====
import Idealize.ShloMosaic.PureOps.Ideal
import Mathlib.Algebra.BigOperators.Fin
import Mathlib.Data.BitVec

/-!
  The contrastive (NT-Xent) loss both programs compute, as functions over plain coordinates on the extended reals.

  From two batches of 4096 samples, each a set of 8 slot vectors of dimension 256, and a 4096 × 4096 table of
  integer pair labels:
  * each sample's slots are averaged (`mean`) and the average is scaled to unit Euclidean length, the length
    bounded below by a small constant (`unitRow`);
  * the similarity of sample `p` of the first batch and sample `q` of the second is the inner product of their unit
    rows divided by the temperature (`sim`);
  * row `p`'s log-partition is `log (Σ_{q ≠ p} exp (sim p q) + tiny)` (`logDen`);
  * a pair `(p, q)` is positive when its label is nonzero and `p ≠ q` (`IsPos`);
  * the loss is the weight times the average over positive pairs of `logDen p - sim p q`, and `0` when there is no
    positive pair.
  The two programs differ in how they organise the last sum: one forms, per row, (number of positives) · logDen −
  (sum of positive similarities) and adds the rows; the other adds `logDen p - sim p q` over all positive pairs. They
  also count the positives differently: as a sum of float ones, or as a 32-bit integer converted at the end.
  `lossRows` and `lossPairs` are those two forms; `lossRows_eq_lossPairs` says they agree when the unit rows are real.
-/

noncomputable section

namespace Cert.Contrast

open Idealize.ShloMosaic

/-- The lower bound on a row's length, the temperature, the constant added under the logarithm, the weight: the
    values of the four float words both programs spell. -/
abbrev wEps : EReal := Ideal.ofBits .f32 0x2B8CBCCC#32
abbrev wTemp : EReal := Ideal.ofBits .f32 0x3D8F5C29#32
abbrev wTiny : EReal := Ideal.ofBits .f32 0x322BCC77#32
abbrev wLam : EReal := Ideal.ofBits .f32 0x3E99999A#32

/-! ## Pooling and normalising one batch -/

section Pool
variable (X : Fin 4096 → Fin 8 → Fin 256 → EReal)

/-- The average of sample `p`'s 8 slots, coordinate `d`. -/
def mean (p : Fin 4096) (d : Fin 256) : EReal := (∑ s : Fin 8, X p s d) * ((1 / 8 : ℝ) : EReal)

/-- The Euclidean length of the averaged sample, bounded below by `wEps`. -/
def len (p : Fin 4096) : EReal := max (Ideal.sqrt (∑ d : Fin 256, mean X p d * mean X p d)) wEps

/-- The averaged sample scaled to unit length. -/
def unitRow (p : Fin 4096) (d : Fin 256) : EReal := Ideal.div (mean X p d) (len X p)

end Pool

/-! ## The loss over two families of rows and a label table -/

section Loss
variable (A B : Fin 4096 → Fin 256 → EReal) (L : Fin 4096 → Fin 4096 → BitVec 32)

/-- Similarity of row `p` of `A` and row `q` of `B`. -/
def sim (p q : Fin 4096) : EReal := Ideal.div (∑ k : Fin 256, A p k * B q k) wTemp

/-- A positive pair: labelled nonzero, off the diagonal. -/
def IsPos (p q : Fin 4096) : Prop := L p q ≠ 0#32 ∧ p ≠ q

instance (p q : Fin 4096) : Decidable (IsPos L p q) := by unfold IsPos; infer_instance

/-- `exp (sim p q)` off the diagonal, `0` on it. -/
def expOff (p q : Fin 4096) : EReal := if p = q then 0 else Ideal.exp (sim A B p q)

/-- Row `p`'s partition sum. -/
def den (p : Fin 4096) : EReal := ∑ q : Fin 4096, expOff A B p q

/-- Row `p`'s log-partition. -/
def logDen (p : Fin 4096) : EReal := Ideal.log (den A B p + wTiny)

/-- The number of positive pairs in row `p`, as a sum of ones. -/
def cntRow (p : Fin 4096) : EReal := ∑ q : Fin 4096, if IsPos L p q then (1 : EReal) else 0

/-- The sum of row `p`'s positive similarities. -/
def posSum (p : Fin 4096) : EReal := ∑ q : Fin 4096, if IsPos L p q then sim A B p q else 0

/-- Row `p`'s share of the total, formed per row. -/
def rowLoss (p : Fin 4096) : EReal := cntRow L p * logDen A B p - posSum A B L p

/-- The loss with the total formed row by row and the positives counted as a sum of float ones. -/
def lossRows : EReal :=
  wLam * (if 0 < ∑ p : Fin 4096, cntRow L p then
            Ideal.div (∑ p : Fin 4096, rowLoss A B L p) (max (∑ p : Fin 4096, cntRow L p) 1)
          else 0)

/-- The number of positive pairs as a 32-bit word (a sum of words `1` and `0`, wrapping). -/
def cntWord : BitVec 32 := ∑ p : Fin 4096, ∑ q : Fin 4096, if IsPos L p q then 1#32 else 0#32

/-- The loss with the total formed pair by pair and the positives counted as a 32-bit integer, converted to a real
    at the end. -/
def lossPairs : EReal :=
  wLam * (if (0 : ℤ) < (cntWord L).toInt then
            Ideal.div (∑ p : Fin 4096, ∑ q : Fin 4096, if IsPos L p q then logDen A B p - sim A B p q else 0)
              (((max (cntWord L).toInt 1 : ℤ) : ℝ) : EReal)
          else 0)

end Loss

end Cert.Contrast

end
-- ==== Proof.KV.PoolValue.lean ====
import proofs.«128564_j90091234001463_1_alg».proof.Proof.KI.Data
import proofs.«128564_j90091234001463_1_alg».proof.Proof.Contrast
import Idealize.ShloMosaic.Lib.ValueIdx
import Idealize.ShloMosaic.Lib.ValueLayout
import Idealize.ShloMosaic.Lib.Pipeline.Value
import Idealize.ShloMosaic.PureOps.Ideal.Laws

/-! What pipelines 0 and 1 leave in their output arrays, entry by entry on the extended reals: row `p` of the array is
    the unit row of sample `p` of the batch the pipeline is entered with. -/

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem

/-- The word the bodies multiply the slot sum by denotes one eighth. -/
theorem ofBits_eighth : Ideal.ofBits .f32 0x3E000000#32 = ((1 / 8 : ℝ) : EReal) := by
  simp [Ideal.ofBits, Ideal.ieee, -EReal.coe_mul]; norm_num

/-- The slot averages of a block of 512 samples, as the bodies compute them. -/
abbrev poolMean (x : Vec Ideal S512x8x256 .f32) : FVec Ideal S512x256 .f32 :=
  mulf (multiReduction (F := Ideal) .add [1] S512x256 x 0x00000000#32 reduces_S512x8x256_S512x256 (.inl rfl) rfl)
    (broadcast S512x256 (Scalar.ofBits (F := Ideal) .f32 0x3E000000#32))

/-- The bounded lengths of the block's averaged samples, as a column. -/
abbrev poolLen (x : Vec Ideal S512x8x256 .f32) : FVec Ideal S512x1 .f32 :=
  maximumf (sqrt (shapeCast S512x1 (multiReduction (F := Ideal) .add [1] S512 (mulf (poolMean x) (poolMean x)) 0x00000000#32
      reduces_S512x256_S512 (.inl rfl) rfl) shapeCasts_S512_S512x1))
    (broadcast S512x1 (Scalar.ofBits (F := Ideal) .f32 0x2B8CBCCC#32))

/-- The two bodies' stored value: the averages divided by the lengths, row by row. -/
theorem k0_pay1_eq (x : Vec Ideal S512x8x256 .f32) :
    k0_pay1 x = truncf .bf16 (divf (poolMean x) (broadcastTo S512x256 (poolLen x) broadcasts_S512x1_S512x256)) bitsLt_bf16_f32 := rfl
theorem k1_pay1_eq (x : Vec Ideal S512x8x256 .f32) :
    k1_pay1 x = truncf .bf16 (divf (poolMean x) (broadcastTo S512x256 (poolLen x) broadcasts_S512x1_S512x256)) bitsLt_bf16_f32 := rfl

/-- The slot average at sample `r` and coordinate `d`. -/
theorem poolMean_apply (x : Vec Ideal S512x8x256 .f32) (r : Fin 512) (d : Fin 256) :
    poolMean x (ix2 r d) = (∑ s : Fin 8, x (ix3 r s d)) * ((1 / 8 : ℝ) : EReal) := by
  refine (mulf_apply _ _ _).trans ?_
  refine congrArg₂ (· * ·) ?_ ofBits_eighth
  refine (Ideal.multiReduction_add_single x _ reduces_S512x8x256_S512x256 (.inl rfl) rfl (ix2 r d)).trans ?_
  refine Finset.sum_congr rfl fun s _ => congrArg x ?_
  funext a
  match a with
  | ⟨0, _⟩ => rfl
  | ⟨1, _⟩ => rfl
  | ⟨2, _⟩ => rfl

/-- The bounded length of sample `r`'s average. -/
theorem poolLen_apply (x : Vec Ideal S512x8x256 .f32) (r : Fin 512) (j : Fin 1) :
    poolLen x (ix2 r j) = max (Ideal.sqrt (∑ d : Fin 256, poolMean x (ix2 r d) * poolMean x (ix2 r d))) Cert.Contrast.wEps := by
  refine (maximumf_apply _ _ _).trans ?_
  refine congrArg₂ max ?_ rfl
  refine congrArg Ideal.sqrt ?_
  refine (shapeCast_apply _ shapeCasts_S512_S512x1 (ix2 r j) (ix1 r) ?_).trans ?_
  · rw [Shape.rowMajor_val_one, Shape.rowMajor_val_two]
    show r.val = r.val * 1 + j.val
    omega
  refine (Ideal.multiReduction_add_single _ _ reduces_S512x256_S512 (.inl rfl) rfl (ix1 r)).trans ?_
  refine Finset.sum_congr rfl fun d _ => ?_
  refine (mulf_apply _ _ _).trans ?_
  have e : reduces_S512x256_S512.lift (ix1 r) d = ix2 r d := by
    funext a
    match a with
    | ⟨0, _⟩ => rfl
    | ⟨1, _⟩ => rfl
  exact congrArg (fun i => poolMean x i * poolMean x i) e

/-- A block whose sample `r` is sample `p` of a batch has, in row `r` of what the body stores, sample `p`'s unit row. -/
theorem pool_pay_apply (x : Vec Ideal S512x8x256 .f32) (X : Fin 4096 → Fin 8 → Fin 256 → EReal) (p : Fin 4096) (r : Fin 512)
    (h : ∀ s d, x (ix3 r s d) = X p s d) (d : Fin 256) :
    (truncf .bf16 (divf (poolMean x) (broadcastTo S512x256 (poolLen x) broadcasts_S512x1_S512x256)) bitsLt_bf16_f32 : FVec Ideal S512x256 .bf16) (ix2 r d)
      = Cert.Contrast.unitRow X p d := by
  have hm : ∀ d', poolMean x (ix2 r d') = Cert.Contrast.mean X p d' := fun d' => by
    refine (poolMean_apply x r d').trans ?_
    simp only [Cert.Contrast.mean, h]
  show Ideal.div (poolMean x (ix2 r d)) (broadcastTo S512x256 (poolLen x) broadcasts_S512x1_S512x256 (ix2 r d)) = _
  refine congrArg₂ Ideal.div (hm d) ?_
  refine (broadcastTo_apply _ broadcasts_S512x1_S512x256 (ix2 r d) (ix2 r 0) ?_).trans ?_
  · intro a
    match a with
    | ⟨0, _⟩ => rfl
    | ⟨1, _⟩ => rfl
  refine (poolLen_apply x r 0).trans ?_
  simp only [Cert.Contrast.len, hm]

/-- The same at any index `y` of the stored block. -/
theorem pool_pay_at (x : Vec Ideal S512x8x256 .f32) (X : Fin 4096 → Fin 8 → Fin 256 → EReal) (p : Fin 4096) (y : S512x256.Idx)
    (h : ∀ s d, x (ix3 (y 0) s d) = X p s d) :
    (truncf .bf16 (divf (poolMean x) (broadcastTo S512x256 (poolLen x) broadcasts_S512x1_S512x256)) bitsLt_bf16_f32 : FVec Ideal S512x256 .bf16) y
      = Cert.Contrast.unitRow X p (y 1) := by
  have e := pool_pay_apply x X p (y 0) h (y 1)
  exact (congrArg (truncf .bf16 (divf (poolMean x) (broadcastTo S512x256 (poolLen x) broadcasts_S512x1_S512x256)) bitsLt_bf16_f32 :
    FVec Ideal S512x256 .bf16) (eq_ix2 y)).trans e

-- the core's buffer contents when a pipeline is entered, on the extended reals
variable (V : (c : Dev nD) → (b : Ref sig .tc) → Buf (Elt Ideal) ((c : Thread nD τ).loc b))

/-! ## Pipeline 0: from the blocks to the array -/

/-- The batch pipeline 0 is entered with, over plain coordinates. -/
abbrev batch0 (c : Dev nD) : Fin 4096 → Fin 8 → Fin 256 → EReal := fun p s d => V c main_arg0 (ix3 p s d)

/-- The array of the batch's unit rows. -/
abbrev unitRows0 (c : Dev nD) : S4096x256.Idx → EReal := fun i => Cert.Contrast.unitRow (batch0 V c) (i 0) (i 1)

/-- The printed index maps over the grid: point `t` takes block `t` of samples in both windows, every slot and
    coordinate. -/
theorem idx_facts0 : ∀ t : Fin cfg0.N, win0_0.index t (0 : Fin 3) = t.val ∧ win0_0.index t (1 : Fin 3) = 0
    ∧ win0_0.index t (2 : Fin 3) = 0 ∧ win0_1.index t (0 : Fin 2) = t.val ∧ win0_1.index t (1 : Fin 2) = 0 :=
  (by decide +kernel : ∀ t : Fin grid0.N, _)

/-- Entry `y` of the input block at point `t` is the batch's entry at sample `512 t + y 0`. -/
theorem blk0_apply (c : Dev nD) (t : Fin cfg0.N) (y : S512x8x256.Idx) (k : S4096x8x256.Idx)
    (hk0 : (k 0).val = 512 * t.val + (y 0).val) (hk1 : (k 1).val = (y 1).val) (hk2 : (k 2).val = (y 2).val) :
    (blk0 (F := Ideal) V c 0 t : Vec Ideal S512x8x256 .f32) y = (V c main_arg0 : S4096x8x256.Idx → EReal) k := by
  obtain ⟨e0, e1, e2, -, -⟩ := idx_facts0 t
  unfold blk0
  rw [View.read_apply]
  show V c main_arg0 _ = V c main_arg0 _
  congr 1
  funext a
  apply Fin.ext
  match a with
  | ⟨0, _⟩ => show win0_0.index t (0 : Fin 3) * 512 + 1 * (y 0).val = (k 0).val; rw [e0, hk0]; omega
  | ⟨1, _⟩ => show win0_0.index t (1 : Fin 3) * 8 + 1 * (y 1).val = (k 1).val; rw [e1, hk1]; omega
  | ⟨2, _⟩ => show win0_0.index t (2 : Fin 3) * 256 + 1 * (y 2).val = (k 2).val; rw [e2, hk2]; omega

/-- What point `t` writes back is block `t` of the array of unit rows. -/
theorem flushed0_eq (c : Dev nD) (t : Fin cfg0.N) :
    (dat0 (F := Ideal) V c).flushed 1 t = ((cfg0.win 1).blk t).view.read (Elt Ideal) (unitRows0 V c) := by
  obtain ⟨-, -, -, e3, e4⟩ := idx_facts0 t
  show (cfg0.win 1).cut (grid0.coords t) ((dat0 (F := Ideal) V c).after 1 t) = _
  funext j
  have hj0 : (j 0).val < 512 := (j 0).isLt
  have hj1 : (j 1).val < 256 := (j 1).isLt
  show (truncf .bf16 (divf (poolMean (blk0 (F := Ideal) V c 0 t)) (broadcastTo S512x256 (poolLen (blk0 (F := Ideal) V c 0 t))
      broadcasts_S512x1_S512x256)) bitsLt_bf16_f32 : FVec Ideal S512x256 .bf16) ((cfg0.win 1).xinj (grid0.coords t) j)
    = unitRows0 V c (((cfg0.win 1).blk t).view.emb j)
  have h0 : ((((cfg0.win 1).blk t).view.emb j) 0).val = 512 * t.val + (j 0).val := by
    show win0_1.index t (0 : Fin 2) * 512 + 1 * (j 0).val = _; rw [e3]; omega
  have h1 : ((((cfg0.win 1).blk t).view.emb j) 1).val = (j 1).val := by
    show win0_1.index t (1 : Fin 2) * 256 + 1 * (j 1).val = _; rw [e4]; omega
  refine (pool_pay_at (blk0 (F := Ideal) V c 0 t) (batch0 V c) ((((cfg0.win 1).blk t).view.emb j) 0)
    ((cfg0.win 1).xinj (grid0.coords t) j) (fun s d => ?_)).trans ?_
  · exact blk0_apply V c t (ix3 (((cfg0.win 1).xinj (grid0.coords t) j) 0) s d)
      (ix3 ((((cfg0.win 1).blk t).view.emb j) 0) s d) h0 rfl rfl
  · exact congrArg (Cert.Contrast.unitRow (batch0 V c) ((((cfg0.win 1).blk t).view.emb j) 0)) (Fin.ext h1.symm)

/-- An index of the array is in point `t`'s block iff each coordinate is in the block's range on its axis. -/
theorem mem_blk0 (t : Fin cfg0.N) (i : S4096x256.Idx) :
    i ∈ ((cfg0.win 1).blk t).view.set ↔ ∀ a : Fin 2, win0_1.index t a * S512x256.size a ≤ (i a).val
      ∧ (i a).val < win0_1.index t a * S512x256.size a + S512x256.size a := by
  show i ∈ ((View.whole main_v0).slice (win0_1.rect t)).set ↔ _
  rw [View.set_slice_whole, Rect.mem_set_unit]
  exact Iff.rfl

/-- Row `p` of the array is in the block of point `p / 512`. -/
theorem cover0 (i : S4096x256.Idx) :
    ∃ t : Fin cfg0.N, (cfg0.win 1).flush t = true ∧ i ∈ ((cfg0.win 1).blk t).view.set := by
  have hi0 : (i 0).val < 4096 := (i 0).isLt
  have hi1 : (i 1).val < 256 := (i 1).isLt
  have hN : cfg0.N = 8 := N_0
  obtain ⟨t, ht⟩ : ∃ t : Fin cfg0.N, t.val = (i 0).val / 512 := ⟨⟨(i 0).val / 512, by rw [hN]; omega⟩, rfl⟩
  obtain ⟨-, -, -, e3, e4⟩ := idx_facts0 t
  refine ⟨t, flush0_1 t, ?_⟩
  rw [mem_blk0]
  intro a
  match a with
  | ⟨0, _⟩ =>
    show win0_1.index t (0 : Fin 2) * 512 ≤ (i 0).val ∧ (i 0).val < win0_1.index t (0 : Fin 2) * 512 + 512
    rw [e3, ht]; omega
  | ⟨1, _⟩ =>
    show win0_1.index t (1 : Fin 2) * 256 ≤ (i 1).val ∧ (i 1).val < win0_1.index t (1 : Fin 2) * 256 + 256
    rw [e4]; omega

theorem pool0_value (c : Dev nD) (p : Fin 4096) (d : Fin 256) :
    (dat0 (F := Ideal) V c).arrAt 1 cfg0.N (ix2 p d) = Cert.Contrast.unitRow (fun p s d => V c main_arg0 (ix3 p s d)) p d :=
  congrFun ((dat0 (F := Ideal) V c).arrAt_eq_of_cover 1 (unitRows0 V c) (fun t _ => flushed0_eq V c t) (cover0)) (ix2 p d)

/-! ## Pipeline 1: from the blocks to the array -/

/-- The batch pipeline 1 is entered with, over plain coordinates. -/
abbrev batch1 (c : Dev nD) : Fin 4096 → Fin 8 → Fin 256 → EReal := fun p s d => V c main_arg1 (ix3 p s d)

/-- The array of the batch's unit rows. -/
abbrev unitRows1 (c : Dev nD) : S4096x256.Idx → EReal := fun i => Cert.Contrast.unitRow (batch1 V c) (i 0) (i 1)

/-- The printed index maps over the grid: point `t` takes block `t` of samples in both windows, every slot and
    coordinate. -/
theorem idx_facts1 : ∀ t : Fin cfg1.N, win1_0.index t (0 : Fin 3) = t.val ∧ win1_0.index t (1 : Fin 3) = 0
    ∧ win1_0.index t (2 : Fin 3) = 0 ∧ win1_1.index t (0 : Fin 2) = t.val ∧ win1_1.index t (1 : Fin 2) = 0 :=
  (by decide +kernel : ∀ t : Fin grid1.N, _)

/-- Entry `y` of the input block at point `t` is the batch's entry at sample `512 t + y 0`. -/
theorem blk1_apply (c : Dev nD) (t : Fin cfg1.N) (y : S512x8x256.Idx) (k : S4096x8x256.Idx)
    (hk0 : (k 0).val = 512 * t.val + (y 0).val) (hk1 : (k 1).val = (y 1).val) (hk2 : (k 2).val = (y 2).val) :
    (blk1 (F := Ideal) V c 0 t : Vec Ideal S512x8x256 .f32) y = (V c main_arg1 : S4096x8x256.Idx → EReal) k := by
  obtain ⟨e0, e1, e2, -, -⟩ := idx_facts1 t
  unfold blk1
  rw [View.read_apply]
  show V c main_arg1 _ = V c main_arg1 _
  congr 1
  funext a
  apply Fin.ext
  match a with
  | ⟨0, _⟩ => show win1_0.index t (0 : Fin 3) * 512 + 1 * (y 0).val = (k 0).val; rw [e0, hk0]; omega
  | ⟨1, _⟩ => show win1_0.index t (1 : Fin 3) * 8 + 1 * (y 1).val = (k 1).val; rw [e1, hk1]; omega
  | ⟨2, _⟩ => show win1_0.index t (2 : Fin 3) * 256 + 1 * (y 2).val = (k 2).val; rw [e2, hk2]; omega

/-- What point `t` writes back is block `t` of the array of unit rows. -/
theorem flushed1_eq (c : Dev nD) (t : Fin cfg1.N) :
    (dat1 (F := Ideal) V c).flushed 1 t = ((cfg1.win 1).blk t).view.read (Elt Ideal) (unitRows1 V c) := by
  obtain ⟨-, -, -, e3, e4⟩ := idx_facts1 t
  show (cfg1.win 1).cut (grid1.coords t) ((dat1 (F := Ideal) V c).after 1 t) = _
  funext j
  have hj0 : (j 0).val < 512 := (j 0).isLt
  have hj1 : (j 1).val < 256 := (j 1).isLt
  show (truncf .bf16 (divf (poolMean (blk1 (F := Ideal) V c 0 t)) (broadcastTo S512x256 (poolLen (blk1 (F := Ideal) V c 0 t))
      broadcasts_S512x1_S512x256)) bitsLt_bf16_f32 : FVec Ideal S512x256 .bf16) ((cfg1.win 1).xinj (grid1.coords t) j)
    = unitRows1 V c (((cfg1.win 1).blk t).view.emb j)
  have h0 : ((((cfg1.win 1).blk t).view.emb j) 0).val = 512 * t.val + (j 0).val := by
    show win1_1.index t (0 : Fin 2) * 512 + 1 * (j 0).val = _; rw [e3]; omega
  have h1 : ((((cfg1.win 1).blk t).view.emb j) 1).val = (j 1).val := by
    show win1_1.index t (1 : Fin 2) * 256 + 1 * (j 1).val = _; rw [e4]; omega
  refine (pool_pay_at (blk1 (F := Ideal) V c 0 t) (batch1 V c) ((((cfg1.win 1).blk t).view.emb j) 0)
    ((cfg1.win 1).xinj (grid1.coords t) j) (fun s d => ?_)).trans ?_
  · exact blk1_apply V c t (ix3 (((cfg1.win 1).xinj (grid1.coords t) j) 0) s d)
      (ix3 ((((cfg1.win 1).blk t).view.emb j) 0) s d) h0 rfl rfl
  · exact congrArg (Cert.Contrast.unitRow (batch1 V c) ((((cfg1.win 1).blk t).view.emb j) 0)) (Fin.ext h1.symm)

/-- An index of the array is in point `t`'s block iff each coordinate is in the block's range on its axis. -/
theorem mem_blk1 (t : Fin cfg1.N) (i : S4096x256.Idx) :
    i ∈ ((cfg1.win 1).blk t).view.set ↔ ∀ a : Fin 2, win1_1.index t a * S512x256.size a ≤ (i a).val
      ∧ (i a).val < win1_1.index t a * S512x256.size a + S512x256.size a := by
  show i ∈ ((View.whole main_v1).slice (win1_1.rect t)).set ↔ _
  rw [View.set_slice_whole, Rect.mem_set_unit]
  exact Iff.rfl

/-- Row `p` of the array is in the block of point `p / 512`. -/
theorem cover1 (i : S4096x256.Idx) :
    ∃ t : Fin cfg1.N, (cfg1.win 1).flush t = true ∧ i ∈ ((cfg1.win 1).blk t).view.set := by
  have hi0 : (i 0).val < 4096 := (i 0).isLt
  have hi1 : (i 1).val < 256 := (i 1).isLt
  have hN : cfg1.N = 8 := N_1
  obtain ⟨t, ht⟩ : ∃ t : Fin cfg1.N, t.val = (i 0).val / 512 := ⟨⟨(i 0).val / 512, by rw [hN]; omega⟩, rfl⟩
  obtain ⟨-, -, -, e3, e4⟩ := idx_facts1 t
  refine ⟨t, flush1_1 t, ?_⟩
  rw [mem_blk1]
  intro a
  match a with
  | ⟨0, _⟩ =>
    show win1_1.index t (0 : Fin 2) * 512 ≤ (i 0).val ∧ (i 0).val < win1_1.index t (0 : Fin 2) * 512 + 512
    rw [e3, ht]; omega
  | ⟨1, _⟩ =>
    show win1_1.index t (1 : Fin 2) * 256 ≤ (i 1).val ∧ (i 1).val < win1_1.index t (1 : Fin 2) * 256 + 256
    rw [e4]; omega

theorem pool1_value (c : Dev nD) (p : Fin 4096) (d : Fin 256) :
    (dat1 (F := Ideal) V c).arrAt 1 cfg1.N (ix2 p d) = Cert.Contrast.unitRow (fun p s d => V c main_arg1 (ix3 p s d)) p d :=
  congrFun ((dat1 (F := Ideal) V c).arrAt_eq_of_cover 1 (unitRows1 V c) (fun t _ => flushed1_eq V c t) (cover1)) (ix2 p d)

end Cert.KernelIdeal.HandValue

end
-- ==== Proof.KV.TileValue.lean ====
import proofs.«128564_j90091234001463_1_alg».proof.Proof.KI.Data
import proofs.«128564_j90091234001463_1_alg».proof.Proof.Contrast
import Idealize.ShloMosaic.Lib.ValueIdx
import Idealize.ShloMosaic.Lib.ValueLayout
import Idealize.ShloMosaic.Lib.Pipeline.Value
import Idealize.ShloMosaic.PureOps.Ideal.Laws

/-!
  One tile of the loss kernel on the extended reals, entry by entry.

  Tile `(I, J)` of the 8 × 8 grid pairs the 512 samples `512·I + r` of the first batch with the 512 samples
  `512·J + q` of the second. For row `r` of the tile the body adds to the three accumulators the tile's share of the
  row's partition sum (`exp` of the similarity, off the global diagonal), of its positive similarities, and of its
  number of positives; and the loss share is (count) · log (partition sum + tiny) − (positive similarities).
-/

noncomputable section

namespace Cert.KernelIdeal.HandValue

open Cert.KernelIdeal Cert.KernelIdeal.Gen Cert.KernelIdeal.Hand
open Idealize.ShloMosaic Idealize.ShloMosaic.ValueIdx

/-- The global sample numbers of row `r` and column `q` of tile `i`. -/
def gRow (i : grid2.Coords) (r : Fin 512) : ℕ := 512 * (i 0).val + r.val
def gCol (i : grid2.Coords) (q : Fin 512) : ℕ := 512 * (i 1).val + q.val

/-- The similarity of the tile's row `r` and column `q`: the inner product of the two unit rows over the temperature. -/
def tSim (ri rj : Vec Ideal S512x256 .bf16) (r q : Fin 512) : EReal :=
  Ideal.div (∑ k : Fin 256, ri (ix2 r k) * rj (ix2 q k)) Cert.Contrast.wTemp

/-- A positive pair of the tile: labelled nonzero, off the global diagonal. -/
def tPos (i : grid2.Coords) (lab : Vec Ideal S512x512 .i32) (r q : Fin 512) : Prop :=
  lab (ix2 r q) ≠ 0#32 ∧ gRow i r ≠ gCol i q

instance (i : grid2.Coords) (lab : Vec Ideal S512x512 .i32) (r q : Fin 512) : Decidable (tPos i lab r q) := by
  unfold tPos; infer_instance

/-! ## Layout and reduction steps at an entry -/

/-- A column cast: the vector's entry `r` sits at row `r` of the one-column matrix. -/
theorem colCast_apply {α : Type} (v : S512.Idx → α) (h : S512.ShapeCasts S512x1) (r : Fin 512) :
    shapeCast S512x1 v h (ix2 r (0 : Fin 1)) = v (ix1 r) := by
  refine shapeCast_apply v h (ix2 r (0 : Fin 1)) (ix1 r) ?_
  rw [Shape.rowMajor_val_one, Shape.rowMajor_val_two]
  show r.val = r.val * 1 + 0
  omega

/-- The sum over the columns of a 512 × 512 matrix, at row `r`. -/
theorem rowSum_apply (x : FVec Ideal S512x512 .f32) (h : S512x512.Reduces [1] S512) (hφ : FKind.Formats .f32)
    (hacc : (0x00000000#32 : BitVec 32) = 0x00000000#32) (r : Fin 512) :
    multiReduction (F := Ideal) .add [1] S512 x 0x00000000#32 h hφ hacc (ix1 r) = ∑ q : Fin 512, x (ix2 r q) := by
  refine (Ideal.multiReduction_add_single x 0x00000000#32 h hφ hacc (ix1 r)).trans ?_
  refine Finset.sum_congr rfl fun q _ => congrArg x ?_
  funext c
  exact Fin.ext (by match c with | ⟨0, _⟩ => rfl | ⟨1, _⟩ => rfl)

/-- An accumulating column: the accumulator's entry at row `r` plus the matrix's sum over row `r`. -/
theorem accum_apply (a : Vec Ideal S512x1 .f32) (x : FVec Ideal S512x512 .f32) (h : S512x512.Reduces [1] S512) (hφ : FKind.Formats .f32)
    (hacc : (0x00000000#32 : BitVec 32) = 0x00000000#32) (h1 : S512.ShapeCasts S512x1) (h2 : S512x1.ShapeCasts S512x1) (r : Fin 512) :
    shapeCast S512x1 (addf a (shapeCast S512x1 (multiReduction (F := Ideal) .add [1] S512 x 0x00000000#32 h hφ hacc) h1)) h2 (ix2 r (0 : Fin 1))
      = a (ix2 r 0) + ∑ q : Fin 512, x (ix2 r q) := by
  rw [shapeCast_self, addf_apply, colCast_apply, rowSum_apply]

/-! ## The matrix product: rows of the first block against rows of the second -/

/-- The left operand's index under output entry `i` and contraction position `q`: row `i 0` … -/
theorem lhs_mm_0 (i : S512x512.Idx) (q : dot_S512x256_S256x512_S512x512_1_0_0_1_n_n.contr.Idx) :
    (dot_S512x256_S256x512_S512x512_1_0_0_1_n_n.lhsIdx i q 0).val = (i 0).val := by
  unfold DotDims.lhsIdx
  rw [dif_neg (show ¬(0 : Fin S512x256.rank) ∈ dot_S512x256_S256x512_S512x512_1_0_0_1_n_n.lhsBatch by decide), dif_pos (show (0 : Fin S512x256.rank) ∈ dot_S512x256_S256x512_S512x512_1_0_0_1_n_n.lhsNonContracting by decide)]
  rfl
/-- … and column the contraction position. -/
theorem lhs_mm_1 (i : S512x512.Idx) (q : dot_S512x256_S256x512_S512x512_1_0_0_1_n_n.contr.Idx) :
    (dot_S512x256_S256x512_S512x512_1_0_0_1_n_n.lhsIdx i q 1).val = (q ⟨0, by decide⟩).val :=
  dot_S512x256_S256x512_S512x512_1_0_0_1_n_n.lhsIdx_val_of_single rfl i q
/-- The right operand's index: row the contraction position … -/
theorem rhs_mm_0 (i : S512x512.Idx) (q : dot_S512x256_S256x512_S512x512_1_0_0_1_n_n.contr.Idx) :
    (dot_S512x256_S256x512_S512x512_1_0_0_1_n_n.rhsIdx i q 0).val = (q ⟨0, by decide⟩).val :=
  dot_S512x256_S256x512_S512x512_1_0_0_1_n_n.rhsIdx_val_of_single rfl i q
/-- … and column `i 1`. -/
theorem rhs_mm_1 (i : S512x512.Idx) (q : dot_S512x256_S256x512_S512x512_1_0_0_1_n_n.contr.Idx) :
    (dot_S512x256_S256x512_S512x512_1_0_0_1_n_n.rhsIdx i q 1).val = (i 1).val := by
  unfold DotDims.rhsIdx
  rw [dif_neg (show ¬(1 : Fin S256x512.rank) ∈ dot_S512x256_S256x512_S512x512_1_0_0_1_n_n.rhsBatch by decide), dif_pos (show (1 : Fin S256x512.rank) ∈ dot_S512x256_S256x512_S512x512_1_0_0_1_n_n.rhsNonContracting by decide)]
  rfl

/-- The matrix product into a zero accumulator, entry `(r, q)`: the inner product of row `r` of the left operand and
    column `q` of the right. -/
theorem mm_apply (x : FVec Ideal S512x256 .bf16) (y : FVec Ideal S256x512 .bf16) (r q : Fin 512) :
    matmul dot_S512x256_S256x512_S512x512_1_0_0_1_n_n none x y (constant (F := Ideal) S512x512 .f32 0x00000000#32) (ix2 r q)
      = ∑ k : Fin 256, x (ix2 r k) * y (ix2 k q) := by
  simp only [matmul]
  rw [Ideal.matmul_constant_zero_apply, ← Equiv.sum_comp (ValueIdx.contrEquiv1 dot_S512x256_S256x512_S512x512_1_0_0_1_n_n 256 rfl rfl).symm]
  refine Finset.sum_congr rfl fun k _ => ?_
  have hk := ValueIdx.contrEquiv1_symm_val dot_S512x256_S256x512_S512x512_1_0_0_1_n_n 256 rfl rfl k
  have el : dot_S512x256_S256x512_S512x512_1_0_0_1_n_n.lhsIdx (ix2 r q) ((ValueIdx.contrEquiv1 dot_S512x256_S256x512_S512x512_1_0_0_1_n_n 256 rfl rfl).symm k) = ix2 r k := funext fun a => Fin.ext (by
    match a with
    | ⟨0, _⟩ => exact lhs_mm_0 _ _
    | ⟨1, _⟩ => exact (lhs_mm_1 _ _).trans hk)
  have er : dot_S512x256_S256x512_S512x512_1_0_0_1_n_n.rhsIdx (ix2 r q) ((ValueIdx.contrEquiv1 dot_S512x256_S256x512_S512x512_1_0_0_1_n_n 256 rfl rfl).symm k) = ix2 k q := funext fun a => Fin.ext (by
    match a with
    | ⟨0, _⟩ => exact (rhs_mm_0 _ _).trans hk
    | ⟨1, _⟩ => exact rhs_mm_1 _ _)
  rw [el, er]

/-- The tile's similarity matrix at `(r, q)`: the second block enters transposed, so the product pairs row `r` of the
    first block with row `q` of the second; the quotient by the temperature is entrywise. -/
theorem pay7_apply (ri rj : Vec Ideal S512x256 .bf16) (r q : Fin 512) :
    k2_pay7 ri rj (ix2 r q) = tSim ri rj r q := by
  unfold k2_pay7 tSim
  simp only [shapeCast_self]
  rw [divf_apply, mm_apply, broadcast_apply]
  refine congrArg₂ Ideal.div (Finset.sum_congr rfl fun k _ => ?_) rfl
  rw [transpose_ix2_apply]

/-! ## The two masks -/

/-- Two numbers below 2³² are equal when their 32-bit words are. -/
theorem word_inj (a b : ℕ) (ha : a < 2 ^ 32) (hb : b < 2 ^ 32) (h : BitVec.ofNat 32 a = BitVec.ofNat 32 b) : a = b := by
  have := congrArg BitVec.toNat h
  rw [BitVec.toNat_ofNat, BitVec.toNat_ofNat, Nat.mod_eq_of_lt ha, Nat.mod_eq_of_lt hb] at this
  exact this

/-- The word of a global sample number: the tile's number times 512 plus the offset in the tile (as words; no bound is
    needed for this equation, sums and products of words being those of the numbers modulo 2³²). -/
theorem gWord (a r : ℕ) : IntOp.addi (Scalar.muli (BitVec.ofNat 32 a) 512#32) (BitVec.ofNat 32 r) = BitVec.ofNat 32 (512 * a + r) := by
  show BitVec.ofNat 32 a * BitVec.ofNat 32 512 + BitVec.ofNat 32 r = _
  rw [BitVec.ofNat_add, BitVec.ofNat_mul, BitVec.mul_comm]

/-- A truth value's bit is set exactly when it is true. -/
theorem ofBool_one (b : Bool) : BitVec.ofBool b = 1#1 ↔ b = true := by cases b <;> decide

/-- The equality comparison's bit is set exactly when the words are equal … -/
theorem cmpi_eq_one {w : ℕ} {a b : BitVec w} : IntOp.cmpi .eq a b = 1#1 ↔ a = b := by
  simp only [IntOp.cmpi, ofBool_one, beq_iff_eq]

/-- … and the inequality comparison's exactly when they differ. -/
theorem cmpi_ne_one {w : ℕ} {a b : BitVec w} : IntOp.cmpi .ne a b = 1#1 ↔ a ≠ b := by
  simp only [IntOp.cmpi, ofBool_one, bne_iff_ne]

/-- The diagonal mask at `(r, q)`: set exactly when the two global sample numbers agree. Both numbers are below
    4096 = 8 · 512, so their words determine them. -/
theorem pay8_apply (i : grid2.Coords) (r q : Fin 512) :
    k2_pay8 i (ix2 r q) = if gRow i r = gCol i q then 1#1 else 0#1 := by
  unfold k2_pay8
  show IntOp.cmpi .eq (IntOp.addi (Scalar.muli (BitVec.ofNat 32 (i 0).val) 512#32) (iota .tc S512x512 32 [0] iota_S512x512_d0_w32 (ix2 r q)))
        (IntOp.addi (Scalar.muli (BitVec.ofNat 32 (i 1).val) 512#32) (iota .tc S512x512 32 [1] iota_S512x512_d1_w32 (ix2 r q))) = _
  rw [iota_single_apply, iota_single_apply]
  show IntOp.cmpi .eq (IntOp.addi (Scalar.muli (BitVec.ofNat 32 (i 0).val) 512#32) (BitVec.ofNat 32 r.val))
        (IntOp.addi (Scalar.muli (BitVec.ofNat 32 (i 1).val) 512#32) (BitVec.ofNat 32 q.val)) = _
  rw [gWord, gWord]
  have h0 : (i 0).val < 8 := (i 0).isLt
  have h1 : (i 1).val < 8 := (i 1).isLt
  have hr := r.isLt
  have hq := q.isLt
  unfold gRow gCol
  by_cases h : 512 * (i 0).val + r.val = 512 * (i 1).val + q.val
  · rw [if_pos h, h]; exact cmpi_eq_one.2 rfl
  · rw [if_neg h]
    refine eq_zero_of_ne_one fun hc => h ?_
    exact word_inj _ _ (by omega) (by omega) (cmpi_eq_one.1 hc)

/-- The positive-pair mask at `(r, q)`: the label differs from zero and the diagonal mask, complemented, is set. -/
theorem pay9_apply (i : grid2.Coords) (lab : Vec Ideal S512x512 .i32) (r q : Fin 512) :
    k2_pay9 (F := Ideal) i lab (ix2 r q) = if tPos i lab r q then 1#1 else 0#1 := by
  unfold k2_pay9
  show IntOp.andi (IntOp.cmpi .ne (lab (ix2 r q)) 0#32) (IntOp.xori (k2_pay8 i (ix2 r q)) 1#1) = _
  rw [pay8_apply]
  by_cases hl : lab (ix2 r q) = 0#32
  · have hc : IntOp.cmpi .ne (lab (ix2 r q)) 0#32 = 0#1 := eq_zero_of_ne_one fun hc => cmpi_ne_one.1 hc hl
    rw [hc, if_neg (fun h : tPos i lab r q => h.1 hl)]
    exact BitVec.zero_and
  · have hc : IntOp.cmpi .ne (lab (ix2 r q)) 0#32 = 1#1 := cmpi_ne_one.2 hl
    rw [hc]
    by_cases hd : gRow i r = gCol i q
    · rw [if_pos hd, if_neg (fun h : tPos i lab r q => h.2 hd)]; decide
    · rw [if_neg hd, if_pos (show tPos i lab r q from ⟨hl, hd⟩)]; decide

/-! ## The three accumulating columns -/

/-- The partition-sum column: the accumulator plus, over the row, `exp` of the similarity off the global diagonal and
    `0` on it. -/
theorem pay10_apply (i : grid2.Coords) (ri rj : Vec Ideal S512x256 .bf16) (a : Vec Ideal S512x1 .f32) (r : Fin 512) :
    k2_pay10 i ri rj a (ix2 r 0)
      = a (ix2 r 0) + ∑ q : Fin 512, if gRow i r = gCol i q then (0 : EReal) else Ideal.exp (tSim ri rj r q) := by
  unfold k2_pay10
  refine (accum_apply a _ _ _ _ _ _ r).trans ?_
  refine congrArg (a (ix2 r 0) + ·) (Finset.sum_congr rfl fun q _ => ?_)
  rw [select_apply, pay8_apply, broadcast_apply]
  show Scalar.select _ (Ideal.ofBits .f32 0x00000000#32) (Ideal.exp (k2_pay7 ri rj (ix2 r q))) = _
  rw [pay7_apply]
  by_cases h : gRow i r = gCol i q
  · rw [if_pos h, if_pos h, select_one]; exact Ideal.ofBits_zero_f32
  · rw [if_neg h, if_neg h, select_zero]

/-- The positive-similarity column: the accumulator plus, over the row, the similarity at the positive pairs. -/
theorem pay1_apply (i : grid2.Coords) (ri rj : Vec Ideal S512x256 .bf16) (lab : Vec Ideal S512x512 .i32) (a : Vec Ideal S512x1 .f32) (r : Fin 512) :
    k2_pay1 (k2_pay7 ri rj) (k2_pay9 (F := Ideal) i lab) a (ix2 r 0)
      = a (ix2 r 0) + ∑ q : Fin 512, if tPos i lab r q then tSim ri rj r q else (0 : EReal) := by
  unfold k2_pay1
  refine (accum_apply a _ _ _ _ _ _ r).trans ?_
  refine congrArg (a (ix2 r 0) + ·) (Finset.sum_congr rfl fun q _ => ?_)
  rw [select_apply, pay9_apply, pay7_apply, broadcast_apply]
  show Scalar.select _ _ (Ideal.ofBits .f32 0x00000000#32) = _
  by_cases h : tPos i lab r q
  · rw [if_pos h, if_pos h, select_one]
  · rw [if_neg h, if_neg h, select_zero]; exact Ideal.ofBits_zero_f32

/-- The count column: the accumulator plus, over the row, the mask's bit read as the integer 1 or 0. -/
theorem pay2_apply (i : grid2.Coords) (lab : Vec Ideal S512x512 .i32) (a : Vec Ideal S512x1 .f32) (r : Fin 512) :
    k2_pay2 (k2_pay9 (F := Ideal) i lab) a (ix2 r 0)
      = a (ix2 r 0) + ∑ q : Fin 512, if tPos i lab r q then (1 : EReal) else 0 := by
  unfold k2_pay2
  refine (accum_apply a _ _ _ _ _ _ r).trans ?_
  refine congrArg (a (ix2 r 0) + ·) (Finset.sum_congr rfl fun q _ => ?_)
  rw [sitofp_apply, extui_apply, pay9_apply]
  show ((((if tPos i lab r q then 1#1 else 0#1 : BitVec 1).setWidth 32).toInt : ℝ) : EReal) = _
  by_cases h : tPos i lab r q
  · rw [if_pos h, if_pos h]
    have : ((1#1 : BitVec 1).setWidth 32).toInt = 1 := by decide
    rw [this]; simp
  · rw [if_neg h, if_neg h]
    have : ((0#1 : BitVec 1).setWidth 32).toInt = 0 := by decide
    rw [this]; simp

/-! ## The statements about a tile -/

theorem accZero_apply (r : Fin 512) :
    (accZero (F := Ideal)).1 (ix2 r 0) = 0 ∧ (accZero (F := Ideal)).2.1 (ix2 r 0) = 0 ∧ (accZero (F := Ideal)).2.2 (ix2 r 0) = 0 := by
  refine ⟨?_, ?_, ?_⟩
  · show k2_pay4 (F := Ideal) (ix2 r 0) = 0
    unfold k2_pay4
    rw [shapeCast_self]
    exact Ideal.ofBits_zero_f32
  · show k2_pay5 (F := Ideal) (ix2 r 0) = 0
    unfold k2_pay5
    rw [shapeCast_self]
    exact Ideal.ofBits_zero_f32
  · show k2_pay6 (F := Ideal) (ix2 r 0) = 0
    unfold k2_pay6
    rw [shapeCast_self]
    exact Ideal.ofBits_zero_f32

theorem step_den (i : grid2.Coords) (ri rj : Vec Ideal S512x256 .bf16) (lab : Vec Ideal S512x512 .i32) (a : Acc Ideal) (r : Fin 512) :
    (stepOf i ri rj lab a).1 (ix2 r 0)
      = a.1 (ix2 r 0) + ∑ q : Fin 512, if gRow i r = gCol i q then (0 : EReal) else Ideal.exp (tSim ri rj r q) := by
  exact pay10_apply i ri rj a.1 r

theorem step_pos (i : grid2.Coords) (ri rj : Vec Ideal S512x256 .bf16) (lab : Vec Ideal S512x512 .i32) (a : Acc Ideal) (r : Fin 512) :
    (stepOf i ri rj lab a).2.1 (ix2 r 0)
      = a.2.1 (ix2 r 0) + ∑ q : Fin 512, if tPos i lab r q then tSim ri rj r q else (0 : EReal) := by
  exact pay1_apply i ri rj lab a.2.1 r

theorem step_cnt (i : grid2.Coords) (ri rj : Vec Ideal S512x256 .bf16) (lab : Vec Ideal S512x512 .i32) (a : Acc Ideal) (r : Fin 512) :
    (stepOf i ri rj lab a).2.2 (ix2 r 0)
      = a.2.2 (ix2 r 0) + ∑ q : Fin 512, if tPos i lab r q then (1 : EReal) else 0 := by
  exact pay2_apply i lab a.2.2 r

theorem lossOf_apply (a : Acc Ideal) (r : Fin 512) :
    lossOf a (ix2 r 0) = a.2.2 (ix2 r 0) * Ideal.log (a.1 (ix2 r 0) + Cert.Contrast.wTiny) - a.2.1 (ix2 r 0) := by
  unfold lossOf k2_pay3
  rfl

end Cert.KernelIdeal.HandValue

end
-- ==== Proof.KV.LossValue.lean ====
import proofs.«128564_j90091234001463_1_alg».proof.Proof.KV.TileValue
import Idealize.ShloMosaic.Lib.ValueIdx
import Idealize.ShloMosaic.Lib.ValueLayout
import Idealize.ShloMosaic.Lib.Pipeline.Value
import Idealize.ShloMosaic.PureOps.Ideal.Laws
import Mathlib.Data.Fintype.BigOperators
import Mathlib.Logic.Equiv.Fin.Basic

/-! What pipeline 2 leaves in its two output columns, entry by entry on the extended reals: entry `p` of the first is
    row `p`'s loss share, of the second its number of positive pairs, over the two arrays of unit rows and the label
    table the pipeline is entered with.

    Tile `(I, J)` of the 8 × 8 grid pairs samples `512·I + r` of the first array with samples `512·J + q` of the second.
    Along a tile row the three accumulators gather, tile by tile, the shares of the row's partition sum, of its positive
    similarities and of its count; the 4096 samples being the 8 tiles of 512, after the row's last tile they hold the
    sums over all samples; the stored loss share is then (count) · log (partition sum + tiny) − (positive similarities).
    Only the last tile of each tile row is written back, and those eight blocks fill each output column. -/

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem

-- the core's buffer contents when a pipeline is entered, on the extended reals
variable (V : (c : Dev nD) → (b : Ref sig .tc) → Buf (Elt Ideal) ((c : Thread nD τ).loc b))

namespace Loss

/-! ## The grid and the windows' block indices -/

/-- Point `t` of the 8 × 8 grid is tile (`t / 8`, `t % 8`). -/
theorem coords2 : ∀ t : Fin grid2.N, (grid2.coords t 0).val = t.val / 8 ∧ (grid2.coords t 1).val = t.val % 8 :=
  (by decide +kernel : ∀ t : Fin grid2.N, (grid2.coords t 0).val = t.val / 8 ∧ (grid2.coords t 1).val = t.val % 8)

/-- The block indices of the five windows at point `t`. -/
theorem idx2 : ∀ t : Fin cfg2.N,
    win2_0.index t (0 : Fin 2) = t.val / 8 ∧ win2_0.index t (1 : Fin 2) = 0
    ∧ win2_1.index t (0 : Fin 2) = t.val % 8 ∧ win2_1.index t (1 : Fin 2) = 0
    ∧ win2_2.index t (0 : Fin 2) = t.val / 8 ∧ win2_2.index t (1 : Fin 2) = t.val % 8
    ∧ win2_3.index t (0 : Fin 2) = t.val / 8 ∧ win2_3.index t (1 : Fin 2) = 0
    ∧ win2_4.index t (0 : Fin 2) = t.val / 8 ∧ win2_4.index t (1 : Fin 2) = 0 :=
  (by decide +kernel : ∀ t : Fin grid2.N, _)

/-! ## The three input blocks as parts of the arrays -/

theorem blk_rowsA (c : Dev nD) (t : Fin cfg2.N) (r : Fin 512) (k : Fin 256) (p : Fin 4096)
    (hp : p.val = 512 * (t.val / 8) + r.val) :
    (blk2 V c 0 t : Vec Ideal S512x256 .bf16) (ix2 r k) = V c main_v0 (ix2 p k) := by
  obtain ⟨e0, e1, -⟩ := idx2 t
  unfold blk2
  rw [View.read_apply]
  show V c main_v0 _ = V c main_v0 _
  congr 1
  funext a
  apply Fin.ext
  match a with
  | ⟨0, _⟩ => show win2_0.index t (0 : Fin 2) * 512 + 1 * r.val = p.val; omega
  | ⟨1, _⟩ => show win2_0.index t (1 : Fin 2) * 256 + 1 * k.val = k.val; omega

theorem blk_rowsB (c : Dev nD) (t : Fin cfg2.N) (q : Fin 512) (k : Fin 256) (p : Fin 4096)
    (hp : p.val = 512 * (t.val % 8) + q.val) :
    (blk2 V c 1 t : Vec Ideal S512x256 .bf16) (ix2 q k) = V c main_v1 (ix2 p k) := by
  obtain ⟨-, -, e0, e1, -⟩ := idx2 t
  unfold blk2
  rw [View.read_apply]
  show V c main_v1 _ = V c main_v1 _
  congr 1
  funext a
  apply Fin.ext
  match a with
  | ⟨0, _⟩ => show win2_1.index t (0 : Fin 2) * 512 + 1 * q.val = p.val; omega
  | ⟨1, _⟩ => show win2_1.index t (1 : Fin 2) * 256 + 1 * k.val = k.val; omega

theorem blk_labels (c : Dev nD) (t : Fin cfg2.N) (r q : Fin 512) (p p' : Fin 4096)
    (hp : p.val = 512 * (t.val / 8) + r.val) (hp' : p'.val = 512 * (t.val % 8) + q.val) :
    (blk2 V c 2 t : Vec Ideal S512x512 .i32) (ix2 r q) = V c main_arg2 (ix2 p p') := by
  obtain ⟨-, -, -, -, e0, e1, -⟩ := idx2 t
  unfold blk2
  rw [View.read_apply]
  show V c main_arg2 _ = V c main_arg2 _
  congr 1
  funext a
  apply Fin.ext
  match a with
  | ⟨0, _⟩ => show win2_2.index t (0 : Fin 2) * 512 + 1 * r.val = p.val; omega
  | ⟨1, _⟩ => show win2_2.index t (1 : Fin 2) * 512 + 1 * q.val = p'.val; omega

/-! ## Samples by tile -/

/-- Sample `512·i + r` of the 4096 (taken modulo 4096, so that it is defined for every `i`). -/
def samp (i : ℕ) (r : Fin 512) : Fin 4096 := ⟨(512 * i + r.val) % 4096, Nat.mod_lt _ (by decide)⟩

theorem samp_val (i : ℕ) (hi : i < 8) (r : Fin 512) : (samp i r).val = 512 * i + r.val := by
  show (512 * i + r.val) % 4096 = _
  have := r.isLt
  omega

theorem samp_eq_iff (i j : ℕ) (hi : i < 8) (hj : j < 8) (r q : Fin 512) :
    samp i r = samp j q ↔ 512 * i + r.val = 512 * j + q.val := by
  rw [Fin.ext_iff, samp_val i hi, samp_val j hj]

/-- The 4096 samples are the 8 tiles of 512: a sum over all of them is the sum over the tiles of the sums over each. -/
theorem sum_tiles (f : Fin 4096 → EReal) : ∑ j ∈ Finset.range 8, ∑ q : Fin 512, f (samp j q) = ∑ q : Fin 4096, f q := by
  rw [Finset.sum_range (fun j => ∑ q : Fin 512, f (samp j q))]
  have e := (finProdFinEquiv (m := 8) (n := 512)).sum_comp f
  rw [← e, Fintype.sum_prod_type]
  refine Finset.sum_congr rfl fun j _ => Finset.sum_congr rfl fun q _ => congrArg f (Fin.ext ?_)
  show (512 * j.val + q.val) % 4096 = q.val + 512 * j.val
  have := j.isLt
  have := q.isLt
  omega

/-! ## The arrays by coordinates, and one tile's shares of a row's three sums -/

abbrev rowsA (c : Dev nD) : Fin 4096 → Fin 256 → EReal := fun p k => V c main_v0 (ix2 p k)
abbrev rowsB (c : Dev nD) : Fin 4096 → Fin 256 → EReal := fun q k => V c main_v1 (ix2 q k)
abbrev labels (c : Dev nD) : Fin 4096 → Fin 4096 → BitVec 32 := fun p q => V c main_arg2 (ix2 p q)

/-- Tile `(I, j)`'s share of the partition sum of its row `r`. -/
def dTile (c : Dev nD) (I j : ℕ) (r : Fin 512) : EReal :=
  ∑ q : Fin 512, Cert.Contrast.expOff (rowsA V c) (rowsB V c) (samp I r) (samp j q)

/-- Its share of the row's positive similarities. -/
def pTile (c : Dev nD) (I j : ℕ) (r : Fin 512) : EReal :=
  ∑ q : Fin 512, if Cert.Contrast.IsPos (labels V c) (samp I r) (samp j q)
    then Cert.Contrast.sim (rowsA V c) (rowsB V c) (samp I r) (samp j q) else 0

/-- Its share of the row's number of positives. -/
def cTile (c : Dev nD) (I j : ℕ) (r : Fin 512) : EReal :=
  ∑ q : Fin 512, if Cert.Contrast.IsPos (labels V c) (samp I r) (samp j q) then (1 : EReal) else 0

theorem lt64 (t : Fin cfg2.N) : t.val < 64 := lt_of_lt_of_eq t.isLt N_2

/-- The tile's similarity is the similarity of the two samples. -/
theorem tSim_blk (c : Dev nD) (t : Fin cfg2.N) (r q : Fin 512) :
    tSim (blk2 V c 0 t) (blk2 V c 1 t) r q
      = Cert.Contrast.sim (rowsA V c) (rowsB V c) (samp (t.val / 8) r) (samp (t.val % 8) q) := by
  have ht := lt64 t
  unfold tSim Cert.Contrast.sim
  congr 1
  refine Finset.sum_congr rfl fun k _ => ?_
  rw [blk_rowsA V c t r k (samp (t.val / 8) r) (samp_val _ (by omega) r),
    blk_rowsB V c t q k (samp (t.val % 8) q) (samp_val _ (by omega) q)]

/-- The tile's diagonal is the global diagonal. -/
theorem diag_blk (t : Fin cfg2.N) (r q : Fin 512) :
    gRow (grid2.coords t) r = gCol (grid2.coords t) q ↔ samp (t.val / 8) r = samp (t.val % 8) q := by
  have ht := lt64 t
  obtain ⟨h0, h1⟩ := coords2 t
  unfold gRow gCol
  rw [h0, h1, samp_eq_iff _ _ (by omega) (by omega)]

/-- The tile's positive pairs are the positive pairs of the two samples. -/
theorem tPos_blk (c : Dev nD) (t : Fin cfg2.N) (r q : Fin 512) :
    tPos (grid2.coords t) (blk2 V c 2 t) r q
      ↔ Cert.Contrast.IsPos (labels V c) (samp (t.val / 8) r) (samp (t.val % 8) q) := by
  have ht := lt64 t
  unfold tPos Cert.Contrast.IsPos
  rw [blk_labels V c t r q (samp (t.val / 8) r) (samp (t.val % 8) q) (samp_val _ (by omega) r) (samp_val _ (by omega) q)]
  exact and_congr Iff.rfl (not_congr (diag_blk t r q))

/-! ## One point's step on the three accumulators -/

theorem accStep_den (c : Dev nD) (t : Fin cfg2.N) (I J : ℕ) (hI : I = t.val / 8) (hJ : J = t.val % 8) (a : Acc Ideal) (r : Fin 512) :
    (accStep V c t a).1 (ix2 r 0) = a.1 (ix2 r 0) + dTile V c I J r := by
  subst hI hJ
  unfold accStep
  refine (step_den (grid2.coords t) (blk2 V c 0 t) (blk2 V c 1 t) (blk2 V c 2 t) a r).trans ?_
  congr 1
  refine Finset.sum_congr rfl fun q _ => ?_
  rw [tSim_blk V c t r q]
  unfold Cert.Contrast.expOff
  exact if_congr (diag_blk t r q) rfl rfl

theorem accStep_pos (c : Dev nD) (t : Fin cfg2.N) (I J : ℕ) (hI : I = t.val / 8) (hJ : J = t.val % 8) (a : Acc Ideal) (r : Fin 512) :
    (accStep V c t a).2.1 (ix2 r 0) = a.2.1 (ix2 r 0) + pTile V c I J r := by
  subst hI hJ
  unfold accStep
  refine (step_pos (grid2.coords t) (blk2 V c 0 t) (blk2 V c 1 t) (blk2 V c 2 t) a r).trans ?_
  congr 1
  refine Finset.sum_congr rfl fun q _ => ?_
  rw [tSim_blk V c t r q]
  exact if_congr (tPos_blk V c t r q) rfl rfl

theorem accStep_cnt (c : Dev nD) (t : Fin cfg2.N) (I J : ℕ) (hI : I = t.val / 8) (hJ : J = t.val % 8) (a : Acc Ideal) (r : Fin 512) :
    (accStep V c t a).2.2 (ix2 r 0) = a.2.2 (ix2 r 0) + cTile V c I J r := by
  subst hI hJ
  unfold accStep
  refine (step_cnt (grid2.coords t) (blk2 V c 0 t) (blk2 V c 1 t) (blk2 V c 2 t) a r).trans ?_
  congr 1
  exact Finset.sum_congr rfl fun q _ => if_congr (tPos_blk V c t r q) rfl rfl

/-! ## The accumulators along a tile row -/

theorem accAt_reset (c : Dev nD) (n : ℕ) (h : n < cfg2.N) (hn : n % 8 = 0) :
    accAt V c n h = accStep V c ⟨n, h⟩ accZero := by
  cases n with
  | zero => rfl
  | succ n =>
    show accStep V c ⟨n + 1, h⟩ (if (n + 1) % 8 = 0 then accZero else accAt V c n _) = _
    rw [if_pos hn]

theorem accAt_step (c : Dev nD) (n : ℕ) (h : n + 1 < cfg2.N) (hn : ¬(n + 1) % 8 = 0) :
    accAt V c (n + 1) h = accStep V c ⟨n + 1, h⟩ (accAt V c n (Nat.lt_of_succ_lt h)) := by
  show accStep V c ⟨n + 1, h⟩ (if (n + 1) % 8 = 0 then accZero else accAt V c n _) = _
  rw [if_neg hn]

/-- After tile `(I, J)` the three accumulators hold, for row `r` of the tile row, the sums of the shares of tiles
    `(I, 0) … (I, J)`. -/
theorem accAt_value (c : Dev nD) (I : ℕ) (hI : I < 8) : ∀ (J : ℕ) (hJ : J < 8) (h : 8 * I + J < cfg2.N) (r : Fin 512),
    (accAt V c (8 * I + J) h).1 (ix2 r 0) = ∑ j ∈ Finset.range (J + 1), dTile V c I j r
    ∧ (accAt V c (8 * I + J) h).2.1 (ix2 r 0) = ∑ j ∈ Finset.range (J + 1), pTile V c I j r
    ∧ (accAt V c (8 * I + J) h).2.2 (ix2 r 0) = ∑ j ∈ Finset.range (J + 1), cTile V c I j r
  | 0, _, h, r => by
    obtain ⟨z0, z1, z2⟩ := accZero_apply r
    rw [accAt_reset V c (8 * I + 0) h (by omega)]
    rw [accStep_den V c ⟨8 * I + 0, h⟩ I 0 (by dsimp only; omega) (by dsimp only; omega) accZero r,
      accStep_pos V c ⟨8 * I + 0, h⟩ I 0 (by dsimp only; omega) (by dsimp only; omega) accZero r,
      accStep_cnt V c ⟨8 * I + 0, h⟩ I 0 (by dsimp only; omega) (by dsimp only; omega) accZero r,
      z0, z1, z2, zero_add (dTile V c I 0 r), zero_add (pTile V c I 0 r), zero_add (cTile V c I 0 r)]
    exact ⟨(Finset.sum_range_one (fun j => dTile V c I j r)).symm, (Finset.sum_range_one (fun j => pTile V c I j r)).symm,
      (Finset.sum_range_one (fun j => cTile V c I j r)).symm⟩
  | J + 1, hJ, h, r => by
    obtain ⟨i0, i1, i2⟩ := accAt_value c I hI J (by omega) (Nat.lt_of_succ_lt h) r
    show (accAt V c (8 * I + J + 1) h).1 (ix2 r 0) = _ ∧ (accAt V c (8 * I + J + 1) h).2.1 (ix2 r 0) = _
      ∧ (accAt V c (8 * I + J + 1) h).2.2 (ix2 r 0) = _
    rw [accAt_step V c (8 * I + J) h (by omega)]
    rw [accStep_den V c ⟨8 * I + J + 1, h⟩ I (J + 1) (by dsimp only; omega) (by dsimp only; omega) _ r,
      accStep_pos V c ⟨8 * I + J + 1, h⟩ I (J + 1) (by dsimp only; omega) (by dsimp only; omega) _ r,
      accStep_cnt V c ⟨8 * I + J + 1, h⟩ I (J + 1) (by dsimp only; omega) (by dsimp only; omega) _ r,
      i0, i1, i2]
    exact ⟨(Finset.sum_range_succ (fun j => dTile V c I j r) (J + 1)).symm, (Finset.sum_range_succ (fun j => pTile V c I j r) (J + 1)).symm,
      (Finset.sum_range_succ (fun j => cTile V c I j r) (J + 1)).symm⟩

/-- After a tile row's last tile the accumulators hold the row's partition sum, positive-similarity sum and count. -/
theorem accAt_last (c : Dev nD) (t : Fin cfg2.N) (h7 : t.val % 8 = 7) (r : Fin 512) :
    (accAt V c t.val t.isLt).1 (ix2 r 0) = Cert.Contrast.den (rowsA V c) (rowsB V c) (samp (t.val / 8) r)
    ∧ (accAt V c t.val t.isLt).2.1 (ix2 r 0) = Cert.Contrast.posSum (rowsA V c) (rowsB V c) (labels V c) (samp (t.val / 8) r)
    ∧ (accAt V c t.val t.isLt).2.2 (ix2 r 0) = Cert.Contrast.cntRow (labels V c) (samp (t.val / 8) r) := by
  have ht := lt64 t
  have e : t.val = 8 * (t.val / 8) + 7 := by omega
  have same : ∀ (n : ℕ) (hn : n < cfg2.N), n = t.val → accAt V c n hn = accAt V c t.val t.isLt := fun n hn e => by subst e; rfl
  have hh : 8 * (t.val / 8) + 7 < cfg2.N := by rw [← e]; exact t.isLt
  obtain ⟨i0, i1, i2⟩ := accAt_value V c (t.val / 8) (by omega) 7 (by omega) hh r
  rw [same _ hh e.symm] at i0 i1 i2
  refine ⟨i0.trans ?_, i1.trans ?_, i2.trans ?_⟩
  · exact sum_tiles (fun q => Cert.Contrast.expOff (rowsA V c) (rowsB V c) (samp (t.val / 8) r) q)
  · exact sum_tiles (fun q => if Cert.Contrast.IsPos (labels V c) (samp (t.val / 8) r) q
      then Cert.Contrast.sim (rowsA V c) (rowsB V c) (samp (t.val / 8) r) q else 0)
  · exact sum_tiles (fun q => if Cert.Contrast.IsPos (labels V c) (samp (t.val / 8) r) q then (1 : EReal) else 0)

/-! ## The two output columns -/

/-- The column of loss shares and the column of counts. -/
abbrev lossCol (c : Dev nD) : S4096x1.Idx → EReal :=
  fun i => Cert.Contrast.rowLoss (rowsA V c) (rowsB V c) (labels V c) (i 0)
abbrev cntCol (c : Dev nD) : S4096x1.Idx → EReal := fun i => Cert.Contrast.cntRow (labels V c) (i 0)

/-- What a tile row's last point stores for row `r`: the loss share and the count of sample `512·I + r`. -/
theorem loss_row (c : Dev nD) (t : Fin cfg2.N) (h7 : t.val % 8 = 7) (r : Fin 512) (p : Fin 4096)
    (hp : p.val = 512 * (t.val / 8) + r.val) :
    lossOf (accAt V c t.val t.isLt) (ix2 r 0) = Cert.Contrast.rowLoss (rowsA V c) (rowsB V c) (labels V c) p := by
  have ht := lt64 t
  obtain rfl : p = samp (t.val / 8) r := Fin.ext (hp.trans (samp_val _ (by omega) r).symm)
  obtain ⟨i0, i1, i2⟩ := accAt_last V c t h7 r
  rw [lossOf_apply, i0, i1, i2]
  rfl

theorem cnt_row (c : Dev nD) (t : Fin cfg2.N) (h7 : t.val % 8 = 7) (r : Fin 512) (p : Fin 4096)
    (hp : p.val = 512 * (t.val / 8) + r.val) :
    (accAt V c t.val t.isLt).2.2 (ix2 r 0) = Cert.Contrast.cntRow (labels V c) p := by
  have ht := lt64 t
  obtain rfl : p = samp (t.val / 8) r := Fin.ext (hp.trans (samp_val _ (by omega) r).symm)
  exact (accAt_last V c t h7 r).2.2

/-- What a flushing point writes back to the first output is its block of the column of loss shares. -/
theorem flushed3_eq (c : Dev nD) (t : Fin cfg2.N) (hf : (cfg2.win 3).flush t = true) :
    (dat2 (F := Ideal) V c).flushed 3 t = ((cfg2.win 3).blk t).view.read (Elt Ideal) (lossCol V c) := by
  have h7 : t.val % 8 = 7 := (flush2_3 t).mp hf
  obtain ⟨-, -, -, -, -, -, e0, e1, -⟩ := idx2 t
  show (cfg2.win 3).cut (grid2.coords t) ((dat2 (F := Ideal) V c).after 3 t) = _
  refine funext fun (y : S512x1.Idx) => ?_
  obtain ⟨r, z, rfl⟩ : ∃ (r : Fin 512) (z : Fin 1), y = ix2 r z := ⟨y 0, y 1, eq_ix2 y⟩
  obtain rfl : z = 0 := Subsingleton.elim _ _
  rw [View.read_apply]
  show lossOf (accAt V c t.val t.isLt) (ix2 r 0) = lossCol V c (((cfg2.win 3).blk t).view.emb (ix2 r 0))
  refine loss_row V c t h7 r _ ?_
  show win2_3.index t (0 : Fin 2) * 512 + 1 * r.val = _
  omega

theorem flushed4_eq (c : Dev nD) (t : Fin cfg2.N) (hf : (cfg2.win 4).flush t = true) :
    (dat2 (F := Ideal) V c).flushed 4 t = ((cfg2.win 4).blk t).view.read (Elt Ideal) (cntCol V c) := by
  have h7 : t.val % 8 = 7 := (flush2_4 t).mp hf
  obtain ⟨-, -, -, -, -, -, -, -, e0, e1⟩ := idx2 t
  show (cfg2.win 4).cut (grid2.coords t) ((dat2 (F := Ideal) V c).after 4 t) = _
  refine funext fun (y : S512x1.Idx) => ?_
  obtain ⟨r, z, rfl⟩ : ∃ (r : Fin 512) (z : Fin 1), y = ix2 r z := ⟨y 0, y 1, eq_ix2 y⟩
  obtain rfl : z = 0 := Subsingleton.elim _ _
  rw [View.read_apply]
  show (accAt V c t.val t.isLt).2.2 (ix2 r 0) = cntCol V c (((cfg2.win 4).blk t).view.emb (ix2 r 0))
  refine cnt_row V c t h7 r _ ?_
  show win2_4.index t (0 : Fin 2) * 512 + 1 * r.val = _
  omega

/-- An index of an output column is in point `t`'s block iff each coordinate is in the block's range on its axis. -/
theorem mem_blk3 (t : Fin cfg2.N) (i : S4096x1.Idx) :
    i ∈ ((cfg2.win 3).blk t).view.set ↔ ∀ a : Fin 2, win2_3.index t a * S512x1.size a ≤ (i a).val ∧ (i a).val < win2_3.index t a * S512x1.size a + S512x1.size a := by
  show i ∈ ((View.whole main_v2_0).slice (win2_3.rect t)).set ↔ _
  rw [View.set_slice_whole, Rect.mem_set_unit]
  exact Iff.rfl

theorem mem_blk4 (t : Fin cfg2.N) (i : S4096x1.Idx) :
    i ∈ ((cfg2.win 4).blk t).view.set ↔ ∀ a : Fin 2, win2_4.index t a * S512x1.size a ≤ (i a).val ∧ (i a).val < win2_4.index t a * S512x1.size a + S512x1.size a := by
  show i ∈ ((View.whole main_v2_1).slice (win2_4.rect t)).set ↔ _
  rw [View.set_slice_whole, Rect.mem_set_unit]
  exact Iff.rfl

/-- Row `p` of an output column is written back at the last tile of its tile row, point `8·(p / 512) + 7`. -/
theorem cover3 (i : S4096x1.Idx) : ∃ t : Fin cfg2.N, (cfg2.win 3).flush t = true ∧ i ∈ ((cfg2.win 3).blk t).view.set := by
  have hi0 : (i 0).val < 4096 := (i 0).isLt
  have hi1 : (i 1).val < 1 := (i 1).isLt
  have hN : cfg2.N = 64 := N_2
  refine ⟨⟨8 * ((i 0).val / 512) + 7, by rw [hN]; omega⟩, (flush2_3 _).mpr (by dsimp only; omega), ?_⟩
  obtain ⟨-, -, -, -, -, -, e0, e1, -⟩ := idx2 ⟨8 * ((i 0).val / 512) + 7, by rw [hN]; omega⟩
  dsimp only at e0 e1
  rw [mem_blk3]
  intro a
  match a with
  | ⟨0, _⟩ =>
    show win2_3.index _ (0 : Fin 2) * 512 ≤ (i 0).val ∧ (i 0).val < win2_3.index _ (0 : Fin 2) * 512 + 512
    omega
  | ⟨1, _⟩ =>
    show win2_3.index _ (1 : Fin 2) * 1 ≤ (i 1).val ∧ (i 1).val < win2_3.index _ (1 : Fin 2) * 1 + 1
    omega

theorem cover4 (i : S4096x1.Idx) : ∃ t : Fin cfg2.N, (cfg2.win 4).flush t = true ∧ i ∈ ((cfg2.win 4).blk t).view.set := by
  have hi0 : (i 0).val < 4096 := (i 0).isLt
  have hi1 : (i 1).val < 1 := (i 1).isLt
  have hN : cfg2.N = 64 := N_2
  refine ⟨⟨8 * ((i 0).val / 512) + 7, by rw [hN]; omega⟩, (flush2_4 _).mpr (by dsimp only; omega), ?_⟩
  obtain ⟨-, -, -, -, -, -, -, -, e0, e1⟩ := idx2 ⟨8 * ((i 0).val / 512) + 7, by rw [hN]; omega⟩
  dsimp only at e0 e1
  rw [mem_blk4]
  intro a
  match a with
  | ⟨0, _⟩ =>
    show win2_4.index _ (0 : Fin 2) * 512 ≤ (i 0).val ∧ (i 0).val < win2_4.index _ (0 : Fin 2) * 512 + 512
    omega
  | ⟨1, _⟩ =>
    show win2_4.index _ (1 : Fin 2) * 1 ≤ (i 1).val ∧ (i 1).val < win2_4.index _ (1 : Fin 2) * 1 + 1
    omega

end Loss

theorem loss_value (c : Dev nD) (p : Fin 4096) :
    (dat2 (F := Ideal) V c).arrAt 3 cfg2.N (ix2 p 0)
      = Cert.Contrast.rowLoss (fun p k => V c main_v0 (ix2 p k)) (fun q k => V c main_v1 (ix2 q k)) (fun p q => V c main_arg2 (ix2 p q)) p :=
  congrFun ((dat2 (F := Ideal) V c).arrAt_eq_of_cover 3 (Loss.lossCol V c) (fun t hf => Loss.flushed3_eq V c t hf) Loss.cover3) (ix2 p 0)

theorem cnt_value (c : Dev nD) (p : Fin 4096) :
    (dat2 (F := Ideal) V c).arrAt 4 cfg2.N (ix2 p 0) = Cert.Contrast.cntRow (fun p q => V c main_arg2 (ix2 p q)) p :=
  congrFun ((dat2 (F := Ideal) V c).arrAt_eq_of_cover 4 (Loss.cntCol V c) (fun t hf => Loss.flushed4_eq V c t hf) Loss.cover4) (ix2 p 0)

end Cert.KernelIdeal.HandValue

end
-- ==== Proof.KV.Result.lean ====
import proofs.«128564_j90091234001463_1_alg».proof.Proof.KI.Run
import proofs.«128564_j90091234001463_1_alg».proof.Proof.KV.PoolValue
import proofs.«128564_j90091234001463_1_alg».proof.Proof.KV.LossValue
import Idealize.ShloMosaic.Lib.ValueIdx
import Idealize.ShloMosaic.PureOps.Ideal.Laws

/-!
  The kernel program's result on the extended reals: the loss with its total formed row by row.

  Pipelines 0 and 1 leave the unit rows of the two batches; pipeline 2, entered with them and the label table, leaves
  each row's loss share and its number of positives; the host operations add the two columns and return the weight times
  (total / max(count, 1)) when the count is positive, else zero. That is `Contrast.lossRows` of the unit rows.
-/

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem

/-- The word of `1.0` denotes `1`. -/
theorem word_one : Ideal.ofBits .f32 0x3F800000#32 = (1 : EReal) := by
  simp [Ideal.ofBits, Ideal.ieee, -EReal.coe_mul]; norm_num

/-- The host's sum of a 4096 × 1 column from zero is the sum of its 4096 entries. -/
theorem column_sum (x : (⟨S4096x1, .f32⟩ : BufTy).Contents (Elt Ideal)) :
    Host.reduceAdd (F := Ideal) x (constant S_ .f32 0x00000000#32) reducesTo_S4096x1_S_d0_1 h_S_ ix0
      = ∑ p : Fin 4096, x (ix2 p 0) := by
  simp only [Host.reduceAdd, Ideal.hostReduceAdd_def]
  rw [Ideal.hostReduceAdd_total reducesTo_S4096x1_S_d0_1 (fun b => b.elim0) x _ ix0]
  rw [show (constant (F := Ideal) S_ .f32 0x00000000#32) (Shape.Idx.first h_S_) = (0 : EReal) from Ideal.ofBits_zero_f32,
    zero_add, sum_idx2]
  exact Finset.sum_congr rfl fun p _ => Fin.sum_univ_one _

/-- A comparison's bit selects as the comparison decides. -/
theorem select_of_gt (n a b : EReal) :
    Scalar.select (Ideal.cmp .ogt n 0) a b = if 0 < n then a else b := by
  unfold Ideal.cmp
  by_cases h : (0 : EReal) < n
  · rw [if_pos h]; simp only [h, decide_true]; exact select_one a b
  · rw [if_neg h]; simp only [h, decide_false]; exact select_zero a b

/-- The host tail: the weight times (total / max(count, 1)) when the count is positive, else zero. -/
theorem hostTail_apply (x y : (⟨S4096x1, .f32⟩ : BufTy).Contents (Elt Ideal)) :
    hostTail (F := Ideal) x y ix0
      = Cert.Contrast.wLam * (if 0 < ∑ p : Fin 4096, y (ix2 p 0) then
          Ideal.div (∑ p : Fin 4096, x (ix2 p 0)) (max (∑ p : Fin 4096, y (ix2 p 0)) 1) else 0) := by
  unfold hostTail
  change Ideal.ofBits .f32 0x3E99999A#32
      * Scalar.select (Ideal.cmp .ogt (Host.reduceAdd (F := Ideal) y (constant S_ .f32 0x00000000#32) reducesTo_S4096x1_S_d0_1 h_S_ ix0) (Ideal.ofBits .f32 0x00000000#32))
          (Ideal.div (Host.reduceAdd (F := Ideal) x (constant S_ .f32 0x00000000#32) reducesTo_S4096x1_S_d0_1 h_S_ ix0)
            (max (Host.reduceAdd (F := Ideal) y (constant S_ .f32 0x00000000#32) reducesTo_S4096x1_S_d0_1 h_S_ ix0) (Ideal.ofBits .f32 0x3F800000#32)))
          (Ideal.ofBits .f32 0x00000000#32) = _
  rw [column_sum, column_sum, Ideal.ofBits_zero_f32, word_one, select_of_gt]

variable (m : (ℓ : Loc nD τ sig) → Buf (Elt Ideal) ℓ)

/-- The two batches and the label table as launched, over plain coordinates. -/
abbrev launchedA (c : Dev nD) : Fin 4096 → Fin 8 → Fin 256 → EReal := fun p s d => m ((c : Thread nD τ).loc main_arg0) (ix3 p s d)
abbrev launchedB (c : Dev nD) : Fin 4096 → Fin 8 → Fin 256 → EReal := fun p s d => m ((c : Thread nD τ).loc main_arg1) (ix3 p s d)
abbrev launchedLabels (c : Dev nD) : Fin 4096 → Fin 4096 → BitVec 32 := fun p q => m ((c : Thread nD τ).loc main_arg2) (ix2 p q)

/-- Pipeline 2 is entered with the unit rows of the two batches and the label table as launched. -/
theorem entryRowsA_eq (c : Dev nD) :
    (fun p k => En2 m c main_v0 (ix2 p k)) = Cert.Contrast.unitRow (launchedA m c) := by
  funext p k
  rw [En2_v0]
  exact pool0_value (En0 m) c p k

theorem entryRowsB_eq (c : Dev nD) :
    (fun q k => En2 m c main_v1 (ix2 q k)) = Cert.Contrast.unitRow (launchedB m c) := by
  funext q k
  rw [En2_v1]
  refine (pool1_value (En1 m) c q k).trans ?_
  rw [show (fun p s d => En1 m c main_arg1 (ix3 p s d)) = launchedB m c from by
    funext p s d; rw [En1_arg1]]

theorem entryLabels_eq (c : Dev nD) : (fun p q => En2 m c main_arg2 (ix2 p q)) = launchedLabels m c := by
  funext p q; rw [En2_arg2]

/-- The kernel program's result is the loss formed row by row over the unit rows of the two batches. -/
theorem kernel_value (c : Dev nD) :
    hostTail (F := Ideal) (lossArr m c) (cntArr m c) ix0
      = Cert.Contrast.lossRows (Cert.Contrast.unitRow (launchedA m c)) (Cert.Contrast.unitRow (launchedB m c)) (launchedLabels m c) := by
  have hx : ∀ p : Fin 4096, lossArr m c (ix2 p 0)
      = Cert.Contrast.rowLoss (Cert.Contrast.unitRow (launchedA m c)) (Cert.Contrast.unitRow (launchedB m c)) (launchedLabels m c) p := fun p => by
    unfold lossArr
    rw [loss_value (En2 m) c p, entryRowsA_eq, entryRowsB_eq, entryLabels_eq]
  have hy : ∀ p : Fin 4096, cntArr m c (ix2 p 0) = Cert.Contrast.cntRow (launchedLabels m c) p := fun p => by
    unfold cntArr
    rw [cnt_value (En2 m) c p, entryLabels_eq]
  rw [hostTail_apply]
  unfold Cert.Contrast.lossRows
  simp only [hx, hy]

end Cert.KernelIdeal.HandValue

end
-- ==== Proof.RefRunRead.lean ====
import proofs.«128564_j90091234001463_1_alg».proof.Proof.RefRun
import proofs.«128564_j90091234001463_1_alg».proof.Proof.RefRead

/-!
  The reference's result, as the run states it, is the last stage of the reference read one operation at a time.

  The run states the result buffer's contents as ONE composed term of the three argument arrays: every operation's
  function applied to its operands' terms, in program order. The staged reading names each operation's value as a
  function of the arguments it depends on, the last stage being the product of the weight's word with the guarded
  quotient. The two are the same term once each stage is opened, so the equation holds by unfolding alone.
-/

noncomputable section

namespace Cert.ReferenceIdeal.RunRead

open Cert.ReferenceIdeal Cert.ReferenceIdeal.Gen Idealize.ShloMosaic Idealize.ShloMosaic.TcCoe Idealize.SL.Sem Idealize.ShloMosaic.StableHlo

variable {F : FTy → Type} [FloatOps F]

/-- The composed term of the run is the last stage at the three argument arrays of the launch. -/
theorem res_eq_val (m : (ℓ : Loc nD τ sig) → Buf (Elt F) ℓ) (c : Dev nD) :
    Cert.ReferenceIdeal.RunP.res_main_v48 m c
      = Cert.ReferenceIdeal.ReadP.val_main_v48 (F := F) (m ((c.tc : Thread nD τ).loc main_arg0))
          (m ((c.tc : Thread nD τ).loc main_arg1)) (m ((c.tc : Thread nD τ).loc main_arg2)) := by
  unfold Cert.ReferenceIdeal.RunP.res_main_v48; rfl

end Cert.ReferenceIdeal.RunRead

end
-- ==== Proof.RefValue.lean ====
import proofs.«128564_j90091234001463_1_alg».proof.Proof.RefRead
import proofs.«128564_j90091234001463_1_alg».proof.Proof.Contrast
import Idealize.ShloMosaic.Lib.StableHlo.Predicate

/-!
  The reference program's result as one function of the argument arrays.

  Stage by stage, at explicit coordinates: the average over the 8 slots (a sum from zero divided by the word 8.0) is
  `mean`; the square root of the sum of squares, bounded below, is `len`, and the quotient is `unitRow`, for either
  batch; the contraction over the 256 coordinates divided by the temperature is `sim`; the comparison of the two
  coordinate words (coordinates below 4096 do not wrap at 32 bits) is the diagonal, and with the label's test it is
  `IsPos`; the exponential off the diagonal summed along a row is `den`, its logarithm after the small addend `logDen`;
  the sum over every index of the selected differences is the double sum over rows and columns; the integer
  reduction over both axes, a fold of wrapping word addition from zero, is the double sum of the words `1` and `0`,
  `cntWord`; the signed test against `0`, the signed maximum with `1` and the conversion of that word to a real give
  the guard and the divisor of `lossPairs`.
-/

noncomputable section

namespace Cert.ReferenceIdeal.RefValue

open Cert.ReferenceIdeal Cert.ReferenceIdeal.ReadP Idealize.ShloMosaic Idealize.ShloMosaic.ValueIdx Cert.Contrast
open Idealize.ShloMosaic.StableHlo

/-- The word 8.0. -/
theorem word_eight : Ideal.ofBits .f32 0x41000000#32 = ((8 : ℝ) : EReal) := by
  simp [Ideal.ofBits, Ideal.ieee, -EReal.coe_mul]; norm_num

/-- An argument array by coordinates. -/
abbrev slots (x : (⟨S4096x8x256, .f32⟩ : BufTy).Contents (Elt Ideal)) (p : Fin 4096) (s : Fin 8) (d : Fin 256) : EReal :=
  x (ix3 p s d)

/-- The label table by coordinates. -/
abbrev labels (x2 : (⟨S4096x4096, .i32⟩ : BufTy).Contents (Elt Ideal)) (p q : Fin 4096) : BitVec 32 := x2 (ix2 p q)

section Pool
variable (x : (⟨S4096x8x256, .f32⟩ : BufTy).Contents (Elt Ideal))

theorem mean0 (p : Fin 4096) (d : Fin 256) :
    val_main_v2 (F := Ideal) x (ix2 p d) = mean (slots x) p d := by
  rw [val_main_v2_apply, val_main_v0_apply, val_main_v1_apply, val_main_cst_apply, val_main_cst_0_apply]
  simp only [Ideal.ofBits_def, Ideal.hostDivf_def, Ideal.ofBits_zero_f32, zero_add]
  rw [word_eight, Ideal.div_coe (by norm_num)]
  unfold mean
  refine congrArg (· * _) (Finset.sum_congr rfl fun k _ => ?_)
  exact congrArg x (funext fun a => Fin.ext (by match a with | ⟨0, _⟩ => rfl | ⟨1, _⟩ => rfl | ⟨2, _⟩ => rfl))

theorem sq0 (p : Fin 4096) :
    val_main_call0_v1 (F := Ideal) x (ix1 p) = ∑ d : Fin 256, mean (slots x) p d * mean (slots x) p d := by
  rw [val_main_call0_v1_apply, val_main_call0_cst_apply]
  simp only [Ideal.ofBits_def, Ideal.ofBits_zero_f32, zero_add]
  refine Finset.sum_congr rfl fun k _ => ?_
  have e : idx_main_call0_v1 (ix1 p) k = ix2 p k :=
    funext fun a => Fin.ext (by match a with | ⟨0, _⟩ => rfl | ⟨1, _⟩ => rfl)
  rw [val_main_call0_v0_apply, Ideal.mulf_def, e, mean0]

theorem len0 (p : Fin 4096) (d : Fin 256) :
    val_main_v9 (F := Ideal) x (ix2 p d) = len (slots x) p := by
  have e : idx_main_call0_v2 (idx_main_v9 (ix2 p d)) = ix1 p :=
    funext fun a => Fin.ext (by match a with | ⟨0, _⟩ => rfl)
  rw [val_main_v9_apply, val_main_v8_apply, val_main_v6_apply, val_main_call0_v2_apply, val_main_v7_apply, val_main_cst_3_apply, e, sq0]
  rfl

theorem unit0 (p : Fin 4096) (d : Fin 256) :
    val_main_v10 (F := Ideal) x (ix2 p d) = unitRow (slots x) p d := by
  rw [val_main_v10_apply, Ideal.hostDivf_def, mean0, len0]
  rfl

theorem mean1 (p : Fin 4096) (d : Fin 256) :
    val_main_v5 (F := Ideal) x (ix2 p d) = mean (slots x) p d := by
  rw [val_main_v5_apply, val_main_v3_apply, val_main_v4_apply, val_main_cst_1_apply, val_main_cst_2_apply]
  simp only [Ideal.ofBits_def, Ideal.hostDivf_def, Ideal.ofBits_zero_f32, zero_add]
  rw [word_eight, Ideal.div_coe (by norm_num)]
  unfold mean
  refine congrArg (· * _) (Finset.sum_congr rfl fun k _ => ?_)
  exact congrArg x (funext fun a => Fin.ext (by match a with | ⟨0, _⟩ => rfl | ⟨1, _⟩ => rfl | ⟨2, _⟩ => rfl))

theorem sq1 (p : Fin 4096) :
    val_main_call1_v1 (F := Ideal) x (ix1 p) = ∑ d : Fin 256, mean (slots x) p d * mean (slots x) p d := by
  rw [val_main_call1_v1_apply, val_main_call1_cst_apply]
  simp only [Ideal.ofBits_def, Ideal.ofBits_zero_f32, zero_add]
  refine Finset.sum_congr rfl fun k _ => ?_
  have e : idx_main_call1_v1 (ix1 p) k = ix2 p k :=
    funext fun a => Fin.ext (by match a with | ⟨0, _⟩ => rfl | ⟨1, _⟩ => rfl)
  rw [val_main_call1_v0_apply, Ideal.mulf_def, e, mean1]

theorem len1 (p : Fin 4096) (d : Fin 256) :
    val_main_v14 (F := Ideal) x (ix2 p d) = len (slots x) p := by
  have e : idx_main_call1_v2 (idx_main_v14 (ix2 p d)) = ix1 p :=
    funext fun a => Fin.ext (by match a with | ⟨0, _⟩ => rfl)
  rw [val_main_v14_apply, val_main_v13_apply, val_main_v11_apply, val_main_call1_v2_apply, val_main_v12_apply, val_main_cst_4_apply, e, sq1]
  rfl

theorem unit1 (p : Fin 4096) (d : Fin 256) :
    val_main_v15 (F := Ideal) x (ix2 p d) = unitRow (slots x) p d := by
  rw [val_main_v15_apply, Ideal.hostDivf_def, mean1, len1]
  rfl

end Pool

section Loss
variable (x0 x1 : (⟨S4096x8x256, .f32⟩ : BufTy).Contents (Elt Ideal)) (x2 : (⟨S4096x4096, .i32⟩ : BufTy).Contents (Elt Ideal))

/-- The two families of unit rows. -/
abbrev rowsA : Fin 4096 → Fin 256 → EReal := unitRow (slots x0)
abbrev rowsB : Fin 4096 → Fin 256 → EReal := unitRow (slots x1)

theorem sim0 (p q : Fin 4096) :
    val_main_v19 (F := Ideal) x0 x1 (ix2 p q) = sim (rowsA x0) (rowsB x1) p q := by
  rw [val_main_v19_apply, val_main_v17_apply, val_main_v18_apply, val_main_cst_5_apply]
  simp only [Ideal.ofBits_def, Ideal.hostDivf_def]
  unfold sim
  refine congrArg (Ideal.div · _) (Finset.sum_congr rfl fun k _ => ?_)
  have el : lidx_main_v17 (ix2 p q) k = ix2 p k :=
    funext fun a => Fin.ext (by match a with | ⟨0, _⟩ => rfl | ⟨1, _⟩ => rfl)
  have er : idx_main_v16 (ridx_main_v17 (ix2 p q) k) = ix2 q k :=
    funext fun a => Fin.ext (by match a with | ⟨0, _⟩ => rfl | ⟨1, _⟩ => rfl)
  rw [val_main_v16_apply, el, er, unit0, unit1]

/-- Coordinates below 4096 are distinct as 32-bit words when distinct. -/
theorem ofNat_inj_small {a b : Nat} (ha : a < 4096) (hb : b < 4096) (h : BitVec.ofNat 32 a = BitVec.ofNat 32 b) : a = b := by
  have := congrArg BitVec.toNat h
  simp only [BitVec.toNat_ofNat] at this
  omega

/-- The diagonal's bit. -/
theorem eyeBit (p q : Fin 4096) : val_main_v24 (F := Ideal) (ix2 p q) = if p = q then 1#1 else 0#1 := by
  rw [val_main_v24_apply, val_main_v23_apply, val_main_v20_apply, val_main_v21_apply, val_main_v22_apply, val_main_c_apply]
  show IntOp.cmpi .eq (BitVec.ofNat 32 p.val + 0#32) (BitVec.ofNat 32 q.val) = _
  rw [BitVec.add_zero]
  by_cases h : p = q
  · subst h; rw [if_pos rfl]; exact Predicate.cmpi_eq_iff.mpr rfl
  · rw [if_neg h]
    refine eq_zero_of_ne_one fun e => h (Fin.ext ?_)
    exact ofNat_inj_small p.isLt q.isLt (Predicate.cmpi_eq_iff.mp e)

/-- The positive pairs' bit. -/
theorem posBit (p q : Fin 4096) :
    val_main_v29 (F := Ideal) x2 (ix2 p q) = if IsPos (labels x2) p q then 1#1 else 0#1 := by
  rw [val_main_v29_apply, val_main_v27_apply, val_main_v26_apply, val_main_v25_apply, val_main_c_6_apply, val_main_v28_apply, eyeBit]
  show IntOp.andi (IntOp.cmpi .ne (labels x2 p q) 0#32) (~~~(if p = q then 1#1 else 0#1)) = _
  unfold IsPos IntOp.andi IntOp.cmpi
  cases hb : (labels x2 p q != 0#32)
  · have h1 : labels x2 p q = 0#32 := by simpa using hb
    by_cases h2 : p = q <;> simp [h1, h2]
  · have h1 : labels x2 p q ≠ 0#32 := by simpa using hb
    by_cases h2 : p = q <;> simp [h1, h2]

theorem expOff0 (p q : Fin 4096) :
    val_main_v31 (F := Ideal) x0 x1 (ix2 p q) = expOff (rowsA x0) (rowsB x1) p q := by
  rw [val_main_v31_apply, eyeBit, val_main_call2_v1_apply, val_main_call2_v0_apply, val_main_cst_7_apply, val_main_v30_apply, sim0]
  simp only [Ideal.ofBits_def, Ideal.ofBits_zero_f32, Ideal.hostUnary_exp_def]
  unfold expOff
  by_cases h : p = q
  · rw [if_pos h, if_pos h, select_one]
  · rw [if_neg h, if_neg h, select_zero]

theorem den0 (p : Fin 4096) :
    val_main_v32 (F := Ideal) x0 x1 (ix1 p) = den (rowsA x0) (rowsB x1) p := by
  rw [val_main_v32_apply, val_main_cst_8_apply]
  simp only [Ideal.ofBits_def, Ideal.ofBits_zero_f32, zero_add]
  unfold den
  refine Finset.sum_congr rfl fun k _ => ?_
  have e : idx_main_v32 (ix1 p) k = ix2 p k :=
    funext fun a => Fin.ext (by match a with | ⟨0, _⟩ => rfl | ⟨1, _⟩ => rfl)
  rw [e, expOff0]

theorem logDen0 (p : Fin 4096) :
    val_main_v35 (F := Ideal) x0 x1 (ix1 p) = logDen (rowsA x0) (rowsB x1) p := by
  rw [val_main_v35_apply, val_main_v34_apply, val_main_v33_apply, val_main_cst_9_apply, den0]
  rfl

theorem pair0 (p q : Fin 4096) :
    val_main_v41 (F := Ideal) x0 x1 x2 (ix2 p q)
      = if IsPos (labels x2) p q then logDen (rowsA x0) (rowsB x1) p - sim (rowsA x0) (rowsB x1) p q else 0 := by
  have e : idx_main_v36 (idx_main_v37 (ix2 p q)) = ix1 p :=
    funext fun a => Fin.ext (by match a with | ⟨0, _⟩ => rfl)
  rw [val_main_v41_apply, posBit, val_main_v38_apply, val_main_v37_apply, val_main_v36_apply, e, logDen0, sim0,
    val_main_call3_v1_apply, val_main_call3_v0_apply, val_main_cst_11_apply]
  simp only [Ideal.ofBits_def, Ideal.ofBits_zero_f32, Ideal.subf_def]
  by_cases h : IsPos (labels x2) p q
  · rw [if_pos h, if_pos h, select_one]
  · rw [if_neg h, if_neg h, select_zero]

theorem total0 :
    val_main_v42 (F := Ideal) x0 x1 x2 ix0
      = ∑ p : Fin 4096, ∑ q : Fin 4096,
          if IsPos (labels x2) p q then logDen (rowsA x0) (rowsB x1) p - sim (rowsA x0) (rowsB x1) p q else 0 := by
  rw [val_main_v42_apply, val_main_cst_12_apply]
  simp only [Ideal.ofBits_def, Ideal.ofBits_zero_f32, zero_add]
  rw [sum_idx2]
  exact Finset.sum_congr rfl fun p _ => Finset.sum_congr rfl fun q _ => pair0 x0 x1 x2 p q

end Loss

section Count
variable (x0 x1 : (⟨S4096x8x256, .f32⟩ : BufTy).Contents (Elt Ideal)) (x2 : (⟨S4096x4096, .i32⟩ : BufTy).Contents (Elt Ideal))

/-- A set fold of word addition from zero is the sum of the words (addition of words wraps, and so does the sum). -/
theorem fold_addi_eq_sum {ι : Type} (S : Finset ι) (f : ι → BitVec 32) :
    S.fold IntOp.addi 0#32 f = ∑ i ∈ S, f i := by
  induction S using Finset.cons_induction with
  | empty => rfl
  | cons a S ha ih => rw [Finset.fold_cons, Finset.sum_cons, ih]; rfl

/-- The integer count of positive pairs: the sum over every index of the widened bit. -/
theorem cnt0 : val_main_v40 (F := Ideal) x2 ix0 = cntWord (labels x2) := by
  unfold val_main_v40
  rw [Host.reduce_eq_fold, Finset.filter_true_of_mem (fun i _ => funext fun a => a.elim0)]
  show Finset.fold IntOp.addi 0#32 (val_main_v39 (F := Ideal) x2) Finset.univ = _
  rw [fold_addi_eq_sum, sum_idx2]
  unfold cntWord
  refine Finset.sum_congr rfl fun p _ => Finset.sum_congr rfl fun q _ => ?_
  rw [val_main_v39_apply, posBit]
  by_cases h : IsPos (labels x2) p q
  · rw [if_pos h, if_pos h]; rfl
  · rw [if_neg h, if_neg h]; rfl

/-- The signed maximum of a word and 1, as an integer. -/
theorem toInt_maxsi_one (c : BitVec 32) : (IntOp.maxsi c 1#32).toInt = max c.toInt 1 := by
  unfold IntOp.maxsi
  have h1 : (1#32 : BitVec 32).toInt = 1 := by decide
  by_cases h : (1#32 : BitVec 32).slt c = true
  · rw [if_pos h]; simp only [BitVec.slt, h1, decide_eq_true_eq] at h; omega
  · rw [if_neg h]; simp only [BitVec.slt, h1, decide_eq_true_eq] at h; rw [h1]; omega

/-- The signed test "greater than 0" of a word. -/
theorem sgt_zero (c : BitVec 32) : IntOp.cmpi .sgt c 0#32 = if (0 : ℤ) < c.toInt then 1#1 else 0#1 := by
  unfold IntOp.cmpi
  show BitVec.ofBool ((0#32 : BitVec 32).slt c) = _
  have h0 : (0#32 : BitVec 32).toInt = 0 := by decide
  by_cases h : (0 : ℤ) < c.toInt
  · rw [if_pos h]; simp [BitVec.slt, h0, h]
  · rw [if_neg h]; simp [BitVec.slt, h0, h]

theorem ref_value' :
    val_main_v48 (F := Ideal) x0 x1 x2 ix0 = lossPairs (rowsA x0) (rowsB x1) (labels x2) := by
  rw [val_main_v48_apply, val_main_cst_16_apply, val_main_v47_apply, val_main_v43_apply, val_main_v46_apply, val_main_v45_apply,
    val_main_v44_apply, val_main_c_13_apply, val_main_c_14_apply, val_main_cst_15_apply, cnt0, total0, sgt_zero]
  simp only [Ideal.ofBits_def, Ideal.ofBits_zero_f32, Ideal.mulf_def, Ideal.hostDivf_def]
  unfold lossPairs
  refine congrArg (wLam * ·) ?_
  by_cases h : (0 : ℤ) < (cntWord (labels x2)).toInt
  · rw [if_pos h, if_pos h, select_one]
    refine congrArg (Ideal.div _) ?_
    show (((IntOp.maxsi (cntWord (labels x2)) 1#32).toInt : ℝ) : EReal) = _
    rw [toInt_maxsi_one]
  · rw [if_neg h, if_neg h, select_zero]

end Count

/-- The reference's result is the loss formed pair by pair, with the positives counted as a 32-bit integer. -/
theorem ref_value (x0 x1 : (⟨S4096x8x256, .f32⟩ : BufTy).Contents (Elt Ideal)) (x2 : (⟨S4096x4096, .i32⟩ : BufTy).Contents (Elt Ideal)) :
    Cert.ReferenceIdeal.ReadP.val_main_v48 (F := Ideal) x0 x1 x2 ValueIdx.ix0
      = Cert.Contrast.lossPairs (Cert.Contrast.unitRow fun p s d => x0 (ValueIdx.ix3 p s d))
          (Cert.Contrast.unitRow fun p s d => x1 (ValueIdx.ix3 p s d)) (fun p q => x2 (ValueIdx.ix2 p q)) :=
  ref_value' x0 x1 x2

end Cert.ReferenceIdeal.RefValue

end
-- ==== Proof.ContrastLaw.lean ====
import proofs.«128564_j90091234001463_1_alg».proof.Proof.Contrast

/-!
  The two forms of the contrastive loss agree when the rows are real.

  With real rows every similarity is real, its exponential a positive real, each row's partition sum a nonnegative
  real, and (the constant under the logarithm being positive) each log-partition a real. Over the reals
  Σ_q [pos p q] (ℓ_p − s_pq) = n_p · ℓ_p − Σ_q [pos p q] s_pq, so the two totals agree; the number of positive
  pairs is at most 4096² = 2^24 < 2^31, so the 32-bit count does not wrap and reads as the same natural number
  the sum of ones gives.
-/

noncomputable section

namespace Cert.Contrast

open Idealize.ShloMosaic

/-! ## The constants are positive reals -/

theorem wEps_real : ∃ e : ℝ, 0 < e ∧ wEps = ((e : ℝ) : EReal) := by
  refine ⟨9223372 * (2 : ℝ) ^ (-63 : ℤ), by positivity, ?_⟩
  simp [wEps, Ideal.ofBits, Ideal.ieee, -EReal.coe_mul]

theorem wTemp_real : ∃ e : ℝ, 0 < e ∧ wTemp = ((e : ℝ) : EReal) := by
  refine ⟨9395241 * (2 : ℝ) ^ (-27 : ℤ), by positivity, ?_⟩
  simp [wTemp, Ideal.ofBits, Ideal.ieee, -EReal.coe_mul]

theorem wTiny_real : ∃ e : ℝ, 0 < e ∧ wTiny = ((e : ℝ) : EReal) := by
  refine ⟨11258999 * (2 : ℝ) ^ (-50 : ℤ), by positivity, ?_⟩
  simp [wTiny, Ideal.ofBits, Ideal.ieee, -EReal.coe_mul]

/-! ## Sums of reals -/

/-- The inclusion of the reals carries a finite sum to the sum of the images. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ## Pooled and normalised rows are real -/

section Pool
variable (X : Fin 4096 → Fin 8 → Fin 256 → EReal) (hX : ∀ p s d, ∃ r : ℝ, X p s d = ((r : ℝ) : EReal))
include hX

theorem mean_real : ∀ p d, ∃ r : ℝ, mean X p d = ((r : ℝ) : EReal) := by
  choose x hx using hX
  intro p d
  exact ⟨(∑ s, x p s d) * (1 / 8), by simp only [mean, hx, EReal.coe_mul, coe_sum]⟩

/-- The length is a positive real: it is at least the positive lower bound. -/
theorem len_real : ∀ p, ∃ r : ℝ, 0 < r ∧ len X p = ((r : ℝ) : EReal) := by
  obtain ⟨e, he, hwe⟩ := wEps_real
  choose m hm using mean_real X hX
  intro p
  have hS : (0 : ℝ) ≤ ∑ d, m p d * m p d := Finset.sum_nonneg fun d _ => mul_self_nonneg _
  refine ⟨max (Real.sqrt (∑ d, m p d * m p d)) e, lt_max_of_lt_right he, ?_⟩
  have hsum : (∑ d, mean X p d * mean X p d) = ((∑ d, m p d * m p d : ℝ) : EReal) := by
    simp only [hm, coe_sum, EReal.coe_mul]
  rw [len, hsum, hwe, Ideal.sqrt_coe, if_neg (not_lt.mpr hS)]
  exact (EReal.coe_strictMono.monotone.map_max).symm

theorem unitRow_real : ∀ p d, ∃ r : ℝ, unitRow X p d = ((r : ℝ) : EReal) := by
  choose m hm using mean_real X hX
  choose n hn hln using len_real X hX
  intro p d
  exact ⟨m p d * (1 / n p), by rw [unitRow, hm, hln, Ideal.div_coe (hn p).ne', EReal.coe_mul]⟩

end Pool

/-! ## Similarities and log-partitions are real -/

section Real
variable (A B : Fin 4096 → Fin 256 → EReal)
  (hA : ∀ p k, ∃ r : ℝ, A p k = ((r : ℝ) : EReal)) (hB : ∀ q k, ∃ r : ℝ, B q k = ((r : ℝ) : EReal))
include hA hB

theorem sim_real : ∀ p q, ∃ s : ℝ, sim A B p q = ((s : ℝ) : EReal) := by
  obtain ⟨t, ht, hwt⟩ := wTemp_real
  choose a ha using hA
  choose b hb using hB
  intro p q
  refine ⟨(∑ k, a p k * b q k) * (1 / t), ?_⟩
  rw [sim, hwt, Ideal.div_coe ht.ne']
  simp only [ha, hb, EReal.coe_mul, coe_sum]

/-- Each term of a partition sum is a nonnegative real. -/
theorem expOff_real : ∀ p q, ∃ e : ℝ, 0 ≤ e ∧ expOff A B p q = ((e : ℝ) : EReal) := by
  choose s hs using sim_real A B hA hB
  intro p q
  by_cases h : p = q
  · exact ⟨0, le_refl _, by rw [expOff, if_pos h, EReal.coe_zero]⟩
  · exact ⟨Real.exp (s p q), (Real.exp_pos _).le, by rw [expOff, if_neg h, hs, Ideal.exp_coe]⟩

theorem den_real : ∀ p, ∃ D : ℝ, 0 ≤ D ∧ den A B p = ((D : ℝ) : EReal) := by
  choose e he0 he using expOff_real A B hA hB
  intro p
  exact ⟨∑ q, e p q, Finset.sum_nonneg fun q _ => he0 p q, by simp only [den, he, coe_sum]⟩

/-- The argument of the logarithm is a positive real, so the log-partition is real. -/
theorem logDen_real : ∀ p, ∃ l : ℝ, logDen A B p = ((l : ℝ) : EReal) := by
  obtain ⟨y, hy, hwy⟩ := wTiny_real
  choose D hD0 hD using den_real A B hA hB
  intro p
  have hpos : ¬ (D p + y ≤ 0) := not_le.mpr (add_pos_of_nonneg_of_pos (hD0 p) hy)
  exact ⟨Real.log (D p + y), by rw [logDen, hD, hwy, ← EReal.coe_add, Ideal.log_coe, if_neg hpos]⟩

end Real

/-! ## The two totals over the reals -/

section Totals
variable (P : Fin 4096 → Fin 4096 → Prop) [∀ p q, Decidable (P p q)]

/-- Row by row: (number of marked entries) · ℓ_p − (sum of marked s_pq), added over the rows, is the sum of
    ℓ_p − s_pq over the marked pairs. -/
theorem rows_total (l : Fin 4096 → ℝ) (s : Fin 4096 → Fin 4096 → ℝ) :
    ∑ p, ((∑ q, if P p q then (1 : EReal) else 0) * ((l p : ℝ) : EReal)
        - ∑ q, if P p q then ((s p q : ℝ) : EReal) else 0)
      = ((∑ p, ∑ q, (if P p q then l p - s p q else 0) : ℝ) : EReal) := by
  have h1 : ∀ p, (∑ q, if P p q then (1 : EReal) else 0) = ((∑ q, (if P p q then 1 else 0) : ℝ) : EReal) := by
    intro p
    rw [coe_sum]
    refine Finset.sum_congr rfl fun q _ => ?_
    split_ifs <;> simp
  have h2 : ∀ p, (∑ q, if P p q then ((s p q : ℝ) : EReal) else 0)
      = ((∑ q, (if P p q then s p q else 0) : ℝ) : EReal) := by
    intro p
    rw [coe_sum]
    refine Finset.sum_congr rfl fun q _ => ?_
    split_ifs <;> simp
  simp only [h1, h2, ← EReal.coe_mul, ← EReal.coe_sub, ← coe_sum]
  congr 1
  refine Finset.sum_congr rfl fun p _ => ?_
  rw [Finset.sum_mul, ← Finset.sum_sub_distrib]
  refine Finset.sum_congr rfl fun q _ => ?_
  split_ifs <;> ring

theorem pairs_total (l : Fin 4096 → ℝ) (s : Fin 4096 → Fin 4096 → ℝ) :
    ∑ p, ∑ q, (if P p q then ((l p : ℝ) : EReal) - ((s p q : ℝ) : EReal) else 0)
      = ((∑ p, ∑ q, (if P p q then l p - s p q else 0) : ℝ) : EReal) := by
  rw [coe_sum]
  refine Finset.sum_congr rfl fun p _ => ?_
  rw [coe_sum]
  refine Finset.sum_congr rfl fun q _ => ?_
  split_ifs <;> simp

/-- The number of marked pairs, as a natural number. -/
def count : ℕ := ∑ p, ∑ q, if P p q then 1 else 0

theorem count_le : count P ≤ 16777216 := by
  have h : count P ≤ ∑ _p : Fin 4096, ∑ _q : Fin 4096, 1 :=
    Finset.sum_le_sum fun p _ => Finset.sum_le_sum fun q _ => by split_ifs <;> simp
  simpa using h

theorem ones_total : ∑ p, ∑ q, (if P p q then (1 : EReal) else 0) = (((count P : ℕ) : ℝ) : EReal) := by
  rw [count, Nat.cast_sum, coe_sum]
  refine Finset.sum_congr rfl fun p _ => ?_
  rw [Nat.cast_sum, coe_sum]
  refine Finset.sum_congr rfl fun q _ => ?_
  split_ifs <;> simp

/-- The wrapping 32-bit sum of ones is the count reduced modulo 2^32. -/
theorem word_total : ∑ p, ∑ q, (if P p q then 1#32 else 0#32) = BitVec.ofNat 32 (count P) := by
  have h : ((count P : ℕ) : BitVec 32) = ∑ p, ∑ q, (if P p q then 1#32 else 0#32) := by
    rw [count, Nat.cast_sum]
    refine Finset.sum_congr rfl fun p _ => ?_
    rw [Nat.cast_sum]
    refine Finset.sum_congr rfl fun q _ => ?_
    split_ifs <;> rfl
  rw [← h]; rfl

/-- Below 2^31 the word reads, signed, as the number itself. -/
theorem toInt_ofNat_small (N : ℕ) (h : N < 2147483648) : (BitVec.ofNat 32 N).toInt = (N : ℤ) := by
  rw [BitVec.toInt_eq_toNat_cond, BitVec.toNat_ofNat]
  have : N % 2 ^ 32 = N := Nat.mod_eq_of_lt (by omega)
  rw [this]
  split_ifs <;> omega

end Totals

/-! ## The two forms of the loss agree -/

theorem lossRows_eq_lossPairs (A B : Fin 4096 → Fin 256 → EReal) (L : Fin 4096 → Fin 4096 → BitVec 32)
    (hA : ∀ p k, ∃ r : ℝ, A p k = ((r : ℝ) : EReal)) (hB : ∀ q k, ∃ r : ℝ, B q k = ((r : ℝ) : EReal)) :
    lossRows A B L = lossPairs A B L := by
  choose s hs using sim_real A B hA hB
  choose l hl using logDen_real A B hA hB
  have hN : count (IsPos L) < 2147483648 := lt_of_le_of_lt (count_le (IsPos L)) (by norm_num)
  have hcr : ∑ p, cntRow L p = (((count (IsPos L) : ℕ) : ℝ) : EReal) := by
    simp only [cntRow]
    exact ones_total (IsPos L)
  have hcw : (cntWord L).toInt = ((count (IsPos L) : ℕ) : ℤ) := by
    rw [cntWord, word_total (IsPos L), toInt_ofNat_small _ hN]
  have hrows : ∑ p, rowLoss A B L p
      = ((∑ p, ∑ q, (if IsPos L p q then l p - s p q else 0) : ℝ) : EReal) := by
    simp only [rowLoss, cntRow, posSum, hs, hl]
    exact rows_total (IsPos L) l s
  have hpairs : ∑ p, ∑ q, (if IsPos L p q then logDen A B p - sim A B p q else 0)
      = ((∑ p, ∑ q, (if IsPos L p q then l p - s p q else 0) : ℝ) : EReal) := by
    simp only [hs, hl]
    exact pairs_total (IsPos L) l s
  rw [lossRows, lossPairs, hcr, hcw, hrows, hpairs]
  rcases Nat.eq_zero_or_pos (count (IsPos L)) with h0 | hpos
  · simp [h0]
  · have h1 : (0 : EReal) < (((count (IsPos L) : ℕ) : ℝ) : EReal) := by exact_mod_cast hpos
    have h2 : (0 : ℤ) < ((count (IsPos L) : ℕ) : ℤ) := by exact_mod_cast hpos
    have h3 : (1 : EReal) ≤ (((count (IsPos L) : ℕ) : ℝ) : EReal) := by exact_mod_cast hpos
    have h4 : (1 : ℤ) ≤ ((count (IsPos L) : ℕ) : ℤ) := by exact_mod_cast hpos
    rw [if_pos h1, if_pos h2, max_eq_left h3, max_eq_left h4, Int.cast_natCast]

end Cert.Contrast

end
-- ==== Proof.Finite.lean ====
import proofs.«128564_j90091234001463_1_alg».proof.Pre_finite_inputs
import Idealize.ShloMosaic.Lib.ReduceAll
import Idealize.ShloMosaic.Lib.Affine
import Idealize.ShloMosaic.Lib.ValueIdx
import Idealize.ShloMosaic.PureOps.Ideal.Laws

/-!
  The precondition read on the extended reals: both float inputs compare, entry by entry, strictly below `+∞` in
  absolute value, so every entry is a real number. This is what lets the two forms of the loss be compared: the law
  between them distributes a product over a sum, which fails at the infinities.
-/

noncomputable section

namespace Cert.Finite

open Idealize.ShloMosaic

instance : Subsingleton Cert.Pre_finite_inputs.S_.Idx := ⟨fun a b => funext fun d => d.elim0⟩

/-- The word of `+∞` denotes the top element. -/
theorem ofBits_inf : Ideal.ofBits .f32 0x7F800000#32 = (⊤ : EReal) := by
  simp [Ideal.ofBits, Ideal.ieee]

/-- An extended real whose absolute value is strictly below `+∞` is a real. -/
theorem real_of_abs_lt_top (x : EReal) (h : max x (-x) < (⊤ : EReal)) : ∃ r : ℝ, x = ((r : ℝ) : EReal) := by
  induction x using EReal.rec with
  | bot => simp at h
  | coe r => exact ⟨r, rfl⟩
  | top => simp at h

/-- The same from the comparison's bit. -/
theorem real_of_cmp (x : EReal)
    (h : FloatOps.cmpf (F := Ideal) (φ := .f32) .olt (FloatOps.hostAbsf (F := Ideal) (φ := .f32) x) (Ideal.ofBits .f32 0x7F800000#32) = 1#1) :
    ∃ r : ℝ, x = ((r : ℝ) : EReal) := by
  refine real_of_abs_lt_top x ?_
  rw [ofBits_inf] at h
  change BitVec.ofBool (decide (max x (-x) < (⊤ : EReal))) = 1#1 at h
  by_contra hn
  rw [decide_eq_false hn] at h
  exact absurd h (by decide)

variable [Cert.Pre_finite_inputs.Facts]

/-- Under the precondition every entry of the two float inputs is a real. -/
theorem reals_of_pre (a0 a1 : FVec Ideal Cert.Pre_finite_inputs.S4096x8x256 .f32) (a2 : IVec Cert.Pre_finite_inputs.S4096x4096 32)
    (h : Cert.Pre_finite_inputs.fn (F := Ideal) a0 a1 a2 = fun _ => 1#1) :
    (∀ i, ∃ r : ℝ, a0 i = ((r : ℝ) : EReal)) ∧ (∀ i, ∃ r : ℝ, a1 i = ((r : ℝ) : EReal)) := by
  have h0 := congrFun h ValueIdx.ix0
  dsimp only [Cert.Pre_finite_inputs.fn] at h0
  obtain ⟨h1, h2⟩ := IntOp.andi_eq_one.mp h0
  refine ⟨fun i => real_of_cmp (a0 i) ?_, fun i => real_of_cmp (a1 i) ?_⟩
  · exact Host.reduce_andi_all _ _ _ _ ValueIdx.ix0 h1 i
  · exact Host.reduce_andi_all _ _ _ _ ValueIdx.ix0 h2 i

end Cert.Finite

end
-- ==== Proof.Idealized.lean ====
import proofs.«128564_j90091234001463_1_alg».proof.Defs
import proofs.«128564_j90091234001463_1_alg».proof.Proof.Gen.KernelIdeal
import proofs.«128564_j90091234001463_1_alg».proof.Proof.Gen.ReferenceIdeal
import proofs.«128564_j90091234001463_1_alg».proof.Proof.Gen.Pre_finite_inputs
import proofs.«128564_j90091234001463_1_alg».proof.Proof.KV.Result
import proofs.«128564_j90091234001463_1_alg».proof.Proof.RefRunRead
import proofs.«128564_j90091234001463_1_alg».proof.Proof.RefValue
import proofs.«128564_j90091234001463_1_alg».proof.Proof.ContrastLaw
import proofs.«128564_j90091234001463_1_alg».proof.Proof.Finite

/-!
  The claims about the two idealized programs.

  Each program runs to the end with its arguments unchanged (its run, with the result dropped). For the value: the
  kernel program ends at the contrastive loss with the total formed row by row, the reference at the same loss with the
  total formed pair by pair and the positives counted as an integer; the two are one extended real once the unit rows
  are real, which the precondition (every float input entry finite) gives.
-/

noncomputable section

namespace Cert.Proof.Idealized

open Idealize.ShloMosaic Idealize.ShloMosaic.TcCoe Idealize.SL.Sem

theorem frame_kernelIdeal : Cert.frame_KernelIdeal := fun m ρ _ =>
  (θ_run Cert.KernelIdeal.defs _ _).mono (fun _ h c => (h c).2) (Cert.KernelIdeal.Hand.run_main (F := Ideal) m ρ)

theorem frame_referenceIdeal : Cert.frame_ReferenceIdeal := fun m ρ _ =>
  (θ_run Cert.ReferenceIdeal.defs _ _).mono (fun _ h c => (h c).2) (Cert.ReferenceIdeal.RunP.run (F := Ideal) m ρ)

theorem algebraic : Cert.algebraic_KernelIdeal_ReferenceIdeal := by
  intro m ρ m' ρ' hpre hagree
  refine ⟨fun c => Cert.KernelIdeal.Hand.hostTail (Cert.KernelIdeal.Hand.lossArr m c) (Cert.KernelIdeal.Hand.cntArr m c),
    Cert.KernelIdeal.Hand.run_main (F := Ideal) m ρ, ?_⟩
  refine (θ_run Cert.ReferenceIdeal.defs _ _).mono (fun _ h c => ⟨(h c).1.trans ?_, (h c).2⟩)
    (Cert.ReferenceIdeal.RunP.run (F := Ideal) m' ρ')
  -- the reference's result term is the pair-by-pair loss of its arguments, which are the kernel's
  rw [Cert.ReferenceIdeal.RunRead.res_eq_val]
  funext i
  rw [ValueIdx.eq_ix0 i, Cert.ReferenceIdeal.RefValue.ref_value, (hagree c).1, (hagree c).2.1, (hagree c).2.2]
  -- the kernel's result is the row-by-row loss; the two agree on real unit rows
  obtain ⟨h0, h1⟩ := Cert.Finite.reals_of_pre _ _ _ (hpre c)
  exact ((Cert.KernelIdeal.HandValue.kernel_value m c).trans
    (Cert.Contrast.lossRows_eq_lossPairs _ _ _ (Cert.Contrast.unitRow_real _ fun p s d => h0 _)
      (Cert.Contrast.unitRow_real _ fun p s d => h1 _))).symm

end Cert.Proof.Idealized

end
-- ==== Proof.lean ====
/-
  A contrastive (NT-Xent) loss over two batches of 4096 pooled, unit-length sample vectors and a table of pair labels,
  computed by three pipelined kernels and a short host tail, against its plain array reference.

  The kernel program pools and normalises each batch in a pipeline of its own (8 blocks of 512 samples), then walks the
  4096 × 4096 pair table in 8 × 8 tiles: across the 8 tiles of a row it accumulates, per sample, the partition sum of
  `exp (similarity)` off the diagonal, the sum of the positive pairs' similarities and their number, and at the row's
  last tile stores (count) · log (partition sum + tiny) − (positive similarities) and the count; the host adds the two
  columns and returns weight · total / max(count, 1), or zero when no pair is positive. The reference forms the whole
  similarity matrix, takes each row's log-partition, adds `log-partition − similarity` over the positive pairs, and
  divides by their integer number.

  * The frames (Proof/K/Run.lean for the word-level program, Proof/KI/Run.lean for the idealized one, both from one text;
    Proof/RefRun.lean for the reference): each program runs to the end, faults nowhere and leaves its arguments unchanged.
    For the kernel program that is one launch over its three pipelines and three host stretches; pipeline 2's invariant
    carries the three accumulators from tile to tile (Proof/KI/Data.lean, LossRun.lean, LossBody.lean).
  * The idealization changes no operation, so it is preserved trivially.
  * On the extended reals both programs compute one number (Proof/Idealized.lean): the kernel's result is the loss with
    the total formed row by row (Proof/KV/), the reference's the loss with the total formed pair by pair
    (Proof/RefValue.lean), over the same unit rows; `Σ_q [pos p q] (ℓ_p − s_pq) = n_p ℓ_p − Σ_q [pos p q] s_pq` joins them
    (Proof/ContrastLaw.lean), a law that needs every term real — which the precondition, every float input finite,
    provides (Proof/Finite.lean): the pooled rows are real, their lengths bounded below by a positive constant, so the
    unit rows, the similarities and the log-partitions are real.
-/
import proofs.«128564_j90091234001463_1_alg».proof.Defs
import proofs.«128564_j90091234001463_1_alg».proof.Proof.Gen.Kernel
import proofs.«128564_j90091234001463_1_alg».proof.Proof.Gen.KernelIdeal
import proofs.«128564_j90091234001463_1_alg».proof.Proof.Gen.ReferenceIdeal
import proofs.«128564_j90091234001463_1_alg».proof.Proof.Gen.Pre_finite_inputs
import proofs.«128564_j90091234001463_1_alg».proof.Proof.K.Run
import proofs.«128564_j90091234001463_1_alg».proof.Proof.Idealized
import Idealize.ShloMosaic.Adequacy
import Idealize.ShloMosaic.Init

noncomputable section

namespace Cert.Proof

open Idealize.ShloMosaic Idealize.SL.Sem

/-- The word-level program runs to the end with its arguments unchanged: its run, with the result dropped. -/
theorem frame_kernel : Cert.frame_Kernel := fun m ρ _ =>
  (θ_run Cert.Kernel.defs _ _).mono (fun _ h c => (h c).2) (Cert.Kernel.Hand.run_main (F := Bits) m ρ)

theorem claim : Cert.Claim :=
  ⟨Cert.Kernel.Gen.facts, Cert.KernelIdeal.Gen.facts, Cert.ReferenceIdeal.Gen.facts, Cert.Pre_finite_inputs.Gen.facts,
    frame_kernel, Idealized.frame_kernelIdeal, Idealized.frame_referenceIdeal, trivial, Idealized.algebraic⟩

end Cert.Proof

end
